-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x256x16x16 : S_.BroadcastsInDim S8x256x16x16 (![] : Fin 0 → Fin S8x256x16x16.rank)
  reducesTo_S8x256x16x16_S_d0_1_2_3 : S8x256x16x16.ReducesTo [0, 1, 2, 3] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S9x512x256 : S_.BroadcastsInDim S9x512x256 (![] : Fin 0 → Fin S9x512x256.rank)
  reducesTo_S9x512x256_S_d0_1_2 : S9x512x256.ReducesTo [0, 1, 2] S_
  bcast_S_S512x1 : S_.BroadcastsInDim S512x1 (![] : Fin 0 → Fin S512x1.rank)
  reducesTo_S512x1_S_d0_1 : S512x1.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x1 .f32) (main_arg8 : FVec F S9x512x256 .f32) (main_arg9 : FVec F S512x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S9x512x256 .f32 := Host.absf main_arg8
  let main_cst_14 : FVec F S_ .f32 := constant S_ .f32 0x7F800000#32
  let main_v40 : FVec F S9x512x256 .f32 := broadcastInDim S9x512x256 ![] bcast_S_S9x512x256 main_cst_14
  let main_v41 : IVec S9x512x256 1 := cmpf .olt main_v39 main_v40
  let main_c_15 : IVec S_ 1 := constantI S_ 1 1#1
  let main_v42 : IVec S_ 1 := (fun x v => Host.reduce IntOp.andi x v reducesTo_S9x512x256_S_d0_1_2 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  main_v48

def fn_part1 {F : FTy → Type} [FloatOps F] (main_arg4 : FVec F S9x512x256 .f32) (main_arg5 : FVec F S512x1 .f32) (main_arg6 : FVec F S256x512 .f32) (main_arg7 : FVec F S256x1 .f32) (main_arg8 : FVec F S9x512x256 .f32) (main_arg9 : FVec F S512x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S9x512x256 .f32 := Host.absf main_arg4
  let main_cst_6 : FVec F S_ .f32 := constant S_ .f32 0x7F800000#32
  let main_v20 : FVec F S9x512x256 .f32 := broadcastInDim S9x512x256 ![] bcast_S_S9x512x256 main_cst_6
  let main_v21 : IVec S9x512x256 1 := cmpf .olt main_v19 main_v20
  let main_c_7 : IVec S_ 1 := constantI S_ 1 1#1
  let main_v22 : IVec S_ 1 := (fun x v => Host.reduce IntOp.andi x v reducesTo_S9x512x256_S_d0_1_2 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x64x64 .f32) (main_arg1 : FVec F S8x256x16x16 .f32) (main_arg2 : FVec F S256x256 .f32) (main_arg3 : FVec F S256x1 .f32) (main_arg4 : FVec F S9x512x256 .f32) (main_arg5 : FVec F S512x1 .f32) (main_arg6 : FVec F S256x512 .f32) (main_arg7 : FVec F S256x1 .f32) (main_arg8 : FVec F S9x512x256 .f32) (main_arg9 : FVec F S512x1 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x16x16 .f32 := Host.absf main_arg1
  let main_cst_0 : FVec F S_ .f32 := constant S_ .f32 0x7F800000#32
  let main_v5 : FVec F S8x256x16x16 .f32 := broadcastInDim S8x256x16x16 ![] bcast_S_S8x256x16x16 main_cst_0
  let main_v6 : IVec S8x256x16x16 1 := cmpf .olt main_v4 main_v5
  let main_c_1 : IVec S_ 1 := constantI S_ 1 1#1
  let main_v7 : IVec S_ 1 := (fun x v => Host.reduce IntOp.andi x v reducesTo_S8x256x16x16_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_arg8 main_arg9 main_v13 main_v16
-- ==== Kernel.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S_ : Shape := ⟨0, ![]⟩
abbrev S8x256x1x16 : Shape := ⟨4, ![8, 256, 1, 16]⟩
abbrev S8x256x2x16 : Shape := ⟨4, ![8, 256, 2, 16]⟩
abbrev S8x256x18x16 : Shape := ⟨4, ![8, 256, 18, 16]⟩
abbrev S8x256x20x16 : Shape := ⟨4, ![8, 256, 20, 16]⟩
abbrev S8x256x20x1 : Shape := ⟨4, ![8, 256, 20, 1]⟩
abbrev S8x256x20x2 : Shape := ⟨4, ![8, 256, 20, 2]⟩
abbrev S8x256x20x18 : Shape := ⟨4, ![8, 256, 20, 18]⟩
abbrev S8x256x20x20 : Shape := ⟨4, ![8, 256, 20, 20]⟩
abbrev S8x256x400 : Shape := ⟨3, ![8, 256, 400]⟩
abbrev S256x8x400 : Shape := ⟨3, ![256, 8, 400]⟩
abbrev S256x3200 : Shape := ⟨2, ![256, 3200]⟩
abbrev S256x2x1600 : Shape := ⟨3, ![256, 2, 1600]⟩
abbrev S2x256x1600 : Shape := ⟨3, ![2, 256, 1600]⟩
abbrev S512x9x256 : Shape := ⟨3, ![512, 9, 256]⟩
abbrev S512x2304 : Shape := ⟨2, ![512, 2304]⟩
abbrev S8x256x1 : Shape := ⟨3, ![8, 256, 1]⟩
abbrev S1x256x1600 : Shape := ⟨3, ![1, 256, 1600]⟩
abbrev S4x256x1 : Shape := ⟨3, ![4, 256, 1]⟩
abbrev S256x1600 : Shape := ⟨2, ![256, 1600]⟩
abbrev S256x1558 : Shape := ⟨2, ![256, 1558]⟩
abbrev S2304x1558 : Shape := ⟨2, ![2304, 1558]⟩
abbrev S512x1558 : Shape := ⟨2, ![512, 1558]⟩
abbrev S256x1516 : Shape := ⟨2, ![256, 1516]⟩
abbrev S2304x1516 : Shape := ⟨2, ![2304, 1516]⟩
abbrev S512x1516 : Shape := ⟨2, ![512, 1516]⟩
abbrev S1x316 : Shape := ⟨2, ![1, 316]⟩
abbrev S512x316 : Shape := ⟨2, ![512, 316]⟩
abbrev S512 : Shape := ⟨1, ![512]⟩
abbrev S1x256x1 : Shape := ⟨3, ![1, 256, 1]⟩
abbrev S8x256x4096 : Shape := ⟨3, ![8, 256, 4096]⟩
abbrev S1x64x4096 : Shape := ⟨3, ![1, 64, 4096]⟩
abbrev S1x64x1 : Shape := ⟨3, ![1, 64, 1]⟩
abbrev S64x4096 : Shape := ⟨2, ![64, 4096]⟩
abbrev S64 : Shape := ⟨1, ![64]⟩
abbrev S64x1 : Shape := ⟨2, ![64, 1]⟩

abbrev nBuf : Space → Nat
  | .hbm => 46
  | .vmem => 22
  | .smem => 0
  | _ => 0

abbrev bufTy : (tb : Table) → Fin (tcTables nBuf tb) → BufTy
  | .hbm, ⟨0, _⟩ => ⟨S8x256x64x64, .f32⟩
  | .hbm, ⟨1, _⟩ => ⟨S8x256x16x16, .f32⟩
  | .hbm, ⟨2, _⟩ => ⟨S256x256, .f32⟩
  | .hbm, ⟨3, _⟩ => ⟨S256x1, .f32⟩
  | .hbm, ⟨4, _⟩ => ⟨S9x512x256, .f32⟩
  | .hbm, ⟨5, _⟩ => ⟨S512x1, .f32⟩
  | .hbm, ⟨6, _⟩ => ⟨S256x512, .f32⟩
  | .hbm, ⟨7, _⟩ => ⟨S256x1, .f32⟩
  | .hbm, ⟨8, _⟩ => ⟨S9x512x256, .f32⟩
  | .hbm, ⟨9, _⟩ => ⟨S512x1, .f32⟩
  | .hbm, ⟨10, _⟩ => ⟨S_, .i32⟩
  | .hbm, ⟨11, _⟩ => ⟨S8x256x1x16, .f32⟩
  | .hbm, ⟨12, _⟩ => ⟨S8x256x2x16, .f32⟩
  | .hbm, ⟨13, _⟩ => ⟨S8x256x2x16, .f32⟩
  | .hbm, ⟨14, _⟩ => ⟨S8x256x18x16, .f32⟩
  | .hbm, ⟨15, _⟩ => ⟨S8x256x1x16, .f32⟩
  | .hbm, ⟨16, _⟩ => ⟨S8x256x2x16, .f32⟩
  | .hbm, ⟨17, _⟩ => ⟨S8x256x2x16, .f32⟩
  | .hbm, ⟨18, _⟩ => ⟨S8x256x20x16, .f32⟩
  | .hbm, ⟨19, _⟩ => ⟨S8x256x20x1, .f32⟩
  | .hbm, ⟨20, _⟩ => ⟨S8x256x20x2, .f32⟩
  | .hbm, ⟨21, _⟩ => ⟨S8x256x20x2, .f32⟩
  | .hbm, ⟨22, _⟩ => ⟨S8x256x20x18, .f32⟩
  | .hbm, ⟨23, _⟩ => ⟨S8x256x20x1, .f32⟩
  | .hbm, ⟨24, _⟩ => ⟨S8x256x20x2, .f32⟩
  | .hbm, ⟨25, _⟩ => ⟨S8x256x20x2, .f32⟩
  | .hbm, ⟨26, _⟩ => ⟨S8x256x20x20, .f32⟩
  | .hbm, ⟨27, _⟩ => ⟨S8x256x400, .f32⟩
  | .hbm, ⟨28, _⟩ => ⟨S256x8x400, .f32⟩
  | .hbm, ⟨29, _⟩ => ⟨S256x3200, .f32⟩
  | .hbm, ⟨30, _⟩ => ⟨S256x3200, .bf16⟩
  | .hbm, ⟨31, _⟩ => ⟨S256x2x1600, .bf16⟩
  | .hbm, ⟨32, _⟩ => ⟨S2x256x1600, .bf16⟩
  | .hbm, ⟨33, _⟩ => ⟨S512x9x256, .f32⟩
  | .hbm, ⟨34, _⟩ => ⟨S512x2304, .f32⟩
  | .hbm, ⟨35, _⟩ => ⟨S512x9x256, .f32⟩
  | .hbm, ⟨36, _⟩ => ⟨S512x2304, .f32⟩
  | .hbm, ⟨37, _⟩ => ⟨S256x256, .bf16⟩
  | .hbm, ⟨38, _⟩ => ⟨S512x2304, .bf16⟩
  | .hbm, ⟨39, _⟩ => ⟨S256x512, .bf16⟩
  | .hbm, ⟨40, _⟩ => ⟨S512x2304, .bf16⟩
  | .hbm, ⟨41, _⟩ => ⟨S8x256x1, .f32⟩
  | .hbm, ⟨42, _⟩ => ⟨S8x256x1, .f32⟩
  | .hbm, ⟨43, _⟩ => ⟨S8x256x4096, .f32⟩
  | .hbm, ⟨44, _⟩ => ⟨S8x256x4096, .f32⟩
  | .hbm, ⟨45, _⟩ => ⟨S8x256x64x64, .f32⟩
  | .local _ .vmem, ⟨0, _⟩ => ⟨S1x256x1600, .bf16⟩
  | .local _ .vmem, ⟨1, _⟩ => ⟨S1x256x1600, .bf16⟩
  | .local _ .vmem, ⟨2, _⟩ => ⟨S256x256, .bf16⟩
  | .local _ .vmem, ⟨3, _⟩ => ⟨S256x1, .f32⟩
  | .local _ .vmem, ⟨4, _⟩ => ⟨S512x2304, .bf16⟩
  | .local _ .vmem, ⟨5, _⟩ => ⟨S512x1, .f32⟩
  | .local _ .vmem, ⟨6, _⟩ => ⟨S256x512, .bf16⟩
  | .local _ .vmem, ⟨7, _⟩ => ⟨S256x1, .f32⟩
  | .local _ .vmem, ⟨8, _⟩ => ⟨S512x2304, .bf16⟩
  | .local _ .vmem, ⟨9, _⟩ => ⟨S512x1, .f32⟩
  | .local _ .vmem, ⟨10, _⟩ => ⟨S4x256x1, .f32⟩
  | .local _ .vmem, ⟨11, _⟩ => ⟨S4x256x1, .f32⟩
  | .local _ .vmem, ⟨12, _⟩ => ⟨S4x256x1, .f32⟩
  | .local _ .vmem, ⟨13, _⟩ => ⟨S4x256x1, .f32⟩
  | .local _ .vmem, ⟨14, _⟩ => ⟨S1x64x4096, .f32⟩
  | .local _ .vmem, ⟨15, _⟩ => ⟨S1x64x4096, .f32⟩
  | .local _ .vmem, ⟨16, _⟩ => ⟨S1x64x1, .f32⟩
  | .local _ .vmem, ⟨17, _⟩ => ⟨S1x64x1, .f32⟩
  | .local _ .vmem, ⟨18, _⟩ => ⟨S1x64x1, .f32⟩
  | .local _ .vmem, ⟨19, _⟩ => ⟨S1x64x1, .f32⟩
  | .local _ .vmem, ⟨20, _⟩ => ⟨S1x64x4096, .f32⟩
  | .local _ .vmem, ⟨21, _⟩ => ⟨S1x64x4096, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15_0 : Ref sig .tc := ⟨.hbm, 41, rfl⟩
abbrev main_v15_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S8x256x16x16_S8x256x1x16_0_0_0_0 : S8x256x16x16.Slices ![0, 0, 0, 0] S8x256x1x16
  slices_S8x256x16x16_S8x256x2x16_0_0_1_0 : S8x256x16x16.Slices ![0, 0, 1, 0] S8x256x2x16
  concatenates_S8x256x2x16_S8x256x16x16_S8x256x18x16_d2 : Shape.Concatenates [S8x256x2x16, S8x256x16x16] S8x256x18x16 2
  slices_S8x256x18x16_S8x256x1x16_0_0_17_0 : S8x256x18x16.Slices ![0, 0, 17, 0] S8x256x1x16
  slices_S8x256x18x16_S8x256x2x16_0_0_15_0 : S8x256x18x16.Slices ![0, 0, 15, 0] S8x256x2x16
  concatenates_S8x256x18x16_S8x256x2x16_S8x256x20x16_d2 : Shape.Concatenates [S8x256x18x16, S8x256x2x16] S8x256x20x16 2
  slices_S8x256x20x16_S8x256x20x1_0_0_0_0 : S8x256x20x16.Slices ![0, 0, 0, 0] S8x256x20x1
  slices_S8x256x20x16_S8x256x20x2_0_0_0_1 : S8x256x20x16.Slices ![0, 0, 0, 1] S8x256x20x2
  concatenates_S8x256x20x2_S8x256x20x16_S8x256x20x18_d3 : Shape.Concatenates [S8x256x20x2, S8x256x20x16] S8x256x20x18 3
  slices_S8x256x20x18_S8x256x20x1_0_0_0_17 : S8x256x20x18.Slices ![0, 0, 0, 17] S8x256x20x1
  slices_S8x256x20x18_S8x256x20x2_0_0_0_15 : S8x256x20x18.Slices ![0, 0, 0, 15] S8x256x20x2
  concatenates_S8x256x20x18_S8x256x20x2_S8x256x20x20_d3 : Shape.Concatenates [S8x256x20x18, S8x256x20x2] S8x256x20x20 3
  shapeCasts_S8x256x20x20_S8x256x400 : S8x256x20x20.ShapeCasts S8x256x400
  transposes_S8x256x400_S256x8x400_1_0_2 : S8x256x400.Transposes [1, 0, 2] S256x8x400
  shapeCasts_S256x8x400_S256x3200 : S256x8x400.ShapeCasts S256x3200
  bitsLt_bf16_f32 : FTy.bits .bf16 < FTy.bits .f32
  shapeCasts_S256x3200_S256x2x1600 : S256x3200.ShapeCasts S256x2x1600
  transposes_S256x2x1600_S2x256x1600_1_0_2 : S256x2x1600.Transposes [1, 0, 2] S2x256x1600
  transposes_S9x512x256_S512x9x256_1_0_2 : S9x512x256.Transposes [1, 0, 2] S512x9x256
  shapeCasts_S512x9x256_S512x2304 : S512x9x256.ShapeCasts S512x2304
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x1600_S1x256x1600_0_0_0 : ∀ a, (![0, 0, 0] : Fin 3 → Nat) a + S1x256x1600.size a ≤ S1x256x1600.size a
  h_S1x256x1600 : 0 < S1x256x1600.numel
  shapeCasts_S1x256x1600_S256x1600 : S1x256x1600.ShapeCasts S256x1600
  inb_S256x1_S256x1_0_0 : ∀ a, (![0, 0] : Fin 2 → Nat) a + S256x1.size a ≤ S256x1.size a
  h_S256x1 : 0 < S256x1.numel
  broadcasts_S256x1_S256x1600 : S256x1.Broadcasts S256x1600
  slices_S256x1600_o0_0_S256x1558 : S256x1600.Slices ![0, 0] S256x1558
  slices_S256x1600_o0_1_S256x1558 : S256x1600.Slices ![0, 1] S256x1558
  slices_S256x1600_o0_2_S256x1558 : S256x1600.Slices ![0, 2] S256x1558
  slices_S256x1600_o0_20_S256x1558 : S256x1600.Slices ![0, 20] S256x1558
  slices_S256x1600_o0_21_S256x1558 : S256x1600.Slices ![0, 21] S256x1558
  slices_S256x1600_o0_22_S256x1558 : S256x1600.Slices ![0, 22] S256x1558
  slices_S256x1600_o0_40_S256x1558 : S256x1600.Slices ![0, 40] S256x1558
  slices_S256x1600_o0_41_S256x1558 : S256x1600.Slices ![0, 41] S256x1558
  slices_S256x1600_o0_42_S256x1558 : S256x1600.Slices ![0, 42] S256x1558
  concatenates_S256x1558_S256x1558_S256x1558_S256x1558_S256x1558_S256x1558_S256x1558_S256x1558_S256x1558_S2304x1558_d0 : Shape.Concatenates [S256x1558, S256x1558, S256x1558, S256x1558, S256x1558, S256x1558, S256x1558, S256x1558, S256x1558] S2304x1558 0
  inb_S512x2304_S512x2304_0_0 : ∀ a, (![0, 0] : Fin 2 → Nat) a + S512x2304.size a ≤ S512x2304.size a
  h_S512x2304 : 0 < S512x2304.numel
  shapeCasts_S512x2304_S512x2304 : S512x2304.ShapeCasts S512x2304
  inb_S512x1_S512x1_0_0 : ∀ a, (![0, 0] : Fin 2 → Nat) a + S512x1.size a ≤ S512x1.size a
  h_S512x1 : 0 < S512x1.numel
  broadcasts_S512x1_S512x1558 : S512x1.Broadcasts S512x1558
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S256x1_S256x1558 : S256x1.Broadcasts S256x1558
  slices_S256x1558_o0_0_S256x1516 : S256x1558.Slices ![0, 0] S256x1516
  slices_S256x1558_o0_1_S256x1516 : S256x1558.Slices ![0, 1] S256x1516
  slices_S256x1558_o0_2_S256x1516 : S256x1558.Slices ![0, 2] S256x1516
  slices_S256x1558_o0_20_S256x1516 : S256x1558.Slices ![0, 20] S256x1516
  slices_S256x1558_o0_21_S256x1516 : S256x1558.Slices ![0, 21] S256x1516
  slices_S256x1558_o0_22_S256x1516 : S256x1558.Slices ![0, 22] S256x1516
  slices_S256x1558_o0_40_S256x1516 : S256x1558.Slices ![0, 40] S256x1516
  slices_S256x1558_o0_41_S256x1516 : S256x1558.Slices ![0, 41] S256x1516
  slices_S256x1558_o0_42_S256x1516 : S256x1558.Slices ![0, 42] S256x1516
  concatenates_S256x1516_S256x1516_S256x1516_S256x1516_S256x1516_S256x1516_S256x1516_S256x1516_S256x1516_S2304x1516_d0 : Shape.Concatenates [S256x1516, S256x1516, S256x1516, S256x1516, S256x1516, S256x1516, S256x1516, S256x1516, S256x1516] S2304x1516 0
  broadcasts_S512x1_S512x1516 : S512x1.Broadcasts S512x1516
  iota_S1x316_d1_w32 : S1x316.Iotas .tc 32 [1]
  natLt_1_32 : 1 < 32
  slices_S512x1516_o0_0_S512x316 : S512x1516.Slices ![0, 0] S512x316
  broadcasts_S1x316_S512x316 : S1x316.Broadcasts S512x316
  reduces_S512x316_S512 : S512x316.Reduces [1] S512
  shapeCasts_S512_S512x1 : S512.ShapeCasts S512x1
  slices_S512x1_o0_0_S256x1 : S512x1.Slices ![0, 0] S256x1
  inb_S4x256x1_S1x256x1_0_0_0 : ∀ a, (![0, 0, 0] : Fin 3 → Nat) a + S1x256x1.size a ≤ S4x256x1.size a
  h_S1x256x1 : 0 < S1x256x1.numel
  shapeCasts_S1x256x1_S256x1 : S1x256x1.ShapeCasts S256x1
  shapeCasts_S256x1_S1x256x1 : S256x1.ShapeCasts S1x256x1
  slices_S512x1_o256_0_S256x1 : S512x1.Slices ![256, 0] S256x1
  slices_S512x1516_o0_400_S512x316 : S512x1516.Slices ![0, 400] S512x316
  inb_S4x256x1_S1x256x1_1_0_0 : ∀ a, (![1, 0, 0] : Fin 3 → Nat) a + S1x256x1.size a ≤ S4x256x1.size a
  slices_S512x1516_o0_800_S512x316 : S512x1516.Slices ![0, 800] S512x316
  inb_S4x256x1_S1x256x1_2_0_0 : ∀ a, (![2, 0, 0] : Fin 3 → Nat) a + S1x256x1.size a ≤ S4x256x1.size a
  slices_S512x1516_o0_1200_S512x316 : S512x1516.Slices ![0, 1200] S512x316
  inb_S4x256x1_S1x256x1_3_0_0 : ∀ a, (![3, 0, 0] : Fin 3 → Nat) a + S1x256x1.size a ≤ S4x256x1.size a
  shapeCasts_S8x256x64x64_S8x256x4096 : S8x256x64x64.ShapeCasts S8x256x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  shapeCasts_S64_S64x1 : S64.ShapeCasts S64x1
  broadcasts_S64x1_S64x4096 : S64x1.Broadcasts S64x4096
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x4096_S1x64x4096 : S64x4096.ShapeCasts S1x64x4096
  shapeCasts_S8x256x4096_S8x256x64x64 : S8x256x4096.ShapeCasts S8x256x64x64
  dot_S256x256_S256x1600_S256x1600_1_0_0_1_n_n_wf : DotDims.WF S256x256 S256x1600 S256x1600 [1] [0] [0] [1] [] []
  dot_S512x2304_S2304x1558_S512x1558_1_0_0_1_n_n_wf : DotDims.WF S512x2304 S2304x1558 S512x1558 [1] [0] [0] [1] [] []
  dot_S256x512_S512x1558_S256x1558_1_0_0_1_n_n_wf : DotDims.WF S256x512 S512x1558 S256x1558 [1] [0] [0] [1] [] []
  dot_S512x2304_S2304x1516_S512x1516_1_0_0_1_n_n_wf : DotDims.WF S512x2304 S2304x1516 S512x1516 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1600.size a ≤ S2x256x1600.size a
  hwx0_0 : ∀ i : grid0.Coords, EltTy.bits .bf16 = 32 ∨ (Rect.block (s := S2x256x1600) S1x256x1600.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S512x2304.size a
  hwx0_3 : ∀ i : grid0.Coords, EltTy.bits .bf16 = 32 ∨ (Rect.block (s := S512x2304) S512x2304.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2304.size a ≤ S512x2304.size a
  hwx0_7 : ∀ i : grid0.Coords, EltTy.bits .bf16 = 32 ∨ (Rect.block (s := S512x2304) S512x2304.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x256x1.size a ≤ S8x256x1.size a
  hwx0_9 : ∀ i : grid0.Coords, EltTy.bits .f32 = 32 ∨ (Rect.block (s := S8x256x1) S4x256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x256x1.size a ≤ S8x256x1.size a
  hwx0_10 : ∀ i : grid0.Coords, EltTy.bits .f32 = 32 ∨ (Rect.block (s := S8x256x1) S4x256x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x4096.size a ≤ S8x256x4096.size a
  hwx1_0 : ∀ i : grid1.Coords, EltTy.bits .f32 = 32 ∨ (Rect.block (s := S8x256x4096) S1x64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1.size a ≤ S8x256x1.size a
  hwx1_1 : ∀ i : grid1.Coords, EltTy.bits .f32 = 32 ∨ (Rect.block (s := S8x256x1) S1x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x1.size a ≤ S8x256x1.size a
  hwx1_2 : ∀ i : grid1.Coords, EltTy.bits .f32 = 32 ∨ (Rect.block (s := S8x256x1) S1x64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x4096.size a ≤ S8x256x4096.size a
  hwx1_3 : ∀ i : grid1.Coords, EltTy.bits .f32 = 32 ∨ (Rect.block (s := S8x256x4096) S1x64x4096.size (cc1_transform_3 i) (hinb1_3 i)).WholeWords (EltTy.packing .f32)

variable [Facts₀]

def dot_S256x256_S256x1600_S256x1600_1_0_0_1_n_n : DotDims S256x256 S256x1600 S256x1600 where
  lhsContracting := [1]
  rhsContracting := [0]
  lhsNonContracting := [0]
  rhsNonContracting := [1]
  lhsBatch := []
  rhsBatch := []
  wf := dot_S256x256_S256x1600_S256x1600_1_0_0_1_n_n_wf
def dot_S512x2304_S2304x1558_S512x1558_1_0_0_1_n_n : DotDims S512x2304 S2304x1558 S512x1558 where
  lhsContracting := [1]
  rhsContracting := [0]
  lhsNonContracting := [0]
  rhsNonContracting := [1]
  lhsBatch := []
  rhsBatch := []
  wf := dot_S512x2304_S2304x1558_S512x1558_1_0_0_1_n_n_wf
def dot_S256x512_S512x1558_S256x1558_1_0_0_1_n_n : DotDims S256x512 S512x1558 S256x1558 where
  lhsContracting := [1]
  rhsContracting := [0]
  lhsNonContracting := [0]
  rhsNonContracting := [1]
  lhsBatch := []
  rhsBatch := []
  wf := dot_S256x512_S512x1558_S256x1558_1_0_0_1_n_n_wf
def dot_S512x2304_S2304x1516_S512x1516_1_0_0_1_n_n : DotDims S512x2304 S2304x1516 S512x1516 where
  lhsContracting := [1]
  rhsContracting := [0]
  lhsNonContracting := [0]
  rhsNonContracting := [1]
  lhsBatch := []
  rhsBatch := []
  wf := dot_S512x2304_S2304x1516_S512x1516_1_0_0_1_n_n_wf

abbrev win0_0 : Pipeline.Window sig grid0 :=
  Pipeline.Window.ofSpec (Memref.whole main_v6) S1x256x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x2304.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S4x256x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S4x256x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16) S1x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S1x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_1) S1x64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S316 : Shape := ⟨1, ![316]⟩
abbrev S_ : Shape := ⟨0, ![]⟩
abbrev S8x256x1x16 : Shape := ⟨4, ![8, 256, 1, 16]⟩
abbrev S8x256x2x16 : Shape := ⟨4, ![8, 256, 2, 16]⟩
abbrev S8x256x18x16 : Shape := ⟨4, ![8, 256, 18, 16]⟩
abbrev S8x256x20x16 : Shape := ⟨4, ![8, 256, 20, 16]⟩
abbrev S8x256x20x1 : Shape := ⟨4, ![8, 256, 20, 1]⟩
abbrev S8x256x20x2 : Shape := ⟨4, ![8, 256, 20, 2]⟩
abbrev S8x256x20x18 : Shape := ⟨4, ![8, 256, 20, 18]⟩
abbrev S8x256x20x20 : Shape := ⟨4, ![8, 256, 20, 20]⟩
abbrev S8x256x400 : Shape := ⟨3, ![8, 256, 400]⟩
abbrev S1x316 : Shape := ⟨2, ![1, 316]⟩
abbrev S8x256x1 : Shape := ⟨3, ![8, 256, 1]⟩
abbrev S1x256x400 : Shape := ⟨3, ![1, 256, 400]⟩
abbrev S1x256x1 : Shape := ⟨3, ![1, 256, 1]⟩
abbrev S256x400 : Shape := ⟨2, ![256, 400]⟩
abbrev S256x358 : Shape := ⟨2, ![256, 358]⟩
abbrev S512x358 : Shape := ⟨2, ![512, 358]⟩
abbrev S1x512x256 : Shape := ⟨3, ![1, 512, 256]⟩
abbrev S512x256 : Shape := ⟨2, ![512, 256]⟩
abbrev S512x316 : Shape := ⟨2, ![512, 316]⟩
abbrev S256x316 : Shape := ⟨2, ![256, 316]⟩
abbrev S512 : Shape := ⟨1, ![512]⟩
abbrev S8x256x4096 : Shape := ⟨3, ![8, 256, 4096]⟩
abbrev S1x256x4096 : Shape := ⟨3, ![1, 256, 4096]⟩
abbrev S256x4096 : Shape := ⟨2, ![256, 4096]⟩
abbrev S256 : Shape := ⟨1, ![256]⟩

abbrev nBuf : Space → Nat
  | .hbm => 35
  | .vmem => 25
  | .smem => 0
  | _ => 0

abbrev bufTy : (tb : Table) → Fin (tcTables nBuf tb) → BufTy
  | .hbm, ⟨0, _⟩ => ⟨S8x256x64x64, .f32⟩
  | .hbm, ⟨1, _⟩ => ⟨S8x256x16x16, .f32⟩
  | .hbm, ⟨2, _⟩ => ⟨S256x256, .f32⟩
  | .hbm, ⟨3, _⟩ => ⟨S256x1, .f32⟩
  | .hbm, ⟨4, _⟩ => ⟨S9x512x256, .f32⟩
  | .hbm, ⟨5, _⟩ => ⟨S512x1, .f32⟩
  | .hbm, ⟨6, _⟩ => ⟨S256x512, .f32⟩
  | .hbm, ⟨7, _⟩ => ⟨S256x1, .f32⟩
  | .hbm, ⟨8, _⟩ => ⟨S9x512x256, .f32⟩
  | .hbm, ⟨9, _⟩ => ⟨S512x1, .f32⟩
  | .hbm, ⟨10, _⟩ => ⟨S316, .f32⟩
  | .hbm, ⟨11, _⟩ => ⟨S_, .i32⟩
  | .hbm, ⟨12, _⟩ => ⟨S8x256x1x16, .f32⟩
  | .hbm, ⟨13, _⟩ => ⟨S8x256x2x16, .f32⟩
  | .hbm, ⟨14, _⟩ => ⟨S8x256x2x16, .f32⟩
  | .hbm, ⟨15, _⟩ => ⟨S8x256x18x16, .f32⟩
  | .hbm, ⟨16, _⟩ => ⟨S8x256x1x16, .f32⟩
  | .hbm, ⟨17, _⟩ => ⟨S8x256x2x16, .f32⟩
  | .hbm, ⟨18, _⟩ => ⟨S8x256x2x16, .f32⟩
  | .hbm, ⟨19, _⟩ => ⟨S8x256x20x16, .f32⟩
  | .hbm, ⟨20, _⟩ => ⟨S8x256x20x1, .f32⟩
  | .hbm, ⟨21, _⟩ => ⟨S8x256x20x2, .f32⟩
  | .hbm, ⟨22, _⟩ => ⟨S8x256x20x2, .f32⟩
  | .hbm, ⟨23, _⟩ => ⟨S8x256x20x18, .f32⟩
  | .hbm, ⟨24, _⟩ => ⟨S8x256x20x1, .f32⟩
  | .hbm, ⟨25, _⟩ => ⟨S8x256x20x2, .f32⟩
  | .hbm, ⟨26, _⟩ => ⟨S8x256x20x2, .f32⟩
  | .hbm, ⟨27, _⟩ => ⟨S8x256x20x20, .f32⟩
  | .hbm, ⟨28, _⟩ => ⟨S8x256x400, .f32⟩
  | .hbm, ⟨29, _⟩ => ⟨S1x316, .f32⟩
  | .hbm, ⟨30, _⟩ => ⟨S8x256x1, .f32⟩
  | .hbm, ⟨31, _⟩ => ⟨S8x256x1, .f32⟩
  | .hbm, ⟨32, _⟩ => ⟨S8x256x4096, .f32⟩
  | .hbm, ⟨33, _⟩ => ⟨S8x256x4096, .f32⟩
  | .hbm, ⟨34, _⟩ => ⟨S8x256x64x64, .f32⟩
  | .local _ .vmem, ⟨0, _⟩ => ⟨S1x256x400, .f32⟩
  | .local _ .vmem, ⟨1, _⟩ => ⟨S1x256x400, .f32⟩
  | .local _ .vmem, ⟨2, _⟩ => ⟨S1x316, .f32⟩
  | .local _ .vmem, ⟨3, _⟩ => ⟨S256x256, .f32⟩
  | .local _ .vmem, ⟨4, _⟩ => ⟨S256x1, .f32⟩
  | .local _ .vmem, ⟨5, _⟩ => ⟨S9x512x256, .f32⟩
  | .local _ .vmem, ⟨6, _⟩ => ⟨S512x1, .f32⟩
  | .local _ .vmem, ⟨7, _⟩ => ⟨S256x512, .f32⟩
  | .local _ .vmem, ⟨8, _⟩ => ⟨S256x1, .f32⟩
  | .local _ .vmem, ⟨9, _⟩ => ⟨S9x512x256, .f32⟩
  | .local _ .vmem, ⟨10, _⟩ => ⟨S512x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S256x400, .f32⟩
  | .local _ .vmem, ⟨16, _⟩ => ⟨S256x358, .f32⟩
  | .local _ .vmem, ⟨17, _⟩ => ⟨S1x256x4096, .f32⟩
  | .local _ .vmem, ⟨18, _⟩ => ⟨S1x256x4096, .f32⟩
  | .local _ .vmem, ⟨19, _⟩ => ⟨S1x256x1, .f32⟩
  | .local _ .vmem, ⟨20, _⟩ => ⟨S1x256x1, .f32⟩
  | .local _ .vmem, ⟨21, _⟩ => ⟨S1x256x1, .f32⟩
  | .local _ .vmem, ⟨22, _⟩ => ⟨S1x256x1, .f32⟩
  | .local _ .vmem, ⟨23, _⟩ => ⟨S1x256x4096, .f32⟩
  | .local _ .vmem, ⟨24, _⟩ => ⟨S1x256x4096, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3_0 : Ref sig .tc := ⟨.hbm, 30, rfl⟩
abbrev main_v3_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x316 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S8x256x16x16_S8x256x1x16_0_0_0_0 : S8x256x16x16.Slices ![0, 0, 0, 0] S8x256x1x16
  slices_S8x256x16x16_S8x256x2x16_0_0_1_0 : S8x256x16x16.Slices ![0, 0, 1, 0] S8x256x2x16
  concatenates_S8x256x2x16_S8x256x16x16_S8x256x18x16_d2 : Shape.Concatenates [S8x256x2x16, S8x256x16x16] S8x256x18x16 2
  slices_S8x256x18x16_S8x256x1x16_0_0_17_0 : S8x256x18x16.Slices ![0, 0, 17, 0] S8x256x1x16
  slices_S8x256x18x16_S8x256x2x16_0_0_15_0 : S8x256x18x16.Slices ![0, 0, 15, 0] S8x256x2x16
  concatenates_S8x256x18x16_S8x256x2x16_S8x256x20x16_d2 : Shape.Concatenates [S8x256x18x16, S8x256x2x16] S8x256x20x16 2
  slices_S8x256x20x16_S8x256x20x1_0_0_0_0 : S8x256x20x16.Slices ![0, 0, 0, 0] S8x256x20x1
  slices_S8x256x20x16_S8x256x20x2_0_0_0_1 : S8x256x20x16.Slices ![0, 0, 0, 1] S8x256x20x2
  concatenates_S8x256x20x2_S8x256x20x16_S8x256x20x18_d3 : Shape.Concatenates [S8x256x20x2, S8x256x20x16] S8x256x20x18 3
  slices_S8x256x20x18_S8x256x20x1_0_0_0_17 : S8x256x20x18.Slices ![0, 0, 0, 17] S8x256x20x1
  slices_S8x256x20x18_S8x256x20x2_0_0_0_15 : S8x256x20x18.Slices ![0, 0, 0, 15] S8x256x20x2
  concatenates_S8x256x20x18_S8x256x20x2_S8x256x20x20_d3 : Shape.Concatenates [S8x256x20x18, S8x256x20x2] S8x256x20x20 3
  shapeCasts_S8x256x20x20_S8x256x400 : S8x256x20x20.ShapeCasts S8x256x400
  shapeCasts_S316_S1x316 : S316.ShapeCasts S1x316
  inb_S1x256x400_S1x256x400_0_0_0 : ∀ a, (![0, 0, 0] : Fin 3 → Nat) a + S1x256x400.size a ≤ S1x256x400.size a
  h_S1x256x400 : 0 < S1x256x400.numel
  shapeCasts_S1x256x400_S256x400 : S1x256x400.ShapeCasts S256x400
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  broadcasts_S256x1_S256x400 : S256x1.Broadcasts S256x400
  inb_S256x400_S256x400_0_0 : ∀ a, (![0, 0] : Fin 2 → Nat) a + S256x400.size a ≤ S256x400.size a
  h_S256x400 : 0 < S256x400.numel
  shapeCasts_S256x400_S256x400 : S256x400.ShapeCasts S256x400
  inb_S9x512x256_S1x512x256_0_0_0 : ∀ a, (![0, 0, 0] : Fin 3 → Nat) a + S1x512x256.size a ≤ S9x512x256.size a
  h_S1x512x256 : 0 < S1x512x256.numel
  shapeCasts_S1x512x256_S512x256 : S1x512x256.ShapeCasts S512x256
  inb_S256x400_S256x358_0_0 : ∀ a, (![0, 0] : Fin 2 → Nat) a + S256x358.size a ≤ S256x400.size a
  h_S256x358 : 0 < S256x358.numel
  inb_S9x512x256_S1x512x256_1_0_0 : ∀ a, (![1, 0, 0] : Fin 3 → Nat) a + S1x512x256.size a ≤ S9x512x256.size a
  inb_S256x400_S256x358_0_1 : ∀ a, (![0, 1] : Fin 2 → Nat) a + S256x358.size a ≤ S256x400.size a
  inb_S9x512x256_S1x512x256_2_0_0 : ∀ a, (![2, 0, 0] : Fin 3 → Nat) a + S1x512x256.size a ≤ S9x512x256.size a
  inb_S256x400_S256x358_0_2 : ∀ a, (![0, 2] : Fin 2 → Nat) a + S256x358.size a ≤ S256x400.size a
  inb_S9x512x256_S1x512x256_3_0_0 : ∀ a, (![3, 0, 0] : Fin 3 → Nat) a + S1x512x256.size a ≤ S9x512x256.size a
  inb_S256x400_S256x358_0_20 : ∀ a, (![0, 20] : Fin 2 → Nat) a + S256x358.size a ≤ S256x400.size a
  inb_S9x512x256_S1x512x256_4_0_0 : ∀ a, (![4, 0, 0] : Fin 3 → Nat) a + S1x512x256.size a ≤ S9x512x256.size a
  inb_S256x400_S256x358_0_21 : ∀ a, (![0, 21] : Fin 2 → Nat) a + S256x358.size a ≤ S256x400.size a
  inb_S9x512x256_S1x512x256_5_0_0 : ∀ a, (![5, 0, 0] : Fin 3 → Nat) a + S1x512x256.size a ≤ S9x512x256.size a
  inb_S256x400_S256x358_0_22 : ∀ a, (![0, 22] : Fin 2 → Nat) a + S256x358.size a ≤ S256x400.size a
  inb_S9x512x256_S1x512x256_6_0_0 : ∀ a, (![6, 0, 0] : Fin 3 → Nat) a + S1x512x256.size a ≤ S9x512x256.size a
  inb_S256x400_S256x358_0_40 : ∀ a, (![0, 40] : Fin 2 → Nat) a + S256x358.size a ≤ S256x400.size a
  inb_S9x512x256_S1x512x256_7_0_0 : ∀ a, (![7, 0, 0] : Fin 3 → Nat) a + S1x512x256.size a ≤ S9x512x256.size a
  inb_S256x400_S256x358_0_41 : ∀ a, (![0, 41] : Fin 2 → Nat) a + S256x358.size a ≤ S256x400.size a
  inb_S9x512x256_S1x512x256_8_0_0 : ∀ a, (![8, 0, 0] : Fin 3 → Nat) a + S1x512x256.size a ≤ S9x512x256.size a
  inb_S256x400_S256x358_0_42 : ∀ a, (![0, 42] : Fin 2 → Nat) a + S256x358.size a ≤ S256x400.size a
  inb_S512x1_S512x1_0_0 : ∀ a, (![0, 0] : Fin 2 → Nat) a + S512x1.size a ≤ S512x1.size a
  h_S512x1 : 0 < S512x1.numel
  broadcasts_S512x1_S512x358 : S512x1.Broadcasts S512x358
  inb_S256x512_S256x512_0_0 : ∀ a, (![0, 0] : Fin 2 → Nat) a + S256x512.size a ≤ S256x512.size a
  h_S256x512 : 0 < S256x512.numel
  broadcasts_S256x1_S256x358 : S256x1.Broadcasts S256x358
  inb_S256x358_S256x358_0_0 : ∀ a, (![0, 0] : Fin 2 → Nat) a + S256x358.size a ≤ S256x358.size a
  shapeCasts_S256x358_S256x358 : S256x358.ShapeCasts S256x358
  inb_S256x358_S256x316_0_0 : ∀ a, (![0, 0] : Fin 2 → Nat) a + S256x316.size a ≤ S256x358.size a
  h_S256x316 : 0 < S256x316.numel
  inb_S256x358_S256x316_0_1 : ∀ a, (![0, 1] : Fin 2 → Nat) a + S256x316.size a ≤ S256x358.size a
  inb_S256x358_S256x316_0_2 : ∀ a, (![0, 2] : Fin 2 → Nat) a + S256x316.size a ≤ S256x358.size a
  inb_S256x358_S256x316_0_20 : ∀ a, (![0, 20] : Fin 2 → Nat) a + S256x316.size a ≤ S256x358.size a
  inb_S256x358_S256x316_0_21 : ∀ a, (![0, 21] : Fin 2 → Nat) a + S256x316.size a ≤ S256x358.size a
  inb_S256x358_S256x316_0_22 : ∀ a, (![0, 22] : Fin 2 → Nat) a + S256x316.size a ≤ S256x358.size a
  inb_S256x358_S256x316_0_40 : ∀ a, (![0, 40] : Fin 2 → Nat) a + S256x316.size a ≤ S256x358.size a
  inb_S256x358_S256x316_0_41 : ∀ a, (![0, 41] : Fin 2 → Nat) a + S256x316.size a ≤ S256x358.size a
  inb_S256x358_S256x316_0_42 : ∀ a, (![0, 42] : Fin 2 → Nat) a + S256x316.size a ≤ S256x358.size a
  broadcasts_S512x1_S512x316 : S512x1.Broadcasts S512x316
  inb_S1x316_S1x316_0_0 : ∀ a, (![0, 0] : Fin 2 → Nat) a + S1x316.size a ≤ S1x316.size a
  h_S1x316 : 0 < S1x316.numel
  shapeCasts_S1x316_S1x316 : S1x316.ShapeCasts S1x316
  broadcasts_S1x316_S512x316 : S1x316.Broadcasts S512x316
  reduces_S512x316_S512 : S512x316.Reduces [1] S512
  shapeCasts_S512_S512x1 : S512.ShapeCasts S512x1
  slices_S512x1_o0_0_S256x1 : S512x1.Slices ![0, 0] S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S512x1_o256_0_S256x1 : S512x1.Slices ![256, 0] S256x1
  shapeCasts_S8x256x64x64_S8x256x4096 : S8x256x64x64.ShapeCasts S8x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S256x4096_S1x256x4096 : S256x4096.ShapeCasts S1x256x4096
  shapeCasts_S8x256x4096_S8x256x64x64 : S8x256x4096.ShapeCasts S8x256x64x64
  dot_S256x256_S256x400_S256x400_1_0_0_1_n_n_wf : DotDims.WF S256x256 S256x400 S256x400 [1] [0] [0] [1] [] []
  dot_S512x256_S256x358_S512x358_1_0_0_1_n_n_wf : DotDims.WF S512x256 S256x358 S512x358 [1] [0] [0] [1] [] []
  dot_S256x512_S512x358_S256x358_1_0_0_1_n_n_wf : DotDims.WF S256x512 S512x358 S256x358 [1] [0] [0] [1] [] []
  dot_S512x256_S256x316_S512x316_1_0_0_1_n_n_wf : DotDims.WF S512x256 S256x316 S512x316 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x400.size a ≤ S8x256x400.size a
  hwx0_0 : ∀ i : grid0.Coords, EltTy.bits .f32 = 32 ∨ (Rect.block (s := S8x256x400) S1x256x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x316.size a ≤ S1x316.size a
  hwx0_1 : ∀ i : grid0.Coords, EltTy.bits .f32 = 32 ∨ (Rect.block (s := S1x316) S1x316.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x512x256.size a ≤ S9x512x256.size a
  hwx0_4 : ∀ i : grid0.Coords, EltTy.bits .f32 = 32 ∨ (Rect.block (s := S9x512x256) S9x512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S9x512x256.size a ≤ S9x512x256.size a
  hwx0_8 : ∀ i : grid0.Coords, EltTy.bits .f32 = 32 ∨ (Rect.block (s := S9x512x256) S9x512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1.size a ≤ S8x256x1.size a
  hwx0_10 : ∀ i : grid0.Coords, EltTy.bits .f32 = 32 ∨ (Rect.block (s := S8x256x1) S1x256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x1.size a ≤ S8x256x1.size a
  hwx0_11 : ∀ i : grid0.Coords, EltTy.bits .f32 = 32 ∨ (Rect.block (s := S8x256x1) S1x256x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S8x256x4096.size a
  hwx1_0 : ∀ i : grid1.Coords, EltTy.bits .f32 = 32 ∨ (Rect.block (s := S8x256x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S8x256x1.size a
  hwx1_1 : ∀ i : grid1.Coords, EltTy.bits .f32 = 32 ∨ (Rect.block (s := S8x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S8x256x1.size a
  hwx1_2 : ∀ i : grid1.Coords, EltTy.bits .f32 = 32 ∨ (Rect.block (s := S8x256x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S8x256x4096.size a
  hwx1_3 : ∀ i : grid1.Coords, EltTy.bits .f32 = 32 ∨ (Rect.block (s := S8x256x4096) S1x256x4096.size (cc1_transform_3 i) (hinb1_3 i)).WholeWords (EltTy.packing .f32)

variable [Facts₀]

def dot_S256x256_S256x400_S256x400_1_0_0_1_n_n : DotDims S256x256 S256x400 S256x400 where
  lhsContracting := [1]
  rhsContracting := [0]
  lhsNonContracting := [0]
  rhsNonContracting := [1]
  lhsBatch := []
  rhsBatch := []
  wf := dot_S256x256_S256x400_S256x400_1_0_0_1_n_n_wf
def dot_S512x256_S256x358_S512x358_1_0_0_1_n_n : DotDims S512x256 S256x358 S512x358 where
  lhsContracting := [1]
  rhsContracting := [0]
  lhsNonContracting := [0]
  rhsNonContracting := [1]
  lhsBatch := []
  rhsBatch := []
  wf := dot_S512x256_S256x358_S512x358_1_0_0_1_n_n_wf
def dot_S256x512_S512x358_S256x358_1_0_0_1_n_n : DotDims S256x512 S512x358 S256x358 where
  lhsContracting := [1]
  rhsContracting := [0]
  lhsNonContracting := [0]
  rhsNonContracting := [1]
  lhsBatch := []
  rhsBatch := []
  wf := dot_S256x512_S512x358_S256x358_1_0_0_1_n_n_wf
def dot_S512x256_S256x316_S512x316_1_0_0_1_n_n : DotDims S512x256 S256x316 S512x316 where
  lhsContracting := [1]
  rhsContracting := [0]
  lhsNonContracting := [0]
  rhsNonContracting := [1]
  lhsBatch := []
  rhsBatch := []
  wf := dot_S512x256_S256x316_S512x316_1_0_0_1_n_n_wf

abbrev win0_0 : Pipeline.Window sig grid0 :=
  Pipeline.Window.ofSpec (Memref.whole main_v1) S1x256x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x316.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S9x512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S1x256x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S1x256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The mathematics both programs compute, over the extended reals, as plain functions of coordinates.

  GATE. A padded feature map `zp b c j` (batch, channel, flat position on a 20 × 20 grid, row-major) goes through
  four layers. A 1×1 convolution with bias and ReLU (`s1`). A 3×3 'valid' convolution written on the flat
  positions: tap `t` of the window reads flat position `j + off t` with `off t = 20·(t / 3) + t % 3`; then bias, ReLU and
  the SELU scale (`y1`). A second 1×1 convolution with bias and ReLU (`s2`), a second 3×3 convolution with bias and ReLU
  (`g`). Flat positions whose column is ≥ 16 hold values no valid position reads; the mean over the 256 valid
  positions masks them out (`means`). The first 256 channels of the means go through 3 / (1 + e^(−m)) (`gamma`), the last
  256 are `beta`.

  NORMALISATION. Per (batch, channel) row of 4096 entries: mean `mu`, second moment `ex2`, and
  `out = (x − mu) · (rsqrt (ex2 − mu² + ε) · gamma) + beta`. The two-pass form (`outR`) takes the variance as the mean of
  the squared deviations and divides by 4096 where `out` multiplies by 2⁻¹²; on finite rows the two agree.
-/
import Idealize.ShloMosaic.PureOps.Ideal
import Idealize.ShloMosaic.Lib.ValueIdx

noncomputable section

open scoped BigOperators

namespace Cert.Spec

open Idealize.ShloMosaic Idealize.ShloMosaic.ValueIdx

/-- The flat offset of tap `t` of a 3×3 window over rows of width 20. -/
def off (t : Fin 9) : ℕ := (t.val / 3) * 20 + t.val % 3

theorem off_le (t : Fin 9) : off t ≤ 42 := by
  have := t.isLt; unfold off; omega

/-- An f32 word read as an extended real. -/
abbrev lit (w : BitVec 32) : EReal := Ideal.ofBits .f32 w

/-- The validity mask of the over-wide flat grid: column (position mod 20) below 16. -/
def mask (j : Fin 316) : EReal := if j.val % 20 < 16 then 1 else 0

/-- The gate network's inputs as functions of coordinates. -/
structure GateIn where
  zp : Fin 8 → Fin 256 → Fin 400 → EReal
  w1sq : Fin 256 → Fin 256 → EReal
  b1sq : Fin 256 → EReal
  w1ex : Fin 9 → Fin 512 → Fin 256 → EReal
  b1ex : Fin 512 → EReal
  w2sq : Fin 256 → Fin 512 → EReal
  b2sq : Fin 256 → EReal
  w2ex : Fin 9 → Fin 512 → Fin 256 → EReal
  b2ex : Fin 512 → EReal

namespace GateIn

variable (I : GateIn)

/-- First squeeze: 1×1 convolution, bias, ReLU. -/
def s1 (b : Fin 8) (k : Fin 256) (j : Fin 400) : EReal :=
  max ((∑ c : Fin 256, I.w1sq k c * I.zp b c j) + I.b1sq k) (lit 0x00000000#32)

/-- First expand before its ReLU: the nine taps' products summed, plus bias. -/
def y1pre (b : Fin 8) (o : Fin 512) (j : Fin 358) : EReal :=
  (∑ t : Fin 9, ∑ k : Fin 256,
      I.w1ex t o k * I.s1 b k ⟨j.val + off t, by have := off_le t; have := j.isLt; omega⟩) + I.b1ex o

/-- First expand: ReLU, then the SELU scale. -/
def y1 (b : Fin 8) (o : Fin 512) (j : Fin 358) : EReal :=
  lit 0x3F867D5F#32 * max (I.y1pre b o j) (lit 0x00000000#32)

/-- Second squeeze before its ReLU. -/
def s2pre (b : Fin 8) (k : Fin 256) (j : Fin 358) : EReal :=
  (∑ o : Fin 512, I.w2sq k o * I.y1 b o j) + I.b2sq k

/-- Second squeeze. -/
def s2 (b : Fin 8) (k : Fin 256) (j : Fin 358) : EReal := max (I.s2pre b k j) (lit 0x00000000#32)

/-- Second expand before its ReLU. -/
def gpre (b : Fin 8) (o : Fin 512) (j : Fin 316) : EReal :=
  (∑ t : Fin 9, ∑ k : Fin 256,
      I.w2ex t o k * I.s2 b k ⟨j.val + off t, by have := off_le t; have := j.isLt; omega⟩) + I.b2ex o

/-- Second expand. -/
def g (b : Fin 8) (o : Fin 512) (j : Fin 316) : EReal := max (I.gpre b o j) (lit 0x00000000#32)

/-- The masked mean over the 256 valid positions (the scale is 2⁻⁸). -/
def means (b : Fin 8) (o : Fin 512) : EReal := (∑ j : Fin 316, I.g b o j * mask j) * lit 0x3B800000#32

/-- The multiplicative gate: 3 / (1 + e^(−mean)) of the first 256 channels. -/
def gamma (b : Fin 8) (c : Fin 256) : EReal :=
  Ideal.div (lit 0x40400000#32)
    (lit 0x3F800000#32 + Ideal.exp (lit 0x00000000#32 - I.means b ⟨c.val, by have := c.isLt; omega⟩))

/-- The additive gate: the last 256 channels' means. -/
def beta (b : Fin 8) (c : Fin 256) : EReal := I.means b ⟨c.val + 256, by have := c.isLt; omega⟩

end GateIn

/-- The gate's inputs read off arrays: the padded map [8, 256, 400] and the eight parameter arrays. -/
def GateIn.ofArrays (zp : Vec Ideal ⟨3, ![8, 256, 400]⟩ .f32) (a2 : Vec Ideal ⟨2, ![256, 256]⟩ .f32)
    (a3 : Vec Ideal ⟨2, ![256, 1]⟩ .f32) (a4 : Vec Ideal ⟨3, ![9, 512, 256]⟩ .f32) (a5 : Vec Ideal ⟨2, ![512, 1]⟩ .f32)
    (a6 : Vec Ideal ⟨2, ![256, 512]⟩ .f32) (a7 : Vec Ideal ⟨2, ![256, 1]⟩ .f32) (a8 : Vec Ideal ⟨3, ![9, 512, 256]⟩ .f32)
    (a9 : Vec Ideal ⟨2, ![512, 1]⟩ .f32) : GateIn where
  zp b c j := zp (ix3 b c j)
  w1sq k c := a2 (ix2 k c)
  b1sq k := a3 (ix2 k (0 : Fin 1))
  w1ex t o k := a4 (ix3 t o k)
  b1ex o := a5 (ix2 o (0 : Fin 1))
  w2sq k o := a6 (ix2 k o)
  b2sq k := a7 (ix2 k (0 : Fin 1))
  w2ex t o k := a8 (ix3 t o k)
  b2ex o := a9 (ix2 o (0 : Fin 1))

/-- The normalisation's inputs as functions of coordinates. -/
structure AdainIn where
  x : Fin 8 → Fin 256 → Fin 4096 → EReal
  gam : Fin 8 → Fin 256 → EReal
  bet : Fin 8 → Fin 256 → EReal

namespace AdainIn

variable (A : AdainIn)

/-- The row mean (the scale is 2⁻¹²). -/
def mu (b : Fin 8) (c : Fin 256) : EReal := (∑ p : Fin 4096, A.x b c p) * lit 0x39800000#32

/-- The row's second moment. -/
def ex2 (b : Fin 8) (c : Fin 256) : EReal := (∑ p : Fin 4096, A.x b c p * A.x b c p) * lit 0x39800000#32

/-- One-pass form: variance as second moment minus squared mean. -/
def out (b : Fin 8) (c : Fin 256) (p : Fin 4096) : EReal :=
  (A.x b c p - A.mu b c)
      * (Ideal.rsqrt ((A.ex2 b c - A.mu b c * A.mu b c) + lit 0x3727C5AC#32) * A.gam b c)
    + A.bet b c

/-- The row mean as a quotient by 4096. -/
def muR (b : Fin 8) (c : Fin 256) : EReal := Ideal.div (∑ p : Fin 4096, A.x b c p) (lit 0x45800000#32)

/-- The variance as the mean of the squared deviations. -/
def varR (b : Fin 8) (c : Fin 256) : EReal :=
  Ideal.div (∑ p : Fin 4096, (A.x b c p - A.muR b c) * (A.x b c p - A.muR b c)) (lit 0x45800000#32)

/-- Two-pass form. -/
def outR (b : Fin 8) (c : Fin 256) (p : Fin 4096) : EReal :=
  (A.x b c p - A.muR b c) * (Ideal.rsqrt (A.varR b c + lit 0x3727C5AC#32) * A.gam b c) + A.bet b c

end AdainIn

/-- The normalisation's inputs read off the image [8, 256, 64, 64] (a row is the 64 × 64 plane, row-major) and the
    two gates. -/
def AdainIn.ofImage (x : Vec Ideal ⟨4, ![8, 256, 64, 64]⟩ .f32) (gam bet : Fin 8 → Fin 256 → EReal) : AdainIn where
  x b c p := x (ix4 b c (⟨p.val / 64, by have := p.isLt; omega⟩ : Fin 64) (⟨p.val % 64, by omega⟩ : Fin 64))
  gam := gam
  bet := bet

/-- The whole result [8, 256, 64, 64] of the image and the gate's inputs. -/
def result (x : Vec Ideal ⟨4, ![8, 256, 64, 64]⟩ .f32) (I : GateIn) : Vec Ideal ⟨4, ![8, 256, 64, 64]⟩ .f32 :=
  fun i => (AdainIn.ofImage x I.gamma I.beta).out (i 0) (i 1)
    ⟨(i 2).val * 64 + (i 3).val, by have h2 : (i 2).val < 64 := (i 2).isLt; have h3 : (i 3).val < 64 := (i 3).isLt; omega⟩

end Cert.Spec

end
-- ==== Proof.SpecPad.lean ====
/-
  Reflection padding by two on the two spatial axes of a [8, 256, 16, 16] map, flattened to [8, 256, 400]: padded row r
  reads source row 2 − r for r < 2, r − 2 for 2 ≤ r < 18, and 32 − r for r ≥ 18 (the border is not repeated); likewise
  the columns. And the gate's inputs read off the ten argument arrays.
-/
import proofs.«107153_g2000701298156354_pallasbulk_673_6_alg».proof.Proof.Spec

noncomputable section

namespace Cert.Spec

open Idealize.ShloMosaic Idealize.ShloMosaic.ValueIdx

/-- The source coordinate a padded coordinate reads. -/
def refl (r : Fin 20) : Fin 16 :=
  ⟨if r.val < 2 then 2 - r.val else if r.val < 18 then r.val - 2 else 32 - r.val, by
    have := r.isLt; split_ifs <;> omega⟩

/-- The padded map at batch `b`, channel `c`, flat position `j` (row `j / 20`, column `j % 20`). -/
def zpad (z : Vec Ideal ⟨4, ![8, 256, 16, 16]⟩ .f32) (b : Fin 8) (c : Fin 256) (j : Fin 400) : EReal :=
  z (ix4 b c (refl ⟨j.val / 20, by have := j.isLt; omega⟩) (refl ⟨j.val % 20, by omega⟩))

/-- The gate's inputs read off the argument arrays. -/
def GateIn.ofArgs (z : Vec Ideal ⟨4, ![8, 256, 16, 16]⟩ .f32) (a2 : Vec Ideal ⟨2, ![256, 256]⟩ .f32)
    (a3 : Vec Ideal ⟨2, ![256, 1]⟩ .f32) (a4 : Vec Ideal ⟨3, ![9, 512, 256]⟩ .f32) (a5 : Vec Ideal ⟨2, ![512, 1]⟩ .f32)
    (a6 : Vec Ideal ⟨2, ![256, 512]⟩ .f32) (a7 : Vec Ideal ⟨2, ![256, 1]⟩ .f32) (a8 : Vec Ideal ⟨3, ![9, 512, 256]⟩ .f32)
    (a9 : Vec Ideal ⟨2, ![512, 1]⟩ .f32) : GateIn where
  zp := zpad z
  w1sq k c := a2 (ix2 k c)
  b1sq k := a3 (ix2 k (0 : Fin 1))
  w1ex t o k := a4 (ix3 t o k)
  b1ex o := a5 (ix2 o (0 : Fin 1))
  w2sq k o := a6 (ix2 k o)
  b2sq k := a7 (ix2 k (0 : Fin 1))
  w2ex t o k := a8 (ix3 t o k)
  b2ex o := a9 (ix2 o (0 : Fin 1))

end Cert.Spec

end
-- ==== Proof.KArgs.lean ====
/-
  The ten argument arrays of the program at their literal array types, and the gate's inputs read off them.
-/
import proofs.«107153_g2000701298156354_pallasbulk_673_6_alg».proof.Proof.Gen.KernelIdeal.Frame
import proofs.«107153_g2000701298156354_pallasbulk_673_6_alg».proof.Proof.SpecPad
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

/-- The argument arrays at their literal types. -/
abbrev aX (c : Dev nD) : Vec Ideal S8x256x64x64 .f32 := m ((c : Thread nD τ).loc main_arg0)
abbrev aZ (c : Dev nD) : Vec Ideal S8x256x16x16 .f32 := m ((c : Thread nD τ).loc main_arg1)
abbrev a2 (c : Dev nD) : Vec Ideal S256x256 .f32 := m ((c : Thread nD τ).loc main_arg2)
abbrev a3 (c : Dev nD) : Vec Ideal S256x1 .f32 := m ((c : Thread nD τ).loc main_arg3)
abbrev a4 (c : Dev nD) : Vec Ideal S9x512x256 .f32 := m ((c : Thread nD τ).loc main_arg4)
abbrev a5 (c : Dev nD) : Vec Ideal S512x1 .f32 := m ((c : Thread nD τ).loc main_arg5)
abbrev a6 (c : Dev nD) : Vec Ideal S256x512 .f32 := m ((c : Thread nD τ).loc main_arg6)
abbrev a7 (c : Dev nD) : Vec Ideal S256x1 .f32 := m ((c : Thread nD τ).loc main_arg7)
abbrev a8 (c : Dev nD) : Vec Ideal S9x512x256 .f32 := m ((c : Thread nD τ).loc main_arg8)
abbrev a9 (c : Dev nD) : Vec Ideal S512x1 .f32 := m ((c : Thread nD τ).loc main_arg9)

/-- The gate's inputs read off the launch memory. -/
abbrev gateIn (c : Dev nD) : Cert.Spec.GateIn :=
  Cert.Spec.GateIn.ofArgs (aZ m c) (a2 m c) (a3 m c) (a4 m c) (a5 m c) (a6 m c) (a7 m c) (a8 m c) (a9 m c)

end Cert.KernelIdeal.Val

end
-- ==== Proof.KHost.lean ====
/-
  What the kernel program's host operations leave in the gate region's nine input arrays, index by index, in terms of
  the argument arrays: the reflection padding (slices, reversals and concatenations on the two spatial axes), the
  flattening [8,256,20,20] → [8,256,400], the batch axis moved inside and merged with the flat axis
  [256, 8·400], the cut into two halves of four batches and the half index moved outside [2, 256, 4·400]; the tap
  axis of each expand weight moved inside and merged with the input-channel axis [512, 9·256]; the format changes are
  the identity on extended reals.
-/
import proofs.«107153_g2000701298156354_pallasbulk_673_6_alg».proof.Proof.Gen.KernelIdeal.Frame
import proofs.«107153_g2000701298156354_pallasbulk_673_6_alg».proof.Proof.KArgs
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

namespace KHost

/-! ## Reversals and column slices of a rank-4 array read at an index -/

section Layout
variable {α : Type}

/-- A rank-4 array reversed along axis 2 reads, at row `r`, the source at the mirrored row. -/
theorem reverse4_axis2_apply {n0 n1 n2 n3 : Nat} (X : (⟨4, ![n0, n1, n2, n3]⟩ : Shape).Idx → α)
    (a : Fin n0) (b : Fin n1) (r : Fin n2) (e : Fin n3) :
    Host.reverse (s := ⟨4, ![n0, n1, n2, n3]⟩) [2] X (ix4 a b r e) = X (ix4 a b r.rev e) := by
  unfold Host.reverse
  refine congrArg X (funext fun ax => ?_)
  match ax with
  | ⟨0, _⟩ => rfl
  | ⟨1, _⟩ => rfl
  | ⟨2, _⟩ => rfl
  | ⟨3, _⟩ => rfl

/-- A rank-4 array reversed along axis 3 reads, at column `e`, the source at the mirrored column. -/
theorem reverse4_axis3_apply {n0 n1 n2 n3 : Nat} (X : (⟨4, ![n0, n1, n2, n3]⟩ : Shape).Idx → α)
    (a : Fin n0) (b : Fin n1) (r : Fin n2) (e : Fin n3) :
    Host.reverse (s := ⟨4, ![n0, n1, n2, n3]⟩) [3] X (ix4 a b r e) = X (ix4 a b r e.rev) := by
  unfold Host.reverse
  refine congrArg X (funext fun ax => ?_)
  match ax with
  | ⟨0, _⟩ => rfl
  | ⟨1, _⟩ => rfl
  | ⟨2, _⟩ => rfl
  | ⟨3, _⟩ => rfl

/-- A rank-4 array cut along axis 3 from `o` reads, at `(a, b, r, j)`, the source at `(a, b, r, k)` with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (r : Fin n2) (j : Fin m) (k : Fin n3) (hk : k.val = o + j.val) :
    extractStridedSlice ⟨4, ![n0, n1, n2, m]⟩ ![0, 0, 0, o] X h (ix4 a b r j) = X (ix4 a b r k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

end Layout

/-! ## The reflection padding, one side at a time -/

/-- Two mirrored rows put in front of a 16-row map: row `r` of the 18 reads row `2 - r` for `r < 2`, else `r - 2`. -/
theorem rows_front_apply (z : Vec Ideal S8x256x16x16 .f32) (b : Fin 8) (c : Fin 256) (r : Fin 18) (e : Fin 16) (k : Fin 16)
    (hk : k.val = if r.val < 2 then 2 - r.val else r.val - 2) :
    concatenate S8x256x18x16 2
        [⟨S8x256x2x16, Host.reverse [2] (extractStridedSlice S8x256x2x16 ![0, 0, 1, 0] z slices_S8x256x16x16_S8x256x2x16_0_0_1_0)⟩,
         ⟨S8x256x16x16, z⟩] concatenates_S8x256x2x16_S8x256x16x16_S8x256x18x16_d2 (ix4 b c r e)
      = z (ix4 b c k e) := by
  by_cases hr : r.val < 2
  · rw [if_pos hr] at hk
    refine (concatenate_pair_apply_left (t := S8x256x18x16) (s₁ := S8x256x2x16) (s₂ := S8x256x16x16) 2 _ _ _ (ix4 b c r e) rfl (ix4 b c (⟨r.val, hr⟩ : Fin 2) e)
      (fun ax => match ax with | ⟨0, _⟩ => rfl | ⟨1, _⟩ => rfl | ⟨2, _⟩ => rfl | ⟨3, _⟩ => rfl)).trans ?_
    refine (reverse4_axis2_apply _ b c (⟨r.val, hr⟩ : Fin 2) e).trans ?_
    exact slice4_axis2_apply 1 z _ b c _ e k (by show k.val = 1 + (2 - (r.val + 1)); omega)
  · rw [if_neg hr] at hk
    exact concatenate_pair_apply_right (t := S8x256x18x16) (s₁ := S8x256x2x16) (s₂ := S8x256x16x16) 2 _ _ _ (ix4 b c r e) rfl rfl (ix4 b c k e)
      (fun ax hax => match ax, hax with
        | ⟨0, _⟩, _ => rfl | ⟨1, _⟩, _ => rfl | ⟨2, _⟩, h => absurd rfl h | ⟨3, _⟩, _ => rfl)
      (by show k.val + 2 = r.val; omega)

/-- Two mirrored rows put behind an 18-row map: row `r` of the 20 reads row `r` for `r < 18`, else `34 - r`. -/
theorem rows_back_apply (y : Vec Ideal S8x256x18x16 .f32) (b : Fin 8) (c : Fin 256) (r : Fin 20) (e : Fin 16) (k : Fin 18)
    (hk : k.val = if r.val < 18 then r.val else 34 - r.val) :
    concatenate S8x256x20x16 2
        [⟨S8x256x18x16, y⟩,
         ⟨S8x256x2x16, Host.reverse [2] (extractStridedSlice S8x256x2x16 ![0, 0, 15, 0] y slices_S8x256x18x16_S8x256x2x16_0_0_15_0)⟩]
        concatenates_S8x256x18x16_S8x256x2x16_S8x256x20x16_d2 (ix4 b c r e)
      = y (ix4 b c k e) := by
  by_cases hr : r.val < 18
  · rw [if_pos hr] at hk
    exact concatenate_pair_apply_left (t := S8x256x20x16) (s₁ := S8x256x18x16) (s₂ := S8x256x2x16) 2 _ _ _ (ix4 b c r e) rfl (ix4 b c k e)
      (fun ax => match ax with | ⟨0, _⟩ => rfl | ⟨1, _⟩ => rfl | ⟨2, _⟩ => hk | ⟨3, _⟩ => rfl)
  · rw [if_neg hr] at hk
    have hr2 : r.val - 18 < 2 := by have := r.isLt; omega
    refine (concatenate_pair_apply_right (t := S8x256x20x16) (s₁ := S8x256x18x16) (s₂ := S8x256x2x16) 2 _ _ _ (ix4 b c r e) rfl rfl
      (ix4 b c (⟨r.val - 18, hr2⟩ : Fin 2) e)
      (fun ax hax => match ax, hax with
        | ⟨0, _⟩, _ => rfl | ⟨1, _⟩, _ => rfl | ⟨2, _⟩, h => absurd rfl h | ⟨3, _⟩, _ => rfl)
      (by show r.val - 18 + 18 = r.val; omega)).trans ?_
    refine (reverse4_axis2_apply _ b c (⟨r.val - 18, hr2⟩ : Fin 2) e).trans ?_
    exact slice4_axis2_apply 15 y _ b c _ e k (by show k.val = 15 + (2 - (r.val - 18 + 1)); omega)

/-- Two mirrored columns put in front of a 16-column map. -/
theorem cols_front_apply (y : Vec Ideal S8x256x20x16 .f32) (b : Fin 8) (c : Fin 256) (r : Fin 20) (e : Fin 18) (k : Fin 16)
    (hk : k.val = if e.val < 2 then 2 - e.val else e.val - 2) :
    concatenate S8x256x20x18 3
        [⟨S8x256x20x2, Host.reverse [3] (extractStridedSlice S8x256x20x2 ![0, 0, 0, 1] y slices_S8x256x20x16_S8x256x20x2_0_0_0_1)⟩,
         ⟨S8x256x20x16, y⟩] concatenates_S8x256x20x2_S8x256x20x16_S8x256x20x18_d3 (ix4 b c r e)
      = y (ix4 b c r k) := by
  by_cases he : e.val < 2
  · rw [if_pos he] at hk
    refine (concatenate_pair_apply_left (t := S8x256x20x18) (s₁ := S8x256x20x2) (s₂ := S8x256x20x16) 3 _ _ _ (ix4 b c r e) rfl
      (ix4 b c r (⟨e.val, he⟩ : Fin 2))
      (fun ax => match ax with | ⟨0, _⟩ => rfl | ⟨1, _⟩ => rfl | ⟨2, _⟩ => rfl | ⟨3, _⟩ => rfl)).trans ?_
    refine (reverse4_axis3_apply _ b c r (⟨e.val, he⟩ : Fin 2)).trans ?_
    exact slice4_axis3_apply 1 y _ b c r _ k (by show k.val = 1 + (2 - (e.val + 1)); omega)
  · rw [if_neg he] at hk
    exact concatenate_pair_apply_right (t := S8x256x20x18) (s₁ := S8x256x20x2) (s₂ := S8x256x20x16) 3 _ _ _ (ix4 b c r e) rfl rfl
      (ix4 b c r k)
      (fun ax hax => match ax, hax with
        | ⟨0, _⟩, _ => rfl | ⟨1, _⟩, _ => rfl | ⟨2, _⟩, _ => rfl | ⟨3, _⟩, h => absurd rfl h)
      (by show k.val + 2 = e.val; omega)

/-- Two mirrored columns put behind an 18-column map. -/
theorem cols_back_apply (y : Vec Ideal S8x256x20x18 .f32) (b : Fin 8) (c : Fin 256) (r : Fin 20) (e : Fin 20) (k : Fin 18)
    (hk : k.val = if e.val < 18 then e.val else 34 - e.val) :
    concatenate S8x256x20x20 3
        [⟨S8x256x20x18, y⟩,
         ⟨S8x256x20x2, Host.reverse [3] (extractStridedSlice S8x256x20x2 ![0, 0, 0, 15] y slices_S8x256x20x18_S8x256x20x2_0_0_0_15)⟩]
        concatenates_S8x256x20x18_S8x256x20x2_S8x256x20x20_d3 (ix4 b c r e)
      = y (ix4 b c r k) := by
  by_cases he : e.val < 18
  · rw [if_pos he] at hk
    exact concatenate_pair_apply_left (t := S8x256x20x20) (s₁ := S8x256x20x18) (s₂ := S8x256x20x2) 3 _ _ _ (ix4 b c r e) rfl (ix4 b c r k)
      (fun ax => match ax with | ⟨0, _⟩ => rfl | ⟨1, _⟩ => rfl | ⟨2, _⟩ => rfl | ⟨3, _⟩ => hk)
  · rw [if_neg he] at hk
    have he2 : e.val - 18 < 2 := by have := e.isLt; omega
    refine (concatenate_pair_apply_right (t := S8x256x20x20) (s₁ := S8x256x20x18) (s₂ := S8x256x20x2) 3 _ _ _ (ix4 b c r e) rfl rfl
      (ix4 b c r (⟨e.val - 18, he2⟩ : Fin 2))
      (fun ax hax => match ax, hax with
        | ⟨0, _⟩, _ => rfl | ⟨1, _⟩, _ => rfl | ⟨2, _⟩, _ => rfl | ⟨3, _⟩, h => absurd rfl h)
      (by show e.val - 18 + 18 = e.val; omega)).trans ?_
    refine (reverse4_axis3_apply _ b c r (⟨e.val - 18, he2⟩ : Fin 2)).trans ?_
    exact slice4_axis3_apply 15 y _ b c r _ k (by show k.val = 15 + (2 - (e.val - 18 + 1)); omega)

/-- The rows padded on both sides. -/
def padRows (z : Vec Ideal S8x256x16x16 .f32) : Vec Ideal S8x256x20x16 .f32 :=
  concatenate S8x256x20x16 2
    [⟨S8x256x18x16, concatenate S8x256x18x16 2
        [⟨S8x256x2x16, Host.reverse [2] (extractStridedSlice S8x256x2x16 ![0, 0, 1, 0] z slices_S8x256x16x16_S8x256x2x16_0_0_1_0)⟩,
         ⟨S8x256x16x16, z⟩] concatenates_S8x256x2x16_S8x256x16x16_S8x256x18x16_d2⟩,
     ⟨S8x256x2x16, Host.reverse [2] (extractStridedSlice S8x256x2x16 ![0, 0, 15, 0]
        (concatenate S8x256x18x16 2
          [⟨S8x256x2x16, Host.reverse [2] (extractStridedSlice S8x256x2x16 ![0, 0, 1, 0] z slices_S8x256x16x16_S8x256x2x16_0_0_1_0)⟩,
           ⟨S8x256x16x16, z⟩] concatenates_S8x256x2x16_S8x256x16x16_S8x256x18x16_d2)
        slices_S8x256x18x16_S8x256x2x16_0_0_15_0)⟩]
    concatenates_S8x256x18x16_S8x256x2x16_S8x256x20x16_d2

/-- The columns padded on both sides. -/
def padCols (y : Vec Ideal S8x256x20x16 .f32) : Vec Ideal S8x256x20x20 .f32 :=
  concatenate S8x256x20x20 3
    [⟨S8x256x20x18, concatenate S8x256x20x18 3
        [⟨S8x256x20x2, Host.reverse [3] (extractStridedSlice S8x256x20x2 ![0, 0, 0, 1] y slices_S8x256x20x16_S8x256x20x2_0_0_0_1)⟩,
         ⟨S8x256x20x16, y⟩] concatenates_S8x256x20x2_S8x256x20x16_S8x256x20x18_d3⟩,
     ⟨S8x256x20x2, Host.reverse [3] (extractStridedSlice S8x256x20x2 ![0, 0, 0, 15]
        (concatenate S8x256x20x18 3
          [⟨S8x256x20x2, Host.reverse [3] (extractStridedSlice S8x256x20x2 ![0, 0, 0, 1] y slices_S8x256x20x16_S8x256x20x2_0_0_0_1)⟩,
           ⟨S8x256x20x16, y⟩] concatenates_S8x256x20x2_S8x256x20x16_S8x256x20x18_d3)
        slices_S8x256x20x18_S8x256x20x2_0_0_0_15)⟩]
    concatenates_S8x256x20x18_S8x256x20x2_S8x256x20x20_d3

/-- The padded rows read the reflected source row. -/
theorem padRows_apply (z : Vec Ideal S8x256x16x16 .f32) (b : Fin 8) (c : Fin 256) (r : Fin 20) (e : Fin 16) :
    padRows z (ix4 b c r e) = z (ix4 b c (Cert.Spec.refl r) e) := by
  have hr := r.isLt
  unfold padRows
  refine (rows_back_apply _ b c r e
    (⟨if r.val < 18 then r.val else 34 - r.val, by split_ifs <;> omega⟩ : Fin 18) rfl).trans ?_
  refine rows_front_apply z b c _ e (Cert.Spec.refl r) ?_
  show (if r.val < 2 then 2 - r.val else if r.val < 18 then r.val - 2 else 32 - r.val)
    = if (if r.val < 18 then r.val else 34 - r.val) < 2 then 2 - (if r.val < 18 then r.val else 34 - r.val)
      else (if r.val < 18 then r.val else 34 - r.val) - 2
  split_ifs <;> omega

/-- The padded columns read the reflected source column. -/
theorem padCols_apply (y : Vec Ideal S8x256x20x16 .f32) (b : Fin 8) (c : Fin 256) (r : Fin 20) (e : Fin 20) :
    padCols y (ix4 b c r e) = y (ix4 b c r (Cert.Spec.refl e)) := by
  have he := e.isLt
  unfold padCols
  refine (cols_back_apply _ b c r e
    (⟨if e.val < 18 then e.val else 34 - e.val, by split_ifs <;> omega⟩ : Fin 18) rfl).trans ?_
  refine cols_front_apply y b c r _ (Cert.Spec.refl e) ?_
  show (if e.val < 2 then 2 - e.val else if e.val < 18 then e.val - 2 else 32 - e.val)
    = if (if e.val < 18 then e.val else 34 - e.val) < 2 then 2 - (if e.val < 18 then e.val else 34 - e.val)
      else (if e.val < 18 then e.val else 34 - e.val) - 2
  split_ifs <;> omega

/-! ## The flattening, the two axis moves and the cut into halves -/

/-- What the last six operations before the gate region make of the padded map. -/
def flat6 (x : Vec Ideal S8x256x20x20 .f32) : Vec Ideal S2x256x1600 .bf16 :=
  transpose S2x256x1600 [1, 0, 2]
    (shapeCast S256x2x1600
      (truncf (F := Ideal) (φ := .f32) .bf16
        (shapeCast S256x3200
          (transpose S256x8x400 [1, 0, 2]
            (shapeCast S8x256x400 x shapeCasts_S8x256x20x20_S8x256x400)
            transposes_S8x256x400_S256x8x400_1_0_2)
          shapeCasts_S256x8x400_S256x3200)
        bitsLt_bf16_f32)
      shapeCasts_S256x3200_S256x2x1600)
    transposes_S256x2x1600_S2x256x1600_1_0_2

/-- Half `g`, channel `ch`, position `400·bl + j` is batch `4g + bl`, channel `ch`, row `j / 20`, column `j % 20`. -/
theorem flat6_apply (x : Vec Ideal S8x256x20x20 .f32) (g : Fin 2) (ch : Fin 256) (bl : Fin 4) (j : Fin 400) :
    flat6 x (ix3 g ch (⟨400 * bl.val + j.val, by have := bl.isLt; have := j.isLt; omega⟩ : Fin 1600))
      = x (ix4 (⟨4 * g.val + bl.val, by have := g.isLt; have := bl.isLt; omega⟩ : Fin 8) ch
            (⟨j.val / 20, by have := j.isLt; omega⟩ : Fin 20) (⟨j.val % 20, by omega⟩ : Fin 20)) := by
  have hg := g.isLt; have hbl := bl.isLt; have hj := j.isLt; have hch := ch.isLt
  unfold flat6
  refine (transpose_apply (s := S256x2x1600) (t := S2x256x1600) [1, 0, 2] _ transposes_S256x2x1600_S2x256x1600_1_0_2
    (ix3 g ch (⟨400 * bl.val + j.val, by omega⟩ : Fin 1600)) (ix3 ch g (⟨400 * bl.val + j.val, by omega⟩ : Fin 1600))
    (fun b => match b with | ⟨0, _⟩ => rfl | ⟨1, _⟩ => rfl | ⟨2, _⟩ => rfl)).trans ?_
  refine (shapeCast_apply (s := S256x3200) (t := S256x2x1600) _ shapeCasts_S256x3200_S256x2x1600
    (ix3 ch g (⟨400 * bl.val + j.val, by omega⟩ : Fin 1600))
    (ix2 ch (⟨1600 * g.val + (400 * bl.val + j.val), by omega⟩ : Fin 3200)) ?_).trans ?_
  · rw [Shape.rowMajor_val_two, Shape.rowMajor_val_three]
    show ch.val * 3200 + (1600 * g.val + (400 * bl.val + j.val)) = (ch.val * 2 + g.val) * 1600 + (400 * bl.val + j.val)
    omega
  refine (truncf_apply _ bitsLt_bf16_f32 _).trans ?_
  refine (shapeCast_apply (s := S256x8x400) (t := S256x3200) _ shapeCasts_S256x8x400_S256x3200
    (ix2 ch (⟨1600 * g.val + (400 * bl.val + j.val), by omega⟩ : Fin 3200))
    (ix3 ch (⟨4 * g.val + bl.val, by omega⟩ : Fin 8) j) ?_).trans ?_
  · rw [Shape.rowMajor_val_three, Shape.rowMajor_val_two]
    show (ch.val * 8 + (4 * g.val + bl.val)) * 400 + j.val = ch.val * 3200 + (1600 * g.val + (400 * bl.val + j.val))
    omega
  refine (transpose_apply (s := S8x256x400) (t := S256x8x400) [1, 0, 2] _ transposes_S8x256x400_S256x8x400_1_0_2
    (ix3 ch (⟨4 * g.val + bl.val, by omega⟩ : Fin 8) j) (ix3 (⟨4 * g.val + bl.val, by omega⟩ : Fin 8) ch j)
    (fun b => match b with | ⟨0, _⟩ => rfl | ⟨1, _⟩ => rfl | ⟨2, _⟩ => rfl)).trans ?_
  refine shapeCast_apply (s := S8x256x20x20) (t := S8x256x400) _ shapeCasts_S8x256x20x20_S8x256x400
    (ix3 (⟨4 * g.val + bl.val, by omega⟩ : Fin 8) ch j)
    (ix4 (⟨4 * g.val + bl.val, by omega⟩ : Fin 8) ch (⟨j.val / 20, by omega⟩ : Fin 20) (⟨j.val % 20, by omega⟩ : Fin 20)) ?_
  rw [Shape.rowMajor_val_four, Shape.rowMajor_val_three]
  show (((4 * g.val + bl.val) * 256 + ch.val) * 20 + j.val / 20) * 20 + j.val % 20 = ((4 * g.val + bl.val) * 256 + ch.val) * 400 + j.val
  omega

/-- An expand weight with its tap axis moved inside and merged with the input channels. -/
def flatW (a : Vec Ideal S9x512x256 .f32) : Vec Ideal S512x2304 .bf16 :=
  truncf (F := Ideal) (φ := .f32) .bf16
    (shapeCast S512x2304 (transpose S512x9x256 [1, 0, 2] a transposes_S9x512x256_S512x9x256_1_0_2) shapeCasts_S512x9x256_S512x2304)
    bitsLt_bf16_f32

/-- Row `o`, column `256·t + k` is tap `t`, output channel `o`, input channel `k`. -/
theorem flatW_apply (a : Vec Ideal S9x512x256 .f32) (o : Fin 512) (t : Fin 9) (k : Fin 256) :
    flatW a (ix2 o (⟨256 * t.val + k.val, by have := t.isLt; have := k.isLt; omega⟩ : Fin 2304)) = a (ix3 t o k) := by
  have ho := o.isLt; have ht := t.isLt; have hk := k.isLt
  unfold flatW
  refine (truncf_apply _ bitsLt_bf16_f32 _).trans ?_
  refine (shapeCast_apply (s := S512x9x256) (t := S512x2304) _ shapeCasts_S512x9x256_S512x2304
    (ix2 o (⟨256 * t.val + k.val, by omega⟩ : Fin 2304)) (ix3 o t k) ?_).trans ?_
  · rw [Shape.rowMajor_val_three, Shape.rowMajor_val_two]
    show (o.val * 9 + t.val) * 256 + k.val = o.val * 2304 + (256 * t.val + k.val)
    omega
  exact transpose_apply (s := S9x512x256) (t := S512x9x256) [1, 0, 2] _ transposes_S9x512x256_S512x9x256_1_0_2
    (ix3 o t k) (ix3 t o k) (fun b => match b with | ⟨0, _⟩ => rfl | ⟨1, _⟩ => rfl | ⟨2, _⟩ => rfl)

/-! ## The host stretches read off the buffers they start from -/

section Stretches
variable (V : Valuation τ sig (Elt Ideal))

/-- The padding stretch leaves the argument padded on its rows, then on its columns. -/
theorem after1_v0 :
    (StableHlo.after hostOps0_1 V (Proc.devRef .tc main_v0) : Vec Ideal S8x256x20x20 .f32)
      = padCols (padRows (V (Proc.devRef .tc main_arg1))) := by
  unfold padCols padRows
  after_results
  simp only [StableHlo.TRef.ofBuf, StableHlo.TRef.toBuf, cast_eq]

theorem after2_v6 :
    (StableHlo.after hostOps0_2 V (Proc.devRef .tc main_v6) : Vec Ideal S2x256x1600 .bf16)
      = flat6 (V (Proc.devRef .tc main_v0)) := by
  unfold flat6
  after_results
  rfl

theorem after2_v12 :
    (StableHlo.after hostOps0_2 V (Proc.devRef .tc main_v12) : Vec Ideal S512x2304 .bf16)
      = flatW (V (Proc.devRef .tc main_arg4)) := by
  unfold flatW
  after_results
  rfl

theorem after2_v14 :
    (StableHlo.after hostOps0_2 V (Proc.devRef .tc main_v14) : Vec Ideal S512x2304 .bf16)
      = flatW (V (Proc.devRef .tc main_arg8)) := by
  unfold flatW
  after_results
  rfl

theorem after2_v11 :
    (StableHlo.after hostOps0_2 V (Proc.devRef .tc main_v11) : Vec Ideal S256x256 .bf16)
      = (V (Proc.devRef .tc main_arg2) : Vec Ideal S256x256 .f32) := by
  after_results
  rfl

theorem after2_v13 :
    (StableHlo.after hostOps0_2 V (Proc.devRef .tc main_v13) : Vec Ideal S256x512 .bf16)
      = (V (Proc.devRef .tc main_arg6) : Vec Ideal S256x512 .f32) := by
  after_results
  rfl

end Stretches

/-! ## The arguments as the stretches find them -/

/-- The padding stretch finds the second argument as launched. -/
theorem W1_arg1 (c : Dev nD) : W1 m ρ c (Proc.devRef .tc main_arg1) = m ((c : Thread nD τ).loc main_arg1) := by
  show StableHlo.after hostOps0 (W0 m ρ c) (Proc.devRef .tc main_arg1) = _
  after_results

theorem W2_arg2 (c : Dev nD) : W2 m ρ c (Proc.devRef .tc main_arg2) = m ((c : Thread nD τ).loc main_arg2) := by
  show StableHlo.after hostOps0_1 (W1 m ρ c) (Proc.devRef .tc main_arg2) = _
  after_results

theorem W2_arg4 (c : Dev nD) : W2 m ρ c (Proc.devRef .tc main_arg4) = m ((c : Thread nD τ).loc main_arg4) := by
  show StableHlo.after hostOps0_1 (W1 m ρ c) (Proc.devRef .tc main_arg4) = _
  after_results

theorem W2_arg6 (c : Dev nD) : W2 m ρ c (Proc.devRef .tc main_arg6) = m ((c : Thread nD τ).loc main_arg6) := by
  show StableHlo.after hostOps0_1 (W1 m ρ c) (Proc.devRef .tc main_arg6) = _
  after_results

theorem W2_arg8 (c : Dev nD) : W2 m ρ c (Proc.devRef .tc main_arg8) = m ((c : Thread nD τ).loc main_arg8) := by
  show StableHlo.after hostOps0_1 (W1 m ρ c) (Proc.devRef .tc main_arg8) = _
  after_results

theorem W3_arg3 (c : Dev nD) : W3 m ρ c (Proc.devRef .tc main_arg3) = m ((c : Thread nD τ).loc main_arg3) := by
  show StableHlo.after hostOps0_2 (W2 m ρ c) (Proc.devRef .tc main_arg3) = _
  after_results

theorem W3_arg5 (c : Dev nD) : W3 m ρ c (Proc.devRef .tc main_arg5) = m ((c : Thread nD τ).loc main_arg5) := by
  show StableHlo.after hostOps0_2 (W2 m ρ c) (Proc.devRef .tc main_arg5) = _
  after_results

theorem W3_arg7 (c : Dev nD) : W3 m ρ c (Proc.devRef .tc main_arg7) = m ((c : Thread nD τ).loc main_arg7) := by
  show StableHlo.after hostOps0_2 (W2 m ρ c) (Proc.devRef .tc main_arg7) = _
  after_results

theorem W3_arg9 (c : Dev nD) : W3 m ρ c (Proc.devRef .tc main_arg9) = m ((c : Thread nD τ).loc main_arg9) := by
  show StableHlo.after hostOps0_2 (W2 m ρ c) (Proc.devRef .tc main_arg9) = _
  after_results

end KHost

open KHost

/-- The padded map as the gate region finds it: half `g`, channel `ch`, position `400·bl + j` is batch `4g + bl` at `j`. -/
theorem v3_v6 (c : Dev nD) (g : Fin 2) (ch : Fin 256) (bl : Fin 4) (j : Fin 400) :
    (V3 m ρ c main_v6 : Vec Ideal S2x256x1600 .bf16)
        (ix3 g ch (⟨400 * bl.val + j.val, by have := bl.isLt; have := j.isLt; omega⟩ : Fin 1600))
      = Cert.Spec.zpad (aZ m c) ⟨4 * g.val + bl.val, by have := g.isLt; have := bl.isLt; omega⟩ ch j := by
  refine (congrFun (after2_v6 (W2 m ρ c)) _).trans ?_
  refine (flat6_apply _ g ch bl j).trans ?_
  refine (congrFun (after1_v0 (W1 m ρ c)) _).trans ?_
  refine (padCols_apply _ _ _ _ _).trans ?_
  refine (padRows_apply _ _ _ _ _).trans ?_
  rw [W1_arg1]
  rfl

theorem v3_v11 (c : Dev nD) (k ch : Fin 256) :
    (V3 m ρ c main_v11 : Vec Ideal S256x256 .bf16) (ix2 k ch) = a2 m c (ix2 k ch) := by
  refine (congrFun (after2_v11 (W2 m ρ c)) _).trans ?_
  rw [W2_arg2]

theorem v3_arg3 (c : Dev nD) (k : Fin 256) :
    (V3 m ρ c main_arg3 : Vec Ideal S256x1 .f32) (ix2 k (0 : Fin 1)) = a3 m c (ix2 k (0 : Fin 1)) := by
  exact congrFun (W3_arg3 m ρ c) _

/-- The first expand weight with its taps side by side: column `256·t + k` is tap `t`, input channel `k`. -/
theorem v3_v12 (c : Dev nD) (o : Fin 512) (t : Fin 9) (k : Fin 256) :
    (V3 m ρ c main_v12 : Vec Ideal S512x2304 .bf16)
        (ix2 o (⟨256 * t.val + k.val, by have := t.isLt; have := k.isLt; omega⟩ : Fin 2304))
      = a4 m c (ix3 t o k) := by
  refine (congrFun (after2_v12 (W2 m ρ c)) _).trans ?_
  refine (flatW_apply _ o t k).trans ?_
  rw [W2_arg4]

theorem v3_arg5 (c : Dev nD) (o : Fin 512) :
    (V3 m ρ c main_arg5 : Vec Ideal S512x1 .f32) (ix2 o (0 : Fin 1)) = a5 m c (ix2 o (0 : Fin 1)) := by
  exact congrFun (W3_arg5 m ρ c) _

theorem v3_v13 (c : Dev nD) (k : Fin 256) (o : Fin 512) :
    (V3 m ρ c main_v13 : Vec Ideal S256x512 .bf16) (ix2 k o) = a6 m c (ix2 k o) := by
  refine (congrFun (after2_v13 (W2 m ρ c)) _).trans ?_
  rw [W2_arg6]

theorem v3_arg7 (c : Dev nD) (k : Fin 256) :
    (V3 m ρ c main_arg7 : Vec Ideal S256x1 .f32) (ix2 k (0 : Fin 1)) = a7 m c (ix2 k (0 : Fin 1)) := by
  exact congrFun (W3_arg7 m ρ c) _

/-- The second expand weight with its taps side by side. -/
theorem v3_v14 (c : Dev nD) (o : Fin 512) (t : Fin 9) (k : Fin 256) :
    (V3 m ρ c main_v14 : Vec Ideal S512x2304 .bf16)
        (ix2 o (⟨256 * t.val + k.val, by have := t.isLt; have := k.isLt; omega⟩ : Fin 2304))
      = a8 m c (ix3 t o k) := by
  refine (congrFun (after2_v14 (W2 m ρ c)) _).trans ?_
  refine (flatW_apply _ o t k).trans ?_
  rw [W2_arg8]

theorem v3_arg9 (c : Dev nD) (o : Fin 512) :
    (V3 m ρ c main_arg9 : Vec Ideal S512x1 .f32) (ix2 o (0 : Fin 1)) = a9 m c (ix2 o (0 : Fin 1)) := by
  exact congrFun (W3_arg9 m ρ c) _

end Cert.KernelIdeal.Val

end
-- ==== Proof.KMid.lean ====
/-
  The kernel program between and after its two regions: the image reshaped [8,256,64,64] → [8,256,4096] before the
  normalisation region, the two gate arrays passed on as the gate region left them, and the result reshaped back.
-/
import proofs.«107153_g2000701298156354_pallasbulk_673_6_alg».proof.Proof.Gen.KernelIdeal.Frame
import proofs.«107153_g2000701298156354_pallasbulk_673_6_alg».proof.Proof.KArgs
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

/-- The 64 × 64 plane flattened row-major: position `p` of the flat axis is row `k`, column `l` when `p = 64 k + l`. -/
private theorem shapeCast_flat_apply {α : Type} (x : S8x256x64x64.Idx → α) (h : S8x256x64x64.ShapeCasts S8x256x4096)
    (i : Fin 8) (j : Fin 256) (k l : Fin 64) (p : Fin 4096) (hp : p.val = k.val * 64 + l.val) :
    shapeCast S8x256x4096 x h (ix3 i j p) = x (ix4 i j k l) :=
  shapeCast_apply x h _ _ (by
    rw [Shape.rowMajor_val_four, Shape.rowMajor_val_three]
    show ((i.val * 256 + j.val) * 64 + k.val) * 64 + l.val = (i.val * 256 + j.val) * 4096 + p.val
    omega)

/-- The flat axis cut back into the 64 × 64 plane: row `k`, column `l` reads flat position `64 k + l`. -/
private theorem shapeCast_unflat_apply {α : Type} (x : S8x256x4096.Idx → α) (h : S8x256x4096.ShapeCasts S8x256x64x64)
    (i : S8x256x64x64.Idx) (p : Fin 4096) (hp : p.val = (i 2).val * 64 + (i 3).val) :
    shapeCast S8x256x64x64 x h i = x (ix3 (i 0) (i 1) p) :=
  shapeCast_apply x h _ _ (by
    rw [Shape.rowMajor_val_three, Shape.rowMajor_val_four]
    show ((i 0).val * 256 + (i 1).val) * 4096 + p.val = (((i 0).val * 256 + (i 1).val) * 64 + (i 2).val) * 64 + (i 3).val
    omega)

/-- The image argument is no array of the gate region and no host operation before it writes it: at the gate
    region's exit it still holds the launch memory. -/
private theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The image as the normalisation region finds it: the 64 × 64 plane flattened row-major. -/
theorem v5_x (c : Dev nD) (b : Fin 8) (ch : Fin 256) (p : Fin 4096) :
    (V5 m ρ c main_v16 : Vec Ideal S8x256x4096 .f32) (ix3 b ch p)
      = aX m c (ix4 b ch (⟨p.val / 64, by have := p.isLt; omega⟩ : Fin 64) (⟨p.val % 64, by omega⟩ : Fin 64)) := by
  have h : (V5 m ρ c main_v16 : Vec Ideal S8x256x4096 .f32)
      = shapeCast S8x256x4096 (aX m c) shapeCasts_S8x256x64x64_S8x256x4096 := by
    show StableHlo.after hostOps1 (W4 m ρ c) (Proc.devRef .tc main_v16) = _
    after_results
    rw [W4_main_arg0]
    rfl
  rw [h]
  exact shapeCast_flat_apply _ _ b ch _ _ p (by show p.val = p.val / 64 * 64 + p.val % 64; omega)

/-- The multiplicative gate as the normalisation region finds it: what the gate region's write-backs left. -/
theorem v5_gam (c : Dev nD) (b : Fin 8) (ch : Fin 256) :
    (V5 m ρ c main_v15_0 : Vec Ideal S8x256x1 .f32) (ix3 b ch (0 : Fin 1))
      = ((dat0 (V3 m ρ) c).arrAt 9 cfg0.N : Vec Ideal S8x256x1 .f32) (ix3 b ch (0 : Fin 1)) := by
  have h : W5 m ρ c (Proc.devRef .tc main_v15_0) = W4 m ρ c (Proc.devRef .tc main_v15_0) :=
    StableHlo.after_of_forall_not_mem (b := Proc.devRef .tc main_v15_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  exact congrFun (h.trans (W4_arr m ρ c 9)) _

/-- The additive gate as the normalisation region finds it. -/
theorem v5_bet (c : Dev nD) (b : Fin 8) (ch : Fin 256) :
    (V5 m ρ c main_v15_1 : Vec Ideal S8x256x1 .f32) (ix3 b ch (0 : Fin 1))
      = ((dat0 (V3 m ρ) c).arrAt 10 cfg0.N : Vec Ideal S8x256x1 .f32) (ix3 b ch (0 : Fin 1)) := by
  have h : W5 m ρ c (Proc.devRef .tc main_v15_1) = W4 m ρ c (Proc.devRef .tc main_v15_1) :=
    StableHlo.after_of_forall_not_mem (b := Proc.devRef .tc main_v15_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  exact congrFun (h.trans (W4_arr m ρ c 10)) _

/-- The result buffer after the last host operation: the normalisation region's result array with its flat axis cut
    back into the 64 × 64 plane. -/
theorem w7_res (c : Dev nD) (i : S8x256x64x64.Idx) :
    (W7 m ρ c (Proc.devRef .tc main_v18) : Vec Ideal S8x256x64x64 .f32) i
      = ((dat1 (V5 m ρ) c).arrAt 3 cfg1.N : Vec Ideal S8x256x4096 .f32)
          (ix3 (i 0) (i 1) (⟨(i 2).val * 64 + (i 3).val, by
            have h2 : (i 2).val < 64 := (i 2).isLt; have h3 : (i 3).val < 64 := (i 3).isLt; omega⟩ : Fin 4096)) := by
  have h : (W7 m ρ c (Proc.devRef .tc main_v18) : Vec Ideal S8x256x64x64 .f32)
      = shapeCast S8x256x64x64 ((dat1 (V5 m ρ) c).arrAt 3 cfg1.N : Vec Ideal S8x256x4096 .f32)
          shapeCasts_S8x256x4096_S8x256x64x64 := by
    show StableHlo.after hostOps2 (W6 m ρ c) (Proc.devRef .tc main_v18) = _
    after_results
    rw [show W6 m ρ c (Proc.devRef .tc main_v17) = (dat1 (V5 m ρ) c).arrAt 3 cfg1.N from W6_arr m ρ c 3]
    rfl
  rw [h]
  exact shapeCast_unflat_apply _ _ i _ rfl

end Cert.KernelIdeal.Val

end
-- ==== Proof.LibFinSum.lean ====
/-
  A sum over `Fin (a * b)` cut into `a` consecutive blocks of length `b`.
-/
import Idealize.ShloMosaic.Lib.ValueIdx

open scoped BigOperators

namespace Cert.LibFinSum

/-- A sum over `Fin (a * b)` is the double sum over `a` consecutive blocks of length `b`: the index of entry `k` of
    block `t` is `t * b + k`. -/
theorem sum_fin_mul {M : Type*} [AddCommMonoid M] (a b : ℕ) (f : Fin (a * b) → M) :
    ∑ i, f i = ∑ t : Fin a, ∑ k : Fin b,
      f ⟨t.val * b + k.val, by
        have ht := t.isLt; have hk := k.isLt
        calc t.val * b + k.val < t.val * b + b := by omega
          _ = (t.val + 1) * b := by ring
          _ ≤ a * b := Nat.mul_le_mul_right b ht⟩ := by
  rw [← Equiv.sum_comp finProdFinEquiv f, Fintype.sum_prod_type]
  refine Finset.sum_congr rfl fun t _ => Finset.sum_congr rfl fun k _ => ?_
  congr 1
  ext
  simp only [finProdFinEquiv_apply_val]
  ring

end Cert.LibFinSum
-- ==== Proof.KPay1.lean ====
/-
  The first three layers of the gate as the kernel's body computes them on one block of four batches laid side by
  side (segment stride 400 on the flat axis): the 1×1 convolution, the nine shifted views stacked along the
  contracted axis and one product over 9·256 terms, bias, ReLU, scale, and the second 1×1 convolution. At flat
  position 400·bl + j with j < 358 the result is the second squeeze (before its ReLU) of batch 4g + bl at j.
-/
import proofs.«107153_g2000701298156354_pallasbulk_673_6_alg».proof.Proof.Gen.KernelIdeal.Skeleton
import proofs.«107153_g2000701298156354_pallasbulk_673_6_alg».proof.Proof.Spec
import proofs.«107153_g2000701298156354_pallasbulk_673_6_alg».proof.Proof.LibFinSum
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.Spec

namespace Pay1Aux

/-! ## A plain matrix product read at an entry -/

/-- The dimension numbers of a plain product of an M×K by a K×N matrix. -/
abbrev plainD (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  { lhsContracting := [1], rhsContracting := [0], lhsNonContracting := [0], rhsNonContracting := [1],
    lhsBatch := [], rhsBatch := [], wf := wf }

/-- The left operand's row is the result's row. -/
theorem plainD_lhs_0 (M K N : Nat) (wf) (j : (⟨2, ![M, N]⟩ : Shape).Idx) (k : (plainD M K N wf).contr.Idx) :
    ((plainD M K N wf).lhsIdx j k 0 : ℕ) = j 0 := by
  simp [DotDims.lhsIdx, plainD]; rfl
/-- The left operand's column is the contracted coordinate. -/
theorem plainD_lhs_1 (M K N : Nat) (wf) (j : (⟨2, ![M, N]⟩ : Shape).Idx) (k : (plainD M K N wf).contr.Idx) :
    ((plainD M K N wf).lhsIdx j k 1 : ℕ) = k ⟨0, by rw [DotDims.rank_contr]; exact Nat.one_pos⟩ := by
  simp [DotDims.lhsIdx, plainD]; rfl
/-- The right operand's row is the contracted coordinate. -/
theorem plainD_rhs_0 (M K N : Nat) (wf) (j : (⟨2, ![M, N]⟩ : Shape).Idx) (k : (plainD M K N wf).contr.Idx) :
    ((plainD M K N wf).rhsIdx j k 0 : ℕ) = k ⟨0, by rw [DotDims.rank_contr]; exact Nat.one_pos⟩ := by
  simp [DotDims.rhsIdx, plainD]; rfl
/-- The right operand's column is the result's column. -/
theorem plainD_rhs_1 (M K N : Nat) (wf) (j : (⟨2, ![M, N]⟩ : Shape).Idx) (k : (plainD M K N wf).contr.Idx) :
    ((plainD M K N wf).rhsIdx j k 1 : ℕ) = j 1 := by
  simp [DotDims.rhsIdx, plainD]; rfl

/-- A plain product into the zero accumulator, read at row `r` and column `c`: the sum over the contracted
    coordinate of the entries' products. -/
theorem plain_matmul_apply (M K N : Nat) (wf) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (plainD M K N wf) prec lhs rhs (constant (F := Ideal) ⟨2, ![M, N]⟩ .f32 0x00000000#32) (ix2 r c)
      = ∑ i : Fin K, lhs (ix2 r i) * rhs (ix2 i c) := by
  rw [Ideal.matmul_constant_zero_apply]
  rw [← Equiv.sum_comp (contrEquiv1 (plainD M K N wf) K rfl rfl).symm]
  refine Finset.sum_congr rfl fun i _ => ?_
  have hl : (plainD M K N wf).lhsIdx (ix2 r c) ((contrEquiv1 (plainD M K N wf) K rfl rfl).symm i) = ix2 r i := by
    funext a
    match a with
    | ⟨0, _⟩ => exact Fin.ext (plainD_lhs_0 M K N wf _ _)
    | ⟨1, _⟩ => exact Fin.ext ((plainD_lhs_1 M K N wf _ _).trans (contrEquiv1_symm_val _ K rfl rfl i))
  have hr : (plainD M K N wf).rhsIdx (ix2 r c) ((contrEquiv1 (plainD M K N wf) K rfl rfl).symm i) = ix2 i c := by
    funext a
    match a with
    | ⟨0, _⟩ => exact Fin.ext ((plainD_rhs_0 M K N wf _ _).trans (contrEquiv1_symm_val _ K rfl rfl i))
    | ⟨1, _⟩ => exact Fin.ext (plainD_rhs_1 M K N wf _ _)
  rw [hl, hr]

/-- The first product of the body, [256,256] by [256,1600]. -/
theorem mm1_apply (lhs : FVec Ideal S256x256 .bf16) (rhs : FVec Ideal S256x1600 .bf16) (r : Fin 256) (c : Fin 1600) :
    matmul dot_S256x256_S256x1600_S256x1600_1_0_0_1_n_n none lhs rhs (constant (F := Ideal) S256x1600 .f32 0x00000000#32) (ix2 r c)
      = ∑ i : Fin 256, lhs (ix2 r i) * rhs (ix2 i c) :=
  plain_matmul_apply 256 256 1600 _ none lhs rhs r c

/-- The second product, [512,2304] by [2304,1558]. -/
theorem mm2_apply (lhs : FVec Ideal S512x2304 .bf16) (rhs : FVec Ideal S2304x1558 .bf16) (r : Fin 512) (c : Fin 1558) :
    matmul dot_S512x2304_S2304x1558_S512x1558_1_0_0_1_n_n none lhs rhs (constant (F := Ideal) S512x1558 .f32 0x00000000#32) (ix2 r c)
      = ∑ i : Fin 2304, lhs (ix2 r i) * rhs (ix2 i c) :=
  plain_matmul_apply 512 2304 1558 _ none lhs rhs r c

/-- The third product, [256,512] by [512,1558]. -/
theorem mm3_apply (lhs : FVec Ideal S256x512 .bf16) (rhs : FVec Ideal S512x1558 .bf16) (r : Fin 256) (c : Fin 1558) :
    matmul dot_S256x512_S512x1558_S256x1558_1_0_0_1_n_n none lhs rhs (constant (F := Ideal) S256x1558 .f32 0x00000000#32) (ix2 r c)
      = ∑ i : Fin 512, lhs (ix2 r i) * rhs (ix2 i c) :=
  plain_matmul_apply 256 512 1558 _ none lhs rhs r c

/-- A column [a,1] broadcast to [a,b] reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four stretches of the payload -/

/-- The first squeeze on the block: product with the block of four batches, bias, ReLU. -/
def lay1 (v0 : Vec Ideal S256x256 .bf16) (v2 : Vec Ideal S1x256x1600 .bf16) (v5 : Vec Ideal S256x1 .f32) :
    FVec Ideal S256x1600 .bf16 :=
  truncf .bf16 (maximumf (addf (matmul dot_S256x256_S256x1600_S256x1600_1_0_0_1_n_n none
      (shapeCast S256x256 v0 shapeCasts_S256x256_S256x256 : FVec Ideal S256x256 .bf16)
      (shapeCast S256x1600 v2 shapeCasts_S1x256x1600_S256x1600 : FVec Ideal S256x1600 .bf16)
      (constant S256x1600 .f32 0x00000000#32)) (broadcastTo S256x1600 v5 broadcasts_S256x1_S256x1600))
    (broadcast S256x1600 (Scalar.ofBits .f32 0x00000000#32))) bitsLt_bf16_f32

/-- The nine shifted views of the first squeeze. -/
def taps (x : FVec Ideal S256x1600 .bf16) : Fin 9 → FVec Ideal S256x1558 .bf16
  | ⟨0, _⟩ => extractStridedSlice S256x1558 ![0, 0] x slices_S256x1600_o0_0_S256x1558
  | ⟨1, _⟩ => extractStridedSlice S256x1558 ![0, 1] x slices_S256x1600_o0_1_S256x1558
  | ⟨2, _⟩ => extractStridedSlice S256x1558 ![0, 2] x slices_S256x1600_o0_2_S256x1558
  | ⟨3, _⟩ => extractStridedSlice S256x1558 ![0, 20] x slices_S256x1600_o0_20_S256x1558
  | ⟨4, _⟩ => extractStridedSlice S256x1558 ![0, 21] x slices_S256x1600_o0_21_S256x1558
  | ⟨5, _⟩ => extractStridedSlice S256x1558 ![0, 22] x slices_S256x1600_o0_22_S256x1558
  | ⟨6, _⟩ => extractStridedSlice S256x1558 ![0, 40] x slices_S256x1600_o0_40_S256x1558
  | ⟨7, _⟩ => extractStridedSlice S256x1558 ![0, 41] x slices_S256x1600_o0_41_S256x1558
  | ⟨8, _⟩ => extractStridedSlice S256x1558 ![0, 42] x slices_S256x1600_o0_42_S256x1558

/-- The nine views stacked along the rows. -/
def lay2 (x : FVec Ideal S256x1600 .bf16) : FVec Ideal S2304x1558 .bf16 :=
  concatenate S2304x1558 0 [⟨S256x1558, taps x 0⟩, ⟨S256x1558, taps x 1⟩, ⟨S256x1558, taps x 2⟩, ⟨S256x1558, taps x 3⟩,
    ⟨S256x1558, taps x 4⟩, ⟨S256x1558, taps x 5⟩, ⟨S256x1558, taps x 6⟩, ⟨S256x1558, taps x 7⟩, ⟨S256x1558, taps x 8⟩]
    concatenates_S256x1558_S256x1558_S256x1558_S256x1558_S256x1558_S256x1558_S256x1558_S256x1558_S256x1558_S2304x1558_d0

/-- The first expand on the stacked views: product, bias, ReLU, scale. -/
def lay3 (x : FVec Ideal S2304x1558 .bf16) (v21 : Vec Ideal S512x2304 .bf16) (v24 : Vec Ideal S512x1 .f32) :
    FVec Ideal S512x1558 .bf16 :=
  truncf .bf16 (mulf (broadcast S512x1558 (Scalar.ofBits .f32 0x3F867D5F#32))
    (maximumf (addf (matmul dot_S512x2304_S2304x1558_S512x1558_1_0_0_1_n_n none
        (shapeCast S512x2304 v21 shapeCasts_S512x2304_S512x2304 : FVec Ideal S512x2304 .bf16) x (constant S512x1558 .f32 0x00000000#32))
        (broadcastTo S512x1558 v24 broadcasts_S512x1_S512x1558))
      (broadcast S512x1558 (Scalar.ofBits .f32 0x00000000#32)))) bitsLt_bf16_f32

/-- The second squeeze before its ReLU: product and bias. -/
def lay4 (x : FVec Ideal S512x1558 .bf16) (v32 : Vec Ideal S256x512 .bf16) (v35 : Vec Ideal S256x1 .f32) :
    FVec Ideal S256x1558 .f32 :=
  addf (matmul dot_S256x512_S512x1558_S256x1558_1_0_0_1_n_n none (shapeCast S256x512 v32 shapeCasts_S256x512_S256x512 : FVec Ideal S256x512 .bf16) x
      (constant S256x1558 .f32 0x00000000#32)) (broadcastTo S256x1558 v35 broadcasts_S256x1_S256x1558)

/-- The payload is the four stretches composed. -/
theorem pay1_eq (v0 : Vec Ideal S256x256 .bf16) (v2 : Vec Ideal S1x256x1600 .bf16) (v5 : Vec Ideal S256x1 .f32)
    (v21 : Vec Ideal S512x2304 .bf16) (v24 : Vec Ideal S512x1 .f32) (v32 : Vec Ideal S256x512 .bf16) (v35 : Vec Ideal S256x1 .f32) :
    k0_pay1 (F := Ideal) v0 v2 v5 v21 v24 v32 v35 = lay4 (lay3 (lay2 (lay1 v0 v2 v5)) v21 v24) v32 v35 := rfl

/-! ## Each stretch read at an entry -/

/-- The first squeeze on the block at row `k` and flat position `p`. -/
theorem lay1_apply (v0 : Vec Ideal S256x256 .bf16) (v2 : Vec Ideal S1x256x1600 .bf16) (v5 : Vec Ideal S256x1 .f32)
    (k : Fin 256) (p : Fin 1600) :
    lay1 v0 v2 v5 (ix2 k p)
      = max ((∑ c : Fin 256, v0 (ix2 k c) * v2 (ix3 (0 : Fin 1) c p)) + v5 (ix2 k (0 : Fin 1))) (lit 0x00000000#32) := by
  unfold lay1
  rw [truncf_apply, maximumf_apply, addf_apply, broadcast_apply, mm1_apply, broadcastTo_a1_ab_apply, shapeCast_self]
  refine congrArg (fun s => max (s + v5 (ix2 k (0 : Fin 1))) (lit 0x00000000#32)) ?_
  exact Finset.sum_congr rfl fun c _ => congrArg (v0 (ix2 k c) * ·) (shapeCast_1ab_ab_apply v2 _ c p)

/-- View `t` at `(k, jj)` is the source at `(k, jj + off t)`. -/
theorem taps_apply (x : FVec Ideal S256x1600 .bf16) (t : Fin 9) (k : Fin 256) (jj : Fin 1558) (p : Fin 1600)
    (hp : p.val = off t + jj.val) : taps x t (ix2 k jj) = x (ix2 k p) := by
  match t, hp with
  | ⟨0, _⟩, hp => exact slice2_axis1_apply 0 x slices_S256x1600_o0_0_S256x1558 k jj p (by simp only [off] at hp; omega)
  | ⟨1, _⟩, hp => exact slice2_axis1_apply 1 x slices_S256x1600_o0_1_S256x1558 k jj p (by simp only [off] at hp; omega)
  | ⟨2, _⟩, hp => exact slice2_axis1_apply 2 x slices_S256x1600_o0_2_S256x1558 k jj p (by simp only [off] at hp; omega)
  | ⟨3, _⟩, hp => exact slice2_axis1_apply 20 x slices_S256x1600_o0_20_S256x1558 k jj p (by simp only [off] at hp; omega)
  | ⟨4, _⟩, hp => exact slice2_axis1_apply 21 x slices_S256x1600_o0_21_S256x1558 k jj p (by simp only [off] at hp; omega)
  | ⟨5, _⟩, hp => exact slice2_axis1_apply 22 x slices_S256x1600_o0_22_S256x1558 k jj p (by simp only [off] at hp; omega)
  | ⟨6, _⟩, hp => exact slice2_axis1_apply 40 x slices_S256x1600_o0_40_S256x1558 k jj p (by simp only [off] at hp; omega)
  | ⟨7, _⟩, hp => exact slice2_axis1_apply 41 x slices_S256x1600_o0_41_S256x1558 k jj p (by simp only [off] at hp; omega)
  | ⟨8, _⟩, hp => exact slice2_axis1_apply 42 x slices_S256x1600_o0_42_S256x1558 k jj p (by simp only [off] at hp; omega)

/-- Row `256·t + k` of the stack is row `k` of view `t`: at column `jj` the source at `(k, jj + off t)`. -/
theorem lay2_apply (x : FVec Ideal S256x1600 .bf16) (t : Fin 9) (k : Fin 256) (r : Fin 2304) (hr : r.val = 256 * t.val + k.val)
    (jj : Fin 1558) (p : Fin 1600) (hp : p.val = off t + jj.val) : lay2 x (ix2 r jj) = x (ix2 k p) := by
  refine Eq.trans ?_ (taps_apply x t k jj p hp)
  exact concatenate_ofFn_apply (t := S2304x1558) (s₁ := S256x1558) (0 : Fin 2) (taps x)
    concatenates_S256x1558_S256x1558_S256x1558_S256x1558_S256x1558_S256x1558_S256x1558_S256x1558_S256x1558_S2304x1558_d0
    rfl 256 rfl (ix2 r jj) t (by show r.val / 256 = t.val; have := k.isLt; omega) (ix2 k jj)
    (by show k.val = r.val % 256; have := k.isLt; omega)
    (fun b hb => match b, hb with
      | ⟨0, _⟩, hb => absurd rfl hb
      | ⟨1, _⟩, _ => rfl)

/-- The first expand at `(o, jj)`. -/
theorem lay3_apply (x : FVec Ideal S2304x1558 .bf16) (v21 : Vec Ideal S512x2304 .bf16) (v24 : Vec Ideal S512x1 .f32)
    (o : Fin 512) (jj : Fin 1558) :
    lay3 x v21 v24 (ix2 o jj)
      = lit 0x3F867D5F#32 * max ((∑ i : Fin 2304, v21 (ix2 o i) * x (ix2 i jj)) + v24 (ix2 o (0 : Fin 1))) (lit 0x00000000#32) := by
  unfold lay3
  rw [truncf_apply, mulf_apply, broadcast_apply, maximumf_apply, addf_apply, broadcast_apply, mm2_apply,
    broadcastTo_a1_ab_apply, shapeCast_self]
  rfl

/-- The second squeeze before its ReLU at `(k, jj)`. -/
theorem lay4_apply (x : FVec Ideal S512x1558 .bf16) (v32 : Vec Ideal S256x512 .bf16) (v35 : Vec Ideal S256x1 .f32)
    (k : Fin 256) (jj : Fin 1558) :
    lay4 x v32 v35 (ix2 k jj) = (∑ o : Fin 512, v32 (ix2 k o) * x (ix2 o jj)) + v35 (ix2 k (0 : Fin 1)) := by
  unfold lay4
  rw [addf_apply, mm3_apply, broadcastTo_a1_ab_apply, shapeCast_self]

/-! ## The block's segments against the batches -/

/-- On segment `bl` of the block the first squeeze is Spec's `s1` of batch `4g + bl`. -/
theorem lay1_s1 (I : Cert.Spec.GateIn) (g : Fin 2)
    (v0 : Vec Ideal S256x256 .bf16) (v2 : Vec Ideal S1x256x1600 .bf16) (v5 : Vec Ideal S256x1 .f32)
    (h0 : ∀ (k c : Fin 256), v0 (ix2 k c) = I.w1sq k c)
    (h2 : ∀ (c : Fin 256) (bl : Fin 4) (j : Fin 400),
      v2 (ix3 (0 : Fin 1) c (⟨400 * bl.val + j.val, by have := bl.isLt; have := j.isLt; omega⟩ : Fin 1600))
        = I.zp ⟨4 * g.val + bl.val, by have := g.isLt; have := bl.isLt; omega⟩ c j)
    (h5 : ∀ k : Fin 256, v5 (ix2 k (0 : Fin 1)) = I.b1sq k)
    (bl : Fin 4) (k : Fin 256) (j : Fin 400) :
    lay1 v0 v2 v5 (ix2 k (⟨400 * bl.val + j.val, by have := bl.isLt; have := j.isLt; omega⟩ : Fin 1600)) = I.s1 ⟨4 * g.val + bl.val, by have := g.isLt; have := bl.isLt; omega⟩ k j := by
  rw [lay1_apply, h5 k]
  unfold GateIn.s1
  refine congrArg (fun s => max (s + I.b1sq k) (lit 0x00000000#32)) ?_
  exact Finset.sum_congr rfl fun c _ => by rw [h0 k c, h2 c bl j]

/-- Row `256·t + c` lies inside the stack of nine views. -/
theorem row_lt (t : Fin 9) (c : Fin 256) : 256 * t.val + c.val < 2304 := by
  have := t.isLt; have := c.isLt; omega

end Pay1Aux

open Pay1Aux

/-- The payload `k0_pay1` (the body's value %37, [256, 1558]) at row `k` and flat position `400·bl + j`, `j < 358`. -/
theorem pay1_apply (I : Cert.Spec.GateIn) (g : Fin 2)
    (v0 : Vec Ideal S256x256 .bf16) (v2 : Vec Ideal S1x256x1600 .bf16) (v5 : Vec Ideal S256x1 .f32)
    (v21 : Vec Ideal S512x2304 .bf16) (v24 : Vec Ideal S512x1 .f32) (v32 : Vec Ideal S256x512 .bf16) (v35 : Vec Ideal S256x1 .f32)
    (h0 : ∀ (k c : Fin 256), v0 (ix2 k c) = I.w1sq k c)
    (h2 : ∀ (c : Fin 256) (bl : Fin 4) (j : Fin 400),
      v2 (ix3 (0 : Fin 1) c (⟨400 * bl.val + j.val, by have := bl.isLt; have := j.isLt; omega⟩ : Fin 1600))
        = I.zp ⟨4 * g.val + bl.val, by have := g.isLt; have := bl.isLt; omega⟩ c j)
    (h5 : ∀ k : Fin 256, v5 (ix2 k (0 : Fin 1)) = I.b1sq k)
    (h21 : ∀ (o : Fin 512) (t : Fin 9) (k : Fin 256),
      v21 (ix2 o (⟨256 * t.val + k.val, by have := t.isLt; have := k.isLt; omega⟩ : Fin 2304)) = I.w1ex t o k)
    (h24 : ∀ o : Fin 512, v24 (ix2 o (0 : Fin 1)) = I.b1ex o)
    (h32 : ∀ (k : Fin 256) (o : Fin 512), v32 (ix2 k o) = I.w2sq k o)
    (h35 : ∀ k : Fin 256, v35 (ix2 k (0 : Fin 1)) = I.b2sq k)
    (bl : Fin 4) (k : Fin 256) (j : Fin 358) :
    k0_pay1 (F := Ideal) v0 v2 v5 v21 v24 v32 v35
        (ix2 k (⟨400 * bl.val + j.val, by have := bl.isLt; have := j.isLt; omega⟩ : Fin 1558))
      = I.s2pre ⟨4 * g.val + bl.val, by have := g.isLt; have := bl.isLt; omega⟩ k j := by
  have hbl := bl.isLt
  have hj := j.isLt
  have hg := g.isLt
  -- one term of the 9·256-fold sum: the weight's column 256·t + c against tap t of channel c
  have key : ∀ (o : Fin 512) (i : Fin 2304) (t : Fin 9) (c : Fin 256), i.val = t.val * 256 + c.val →
      v21 (ix2 o i) * lay2 (lay1 v0 v2 v5) (ix2 i (⟨400 * bl.val + j.val, by omega⟩ : Fin 1558))
        = I.w1ex t o c * I.s1 ⟨4 * g.val + bl.val, by omega⟩ c ⟨j.val + off t, by have := off_le t; omega⟩ := by
    intro o i t c hi
    have ht := t.isLt
    have hc := c.isLt
    have hoff := off_le t
    obtain rfl : i = ⟨256 * t.val + c.val, row_lt t c⟩ := Fin.ext (by show i.val = 256 * t.val + c.val; omega)
    rw [h21 o t c]
    refine congrArg (I.w1ex t o c * ·) ?_
    refine (lay2_apply (lay1 v0 v2 v5) t c _ rfl _ (⟨400 * bl.val + (j.val + off t), by omega⟩ : Fin 1600)
      (by show 400 * bl.val + (j.val + off t) = off t + (400 * bl.val + j.val); omega)).trans ?_
    exact lay1_s1 I g v0 v2 v5 h0 h2 h5 bl c ⟨j.val + off t, by omega⟩
  rw [pay1_eq, lay4_apply, h35 k]
  unfold GateIn.s2pre
  refine congrArg (· + I.b2sq k) (Finset.sum_congr rfl fun o _ => ?_)
  rw [h32 k o, lay3_apply, h24 o]
  unfold GateIn.y1 GateIn.y1pre
  refine congrArg (fun s => I.w2sq k o * (lit 0x3F867D5F#32 * max (s + I.b1ex o) (lit 0x00000000#32))) ?_
  refine (Cert.LibFinSum.sum_fin_mul 9 256 (fun i : Fin 2304 =>
    v21 (ix2 o i) * lay2 (lay1 v0 v2 v5) (ix2 i (⟨400 * bl.val + j.val, by omega⟩ : Fin 1558)))).trans ?_
  exact Finset.sum_congr rfl fun t _ => Finset.sum_congr rfl fun c _ => key o _ t c rfl

end Cert.KernelIdeal.Pay

end
-- ==== Proof.KPay2.lean ====
/-
  The fourth layer of the gate as the kernel's body computes it on one block of four batches: ReLU of the second
  squeeze, nine shifted views stacked along the contracted axis, one product over 9·256 terms, bias, ReLU. At flat
  position 400·bl + j with j < 316 the result is the second expand of batch 4g + bl at j.
-/
import proofs.«107153_g2000701298156354_pallasbulk_673_6_alg».proof.Proof.Gen.KernelIdeal.Skeleton
import proofs.«107153_g2000701298156354_pallasbulk_673_6_alg».proof.Proof.Spec
import proofs.«107153_g2000701298156354_pallasbulk_673_6_alg».proof.Proof.LibFinSum
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Pay2Aux

open Cert.KernelIdeal Cert.KernelIdeal.Gen Cert.Spec

/-- A width-1516 window of a [256, 1558] array starting at column d, read at (k, jj): the array at (k, jj + d). -/
theorem slice_apply {α : Type} (x : S256x1558.Idx → α) (d : Nat) (h : S256x1558.Slices ![0, d] S256x1516)
    (k : Fin 256) (jj : Fin 1516) (hb : jj.val + d < 1558) :
    extractStridedSlice S256x1516 ![0, d] x h (ix2 k jj) = x (ix2 k (⟨jj.val + d, hb⟩ : Fin 1558)) := by
  refine extractStridedSlice_apply _ x h _ _ (fun a => ?_)
  match a with
  | ⟨0, _⟩ => show k.val = 0 + k.val; omega
  | ⟨1, _⟩ => show jj.val + d = d + jj.val; omega

/-- Nine [256, 1516] pieces stacked along the rows: row 256·t + k of the stack is row k of piece t. -/
theorem stack_apply {α : Type} (f : Fin 9 → (S256x1516.Idx → α))
    (h : Shape.Concatenates ((List.ofFn fun n : Fin 9 => (⟨S256x1516, f n⟩ : (s : Shape) × (s.Idx → α))).map (·.1)) S2304x1516 0)
    (t : Fin 9) (k : Fin 256) (jj : Fin 1516) :
    concatenate S2304x1516 0 (List.ofFn fun n : Fin 9 => (⟨S256x1516, f n⟩ : (s : Shape) × (s.Idx → α))) h
        (ix2 (⟨256 * t.val + k.val, by have := t.isLt; have := k.isLt; omega⟩ : Fin 2304) jj)
      = f t (ix2 k jj) := by
  refine concatenate_ofFn_apply (t := S2304x1516) (s₁ := S256x1516) (0 : Fin 2) f h rfl 256 rfl _ t ?_ (ix2 k jj) ?_ ?_
  · show (256 * t.val + k.val) / 256 = t.val
    have := k.isLt; omega
  · show k.val = (256 * t.val + k.val) % 256
    have := k.isLt; omega
  · intro b hb
    match b with
    | ⟨0, _⟩ => exact absurd rfl hb
    | ⟨1, _⟩ => rfl

/-- The product's operand indices at output index j and contraction index q, coordinate by coordinate: the left operand is
    read at (j 0, q), the right operand at (q, j 1). -/
theorem lhs_0 (j : S512x1516.Idx) (q : dot_S512x2304_S2304x1516_S512x1516_1_0_0_1_n_n.contr.Idx) :
    (dot_S512x2304_S2304x1516_S512x1516_1_0_0_1_n_n.lhsIdx j q 0 : ℕ) = j 0 := by
  simp [DotDims.lhsIdx, dot_S512x2304_S2304x1516_S512x1516_1_0_0_1_n_n]; rfl
theorem lhs_1 (j : S512x1516.Idx) (q : dot_S512x2304_S2304x1516_S512x1516_1_0_0_1_n_n.contr.Idx) :
    (dot_S512x2304_S2304x1516_S512x1516_1_0_0_1_n_n.lhsIdx j q 1 : ℕ) = q ⟨0, by decide⟩ := by
  simp [DotDims.lhsIdx, dot_S512x2304_S2304x1516_S512x1516_1_0_0_1_n_n]; rfl
theorem rhs_0 (j : S512x1516.Idx) (q : dot_S512x2304_S2304x1516_S512x1516_1_0_0_1_n_n.contr.Idx) :
    (dot_S512x2304_S2304x1516_S512x1516_1_0_0_1_n_n.rhsIdx j q 0 : ℕ) = q ⟨0, by decide⟩ := by
  simp [DotDims.rhsIdx, dot_S512x2304_S2304x1516_S512x1516_1_0_0_1_n_n]; rfl
theorem rhs_1 (j : S512x1516.Idx) (q : dot_S512x2304_S2304x1516_S512x1516_1_0_0_1_n_n.contr.Idx) :
    (dot_S512x2304_S2304x1516_S512x1516_1_0_0_1_n_n.rhsIdx j q 1 : ℕ) = j 1 := by
  simp [DotDims.rhsIdx, dot_S512x2304_S2304x1516_S512x1516_1_0_0_1_n_n]; rfl

/-- The [512, 2304] × [2304, 1516] product into the zero splat, read at (o, jj): the sum over the 2304 contracted
    positions of the operands' products. -/
theorem product_apply (A : FVec Ideal S512x2304 .bf16) (B : FVec Ideal S2304x1516 .bf16) (o : Fin 512) (jj : Fin 1516) :
    matmul dot_S512x2304_S2304x1516_S512x1516_1_0_0_1_n_n none A B (constant (F := Ideal) S512x1516 .f32 0x00000000#32)
        (ix2 o jj)
      = ∑ c : Fin 2304, A (ix2 o c) * B (ix2 c jj) := by
  refine (Ideal.matmul_constant_zero_apply _ none A B (ix2 o jj)).trans ?_
  rw [← Equiv.sum_comp (contrEquiv1 dot_S512x2304_S2304x1516_S512x1516_1_0_0_1_n_n 2304 rfl rfl).symm]
  refine Finset.sum_congr rfl fun c _ => ?_
  have hc : (((contrEquiv1 dot_S512x2304_S2304x1516_S512x1516_1_0_0_1_n_n 2304 rfl rfl).symm c) ⟨0, by decide⟩ : ℕ) = c.val :=
    contrEquiv1_symm_val _ 2304 rfl rfl c
  congr 2
  · funext a
    apply Fin.ext
    match a with
    | ⟨0, _⟩ => exact lhs_0 _ _
    | ⟨1, _⟩ => exact (lhs_1 _ _).trans hc
  · funext a
    apply Fin.ext
    match a with
    | ⟨0, _⟩ => exact (rhs_0 _ _).trans hc
    | ⟨1, _⟩ => exact rhs_1 _ _

/-- The window at tap t's offset, read at (k, jj): the array at (k, jj + off t). -/
theorem tap_apply {α : Type} (x : S256x1558.Idx → α) (t : Fin 9) (d : Nat) (hd : off t = d)
    (h : S256x1558.Slices ![0, d] S256x1516) (k : Fin 256) (jj : Fin 1516) :
    extractStridedSlice S256x1516 ![0, d] x h (ix2 k jj)
      = x (ix2 k (⟨jj.val + off t, by have := off_le t; have := jj.isLt; omega⟩ : Fin 1558)) := by
  subst hd
  exact slice_apply x _ h k jj _

/-- The nine windows of a [256, 1558] array at the nine tap offsets, stacked along the rows, read at row 256·t + k and
    column jj: the array at (k, jj + off t). -/
theorem window_stack_apply {α : Type} (x : S256x1558.Idx → α)
    (h0 : S256x1558.Slices ![0, 0] S256x1516) (h1 : S256x1558.Slices ![0, 1] S256x1516) (h2 : S256x1558.Slices ![0, 2] S256x1516) (h3 : S256x1558.Slices ![0, 20] S256x1516) (h4 : S256x1558.Slices ![0, 21] S256x1516) (h5 : S256x1558.Slices ![0, 22] S256x1516) (h6 : S256x1558.Slices ![0, 40] S256x1516) (h7 : S256x1558.Slices ![0, 41] S256x1516) (h8 : S256x1558.Slices ![0, 42] S256x1516)
    (hc : Shape.Concatenates [S256x1516, S256x1516, S256x1516, S256x1516, S256x1516, S256x1516, S256x1516, S256x1516, S256x1516] S2304x1516 0)
    (t : Fin 9) (k : Fin 256) (jj : Fin 1516) :
    concatenate S2304x1516 0
        [⟨S256x1516, extractStridedSlice S256x1516 ![0, 0] x h0⟩,
          ⟨S256x1516, extractStridedSlice S256x1516 ![0, 1] x h1⟩,
          ⟨S256x1516, extractStridedSlice S256x1516 ![0, 2] x h2⟩,
          ⟨S256x1516, extractStridedSlice S256x1516 ![0, 20] x h3⟩,
          ⟨S256x1516, extractStridedSlice S256x1516 ![0, 21] x h4⟩,
          ⟨S256x1516, extractStridedSlice S256x1516 ![0, 22] x h5⟩,
          ⟨S256x1516, extractStridedSlice S256x1516 ![0, 40] x h6⟩,
          ⟨S256x1516, extractStridedSlice S256x1516 ![0, 41] x h7⟩,
          ⟨S256x1516, extractStridedSlice S256x1516 ![0, 42] x h8⟩] hc
        (ix2 (⟨256 * t.val + k.val, by have := t.isLt; have := k.isLt; omega⟩ : Fin 2304) jj)
      = x (ix2 k (⟨jj.val + off t, by have := off_le t; have := jj.isLt; omega⟩ : Fin 1558)) := by
  refine (stack_apply
    ![extractStridedSlice S256x1516 ![0, 0] x h0,
      extractStridedSlice S256x1516 ![0, 1] x h1,
      extractStridedSlice S256x1516 ![0, 2] x h2,
      extractStridedSlice S256x1516 ![0, 20] x h3,
      extractStridedSlice S256x1516 ![0, 21] x h4,
      extractStridedSlice S256x1516 ![0, 22] x h5,
      extractStridedSlice S256x1516 ![0, 40] x h6,
      extractStridedSlice S256x1516 ![0, 41] x h7,
      extractStridedSlice S256x1516 ![0, 42] x h8] hc t k jj).trans ?_
  match t with
  | ⟨0, _⟩ => exact tap_apply x _ 0 (by simp [off]) h0 k jj
  | ⟨1, _⟩ => exact tap_apply x _ 1 (by simp [off]) h1 k jj
  | ⟨2, _⟩ => exact tap_apply x _ 2 (by simp [off]) h2 k jj
  | ⟨3, _⟩ => exact tap_apply x _ 20 (by simp [off]) h3 k jj
  | ⟨4, _⟩ => exact tap_apply x _ 21 (by simp [off]) h4 k jj
  | ⟨5, _⟩ => exact tap_apply x _ 22 (by simp [off]) h5 k jj
  | ⟨6, _⟩ => exact tap_apply x _ 40 (by simp [off]) h6 k jj
  | ⟨7, _⟩ => exact tap_apply x _ 41 (by simp [off]) h7 k jj
  | ⟨8, _⟩ => exact tap_apply x _ 42 (by simp [off]) h8 k jj
  | ⟨n + 9, h⟩ => exact absurd h (by omega)

/-- The product with the contraction cut into nine blocks of 256: position 256·t + k is entry k of block t. -/
theorem product_taps (A : FVec Ideal S512x2304 .bf16) (B : FVec Ideal S2304x1516 .bf16) (o : Fin 512) (jj : Fin 1516) :
    matmul dot_S512x2304_S2304x1516_S512x1516_1_0_0_1_n_n none A B (constant (F := Ideal) S512x1516 .f32 0x00000000#32)
        (ix2 o jj)
      = ∑ t : Fin 9, ∑ k : Fin 256,
          A (ix2 o (⟨256 * t.val + k.val, by have := t.isLt; have := k.isLt; omega⟩ : Fin 2304))
            * B (ix2 (⟨256 * t.val + k.val, by have := t.isLt; have := k.isLt; omega⟩ : Fin 2304) jj) := by
  refine (product_apply A B o jj).trans ?_
  refine (Cert.LibFinSum.sum_fin_mul 9 256 _).trans ?_
  refine Finset.sum_congr rfl fun t _ => Finset.sum_congr rfl fun k _ => ?_
  have hc : ∀ c c' : Fin 2304, c = c' → A (ix2 o c) * B (ix2 c jj) = A (ix2 o c') * B (ix2 c' jj) :=
    fun c c' h => by rw [h]
  exact hc _ _ (Fin.ext (by show t.val * 256 + k.val = 256 * t.val + k.val; omega))

/-- A [512, 1] column broadcast along the columns, read at (o, jj): the column's entry o. -/
theorem column_apply {α : Type} (x : S512x1.Idx → α) (h : S512x1.Broadcasts S512x1516) (o : Fin 512) (jj : Fin 1516) :
    broadcastTo S512x1516 x h (ix2 o jj) = x (ix2 o (0 : Fin 1)) := by
  refine broadcastTo_apply x h _ _ (fun a => ?_)
  match a with
  | ⟨0, _⟩ => show o.val = if (512 : ℕ) = 1 then 0 else o.val; rw [if_neg (by decide)]
  | ⟨1, _⟩ => show (0 : ℕ) = if (1 : ℕ) = 1 then 0 else jj.val; rw [if_pos rfl]

/-- The payload at row o and any column jj, in coordinates: ReLU of (the double sum over the nine taps and the 256
    squeeze channels of weight times ReLU of the squeeze at the shifted column, plus the bias). -/
theorem pay2_read (v37 : FVec Ideal S256x1558 .f32) (v51 : Vec Ideal S512x2304 .bf16) (v54 : Vec Ideal S512x1 .f32)
    (o : Fin 512) (jj : Fin 1516) :
    k0_pay2 (F := Ideal) v37 v51 v54 (ix2 o jj)
      = max ((∑ t : Fin 9, ∑ k : Fin 256,
            v51 (ix2 o (⟨256 * t.val + k.val, by have := t.isLt; have := k.isLt; omega⟩ : Fin 2304))
              * max (v37 (ix2 k (⟨jj.val + off t, by have := off_le t; have := jj.isLt; omega⟩ : Fin 1558))) (lit 0x00000000#32))
          + v54 (ix2 o (0 : Fin 1))) (lit 0x00000000#32) := by
  unfold k0_pay2
  simp only [maximumf_apply, addf_apply, broadcast_apply]
  rw [shapeCast_self]
  refine congrArg₂ max (congrArg₂ (· + ·) ?_ (column_apply v54 _ o jj)) rfl
  refine (product_taps _ _ o jj).trans ?_
  refine Finset.sum_congr rfl fun t _ => Finset.sum_congr rfl fun k _ => ?_
  refine congrArg (v51 _ * ·) ?_
  exact window_stack_apply
    (truncf .bf16 (maximumf v37 (broadcast S256x1558 (Scalar.ofBits .f32 0x00000000#32))) bitsLt_bf16_f32)
    _ _ _ _ _ _ _ _ _ _ t k jj

end Cert.KernelIdeal.Pay2Aux

namespace Cert.KernelIdeal.Pay

open Cert.KernelIdeal Cert.KernelIdeal.Gen Cert.Spec

/-- The payload `k0_pay2` (the body's value %58, [512, 1516]) at row `o` and flat position `400·bl + j`, `j < 316`. -/
theorem pay2_apply (I : Cert.Spec.GateIn) (g : Fin 2)
    (v37 : FVec Ideal S256x1558 .f32) (v51 : Vec Ideal S512x2304 .bf16) (v54 : Vec Ideal S512x1 .f32)
    (h37 : ∀ (bl : Fin 4) (k : Fin 256) (j : Fin 358),
      v37 (ix2 k (⟨400 * bl.val + j.val, by have := bl.isLt; have := j.isLt; omega⟩ : Fin 1558))
        = I.s2pre ⟨4 * g.val + bl.val, by have := g.isLt; have := bl.isLt; omega⟩ k j)
    (h51 : ∀ (o : Fin 512) (t : Fin 9) (k : Fin 256),
      v51 (ix2 o (⟨256 * t.val + k.val, by have := t.isLt; have := k.isLt; omega⟩ : Fin 2304)) = I.w2ex t o k)
    (h54 : ∀ o : Fin 512, v54 (ix2 o (0 : Fin 1)) = I.b2ex o)
    (bl : Fin 4) (o : Fin 512) (j : Fin 316) :
    k0_pay2 (F := Ideal) v37 v51 v54
        (ix2 o (⟨400 * bl.val + j.val, by have := bl.isLt; have := j.isLt; omega⟩ : Fin 1516))
      = I.g ⟨4 * g.val + bl.val, by have := g.isLt; have := bl.isLt; omega⟩ o j := by
  refine (Cert.KernelIdeal.Pay2Aux.pay2_read v37 v51 v54 o _).trans ?_
  unfold GateIn.g GateIn.gpre
  rw [h54 o]
  refine congrArg₂ max (congrArg₂ (· + ·) ?_ rfl) rfl
  refine Finset.sum_congr rfl fun t _ => Finset.sum_congr rfl fun k _ => ?_
  rw [h51 o t k]
  unfold GateIn.s2
  -- the shifted column 400·bl + j + off t is column j + off t of batch bl's segment, where the squeeze is known
  have hv : ∀ c : Fin 1558, c.val = 400 * bl.val + (j.val + off t) →
      v37 (ix2 k c)
        = I.s2pre ⟨4 * g.val + bl.val, by have := g.isLt; have := bl.isLt; omega⟩ k
            ⟨j.val + off t, by have := off_le t; have := j.isLt; omega⟩ := by
    intro c hc
    have hot := off_le t
    have hj := j.isLt
    rw [← h37 bl k ⟨j.val + off t, by omega⟩]
    exact congrArg (fun z => v37 (ix2 k z)) (Fin.ext hc)
  exact congrArg (fun z => I.w2ex t o k * max z (lit 0x00000000#32)) (hv _ (Nat.add_assoc _ _ _))

end Cert.KernelIdeal.Pay

end
-- ==== Proof.KTail.lean ====
/-
  The gate's last step as the kernel's body computes it for each of the four batches of a block: the slice of 316
  flat positions of that batch, the validity mask (column below 16, made from an iota), the masked sum scaled by
  2⁻⁸, then 3 / (1 + e^(−m)) on the first 256 rows and the last 256 rows as they are.
-/
import proofs.«107153_g2000701298156354_pallasbulk_673_6_alg».proof.Proof.Gen.KernelIdeal.Skeleton
import proofs.«107153_g2000701298156354_pallasbulk_673_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.Spec

/-- The mask's compare bit, widened to 32 bits and read as a signed integer: for a position `j` below 316 the
    signed remainder of `j` by 20 is `j % 20`, and "signed less than 16" gives the bit 1 exactly when `j % 20 < 16`.
    There are 316 positions, each one a closed computation on words. -/
theorem maskWord (j : Fin 316) :
    ((IntOp.cmpi .slt (IntOp.remsi .vector (BitVec.ofNat 32 j.val) 20#32) 16#32).setWidth 32).toInt
      = if j.val % 20 < 16 then 1 else 0 := by
  revert j; decide +kernel

/-- The mask the body makes from an iota: 1 where the flat position's column (mod 20) is below 16, else 0. -/
theorem pay3_apply (j : Fin 316) : k0_pay3 (F := Ideal) (ix2 (0 : Fin 1) j) = Cert.Spec.mask j := by
  unfold k0_pay3
  -- every step of the mask is pointwise, and the conversion to a float reads the word as a signed integer
  show ((((IntOp.cmpi .slt (IntOp.remsi .vector (iota .tc S1x316 32 [1] iota_S1x316_d1_w32 (ix2 (0 : Fin 1) j)) 20#32) 16#32).setWidth 32).toInt : ℝ) : EReal) = _
  -- the iota along axis 1 reads the position itself
  rw [iota_single_apply]
  show ((((IntOp.cmpi .slt (IntOp.remsi .vector (BitVec.ofNat 32 j.val) 20#32) 16#32).setWidth 32).toInt : ℝ) : EReal) = _
  rw [maskWord]
  unfold Cert.Spec.mask
  split <;> simp

/-- A vector `[a]` cast to the column `[a, 1]` reads, at `(i, u)`, the operand at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An exponential at an index is the exponential of the element. -/
theorem exp_apply {s : Shape} {φ : FTy} (a : FVec Ideal s φ) (i : s.Idx) : exp a i = Ideal.exp (a i) := rfl

/-- The masked mean of the 316 positions from offset `o` of each row, as the body writes it for every batch: the
    slice, times the mask's row broadcast over the rows, summed along the positions, as a column, times 2⁻⁸. -/
def tailMean (o : Nat) (h : S512x1516.Slices ![0, o] S512x316) (v58 : FVec Ideal S512x1516 .f32)
    (v65 : FVec Ideal S1x316 .f32) : FVec Ideal S512x1 .f32 :=
  mulf (shapeCast S512x1 (multiReduction (F := Ideal) .add [1] S512
      (mulf (extractStridedSlice S512x316 ![0, o] v58 h) (broadcastTo S512x316 v65 broadcasts_S1x316_S512x316))
      0x00000000#32 reduces_S512x316_S512 (.inl rfl) rfl) shapeCasts_S512_S512x1)
    (broadcast S512x1 (Scalar.ofBits .f32 0x3B800000#32))

/-- Read at row `r`: if the map at `(r, o + j)` is `X r j`, the masked mean is `(∑ j, X r j · mask j) · 2⁻⁸`. The column
    cast reads the sum at `r`, the sum along axis 1 runs over the 316 positions, position `j` of the slice is position
    `o + j` of the map, and the mask's one row is read at `j` whatever the row. -/
theorem tailMean_apply (o : Nat) (h : S512x1516.Slices ![0, o] S512x316) (v58 : FVec Ideal S512x1516 .f32)
    (X : Fin 512 → Fin 316 → EReal)
    (hX : ∀ (r : Fin 512) (j : Fin 316) (k : Fin 1516), k.val = o + j.val → v58 (ix2 r k) = X r j) (r : Fin 512) :
    tailMean o h v58 (k0_pay3 (F := Ideal)) (ix2 r (0 : Fin 1))
      = (∑ j : Fin 316, X r j * mask j) * lit 0x3B800000#32 := by
  unfold tailMean
  rw [mulf_apply, broadcast_apply]
  refine congrArg (· * lit 0x3B800000#32) ?_
  rw [shapeCast_a_a1_apply]
  refine (Ideal.multiReduction_add_single (φ := .f32) _ 0x00000000#32 reduces_S512x316_S512 (.inl rfl) rfl (ix1 r)).trans ?_
  show ∑ k : Fin 316, _ = _
  refine Finset.sum_congr rfl fun k _ => ?_
  -- the reduced index `r` with the coordinate `k` put back on axis 1 is `(r, k)`
  have hl : reduces_S512x316_S512.lift (ix1 r) k = ix2 r k := by
    funext a
    match a with
    | ⟨0, _⟩ => exact Fin.ext rfl
    | ⟨1, _⟩ => exact Fin.ext rfl
  rw [hl, mulf_apply, broadcastTo_1b_ab_apply, pay3_apply]
  refine congrArg (· * mask k) ?_
  exact (slice2_axis1_eq o v58 h r k).trans (hX r k _ rfl)

/-- The multiplicative finish as the body writes it: rows 0..255 through 3 / (1 + e^(0 − m)), stored as [1, 256, 1]. -/
def gammaOf (m : FVec Ideal S512x1 .f32) : FVec Ideal S1x256x1 .f32 :=
  shapeCast S1x256x1
    (divf (broadcast S256x1 (Scalar.ofBits .f32 0x40400000#32))
      (addf (broadcast S256x1 (Scalar.ofBits .f32 0x3F800000#32))
        (exp (subf (broadcast S256x1 (Scalar.ofBits .f32 0x00000000#32))
          (extractStridedSlice S256x1 ![0, 0] m slices_S512x1_o0_0_S256x1)))))
    shapeCasts_S256x1_S1x256x1

/-- Read at channel `c`: 3 / (1 + e^(0 − m c)), every operation pointwise and the rows' slice starting at row 0. -/
theorem gammaOf_apply (m : FVec Ideal S512x1 .f32) (c : Fin 256) :
    gammaOf m (ix3 (0 : Fin 1) c (0 : Fin 1))
      = Ideal.div (lit 0x40400000#32)
          (lit 0x3F800000#32 + Ideal.exp (lit 0x00000000#32 - m (ix2 (⟨c.val, by have := c.isLt; omega⟩ : Fin 512) (0 : Fin 1)))) := by
  unfold gammaOf
  rw [shapeCast_ab_1ab_apply, divf_apply, broadcast_apply, addf_apply, broadcast_apply, exp_apply, subf_apply, broadcast_apply,
    slice2_axis0_apply 0 m slices_S512x1_o0_0_S256x1 c (0 : Fin 1) (⟨c.val, by have := c.isLt; omega⟩ : Fin 512) (Nat.zero_add _).symm]
  rfl

/-- The additive finish as the body writes it: rows 256..511 as they are, stored as [1, 256, 1]. -/
def betaOf (m : FVec Ideal S512x1 .f32) : FVec Ideal S1x256x1 .f32 :=
  shapeCast S1x256x1 (extractStridedSlice S256x1 ![256, 0] m slices_S512x1_o256_0_S256x1) shapeCasts_S256x1_S1x256x1

/-- Read at channel `c`: the mean of row `c + 256`. -/
theorem betaOf_apply (m : FVec Ideal S512x1 .f32) (c : Fin 256) :
    betaOf m (ix3 (0 : Fin 1) c (0 : Fin 1)) = m (ix2 (⟨c.val + 256, by have := c.isLt; omega⟩ : Fin 512) (0 : Fin 1)) := by
  unfold betaOf
  rw [shapeCast_ab_1ab_apply]
  exact slice2_axis0_apply 256 m slices_S512x1_o256_0_S256x1 c (0 : Fin 1) _ (Nat.add_comm _ _)

section
variable (I : Cert.Spec.GateIn) (g : Fin 2) (v58 : FVec Ideal S512x1516 .f32)
  (hg : ∀ (bl : Fin 4) (o : Fin 512) (j : Fin 316),
      v58 (ix2 o (⟨400 * bl.val + j.val, by have := bl.isLt; have := j.isLt; omega⟩ : Fin 1516))
        = I.g ⟨4 * g.val + bl.val, by have := g.isLt; have := bl.isLt; omega⟩ o j)
include hg

/-- The masked mean of the slice at offset `400 · bl` is the specification's mean of batch `4 g + bl`, row by row. -/
theorem mean_apply (bl : Fin 4) (o : Nat) (ho : o = 400 * bl.val) (h : S512x1516.Slices ![0, o] S512x316) (r : Fin 512) :
    tailMean o h v58 (k0_pay3 (F := Ideal)) (ix2 r (0 : Fin 1))
      = I.means ⟨4 * g.val + bl.val, by have := g.isLt; have := bl.isLt; omega⟩ r := by
  subst ho
  refine tailMean_apply _ h v58 (fun r j => I.g ⟨4 * g.val + bl.val, by have := g.isLt; have := bl.isLt; omega⟩ r j) ?_ r
  intro r j k hk
  have hk' : k = (⟨400 * bl.val + j.val, by have := bl.isLt; have := j.isLt; omega⟩ : Fin 1516) := Fin.ext hk
  rw [hk']
  exact hg bl r j

/-- The multiplicative gate of batch `bl` of the block, for any of the four offsets. -/
theorem gamma_gen (bl : Fin 4) (o : Nat) (ho : o = 400 * bl.val) (h : S512x1516.Slices ![0, o] S512x316) (c : Fin 256) :
    gammaOf (tailMean o h v58 (k0_pay3 (F := Ideal))) (ix3 (0 : Fin 1) c (0 : Fin 1))
      = I.gamma ⟨4 * g.val + bl.val, by have := g.isLt; have := bl.isLt; omega⟩ c := by
  rw [gammaOf_apply, mean_apply I g v58 hg bl o ho h]
  rfl

/-- The additive gate of batch `bl` of the block, for any of the four offsets. -/
theorem beta_gen (bl : Fin 4) (o : Nat) (ho : o = 400 * bl.val) (h : S512x1516.Slices ![0, o] S512x316) (c : Fin 256) :
    betaOf (tailMean o h v58 (k0_pay3 (F := Ideal))) (ix3 (0 : Fin 1) c (0 : Fin 1))
      = I.beta ⟨4 * g.val + bl.val, by have := g.isLt; have := bl.isLt; omega⟩ c := by
  rw [betaOf_apply, mean_apply I g v58 hg bl o ho h]
  rfl

/-- Batch 1 of the block: the multiplicative gate. -/
theorem gamma1_apply (c : Fin 256) :
    k0_pay9 (F := Ideal) v58 (k0_pay3 (F := Ideal)) (ix3 (0 : Fin 1) c (0 : Fin 1)) = I.gamma ⟨4 * g.val + 1, by have := g.isLt; omega⟩ c :=
  gamma_gen I g v58 hg (1 : Fin 4) 400 rfl slices_S512x1516_o0_400_S512x316 c
/-- Batch 1 of the block: the additive gate. -/
theorem beta1_apply (c : Fin 256) :
    k0_pay10 (F := Ideal) v58 (k0_pay3 (F := Ideal)) (ix3 (0 : Fin 1) c (0 : Fin 1)) = I.beta ⟨4 * g.val + 1, by have := g.isLt; omega⟩ c :=
  beta_gen I g v58 hg (1 : Fin 4) 400 rfl slices_S512x1516_o0_400_S512x316 c
/-- Batch 2 of the block: the multiplicative gate. -/
theorem gamma2_apply (c : Fin 256) :
    k0_pay13 (F := Ideal) (k0_pay12 (F := Ideal) v58 (k0_pay3 (F := Ideal))) (ix3 (0 : Fin 1) c (0 : Fin 1)) = I.gamma ⟨4 * g.val + 2, by have := g.isLt; omega⟩ c :=
  gamma_gen I g v58 hg (2 : Fin 4) 800 rfl slices_S512x1516_o0_800_S512x316 c
/-- Batch 2 of the block: the additive gate. -/
theorem beta2_apply (c : Fin 256) :
    k0_pay14 (F := Ideal) (k0_pay11 (F := Ideal) v58 (k0_pay3 (F := Ideal))) (ix3 (0 : Fin 1) c (0 : Fin 1)) = I.beta ⟨4 * g.val + 2, by have := g.isLt; omega⟩ c :=
  beta_gen I g v58 hg (2 : Fin 4) 800 rfl slices_S512x1516_o0_800_S512x316 c
/-- Batch 3 of the block: the multiplicative gate. -/
theorem gamma3_apply (c : Fin 256) :
    k0_pay16 (F := Ideal) v58 (k0_pay3 (F := Ideal)) (ix3 (0 : Fin 1) c (0 : Fin 1)) = I.gamma ⟨4 * g.val + 3, by have := g.isLt; omega⟩ c :=
  gamma_gen I g v58 hg (3 : Fin 4) 1200 rfl slices_S512x1516_o0_1200_S512x316 c
/-- Batch 3 of the block: the additive gate. -/
theorem beta3_apply (c : Fin 256) :
    k0_pay17 (F := Ideal) v58 (k0_pay3 (F := Ideal)) (ix3 (0 : Fin 1) c (0 : Fin 1)) = I.beta ⟨4 * g.val + 3, by have := g.isLt; omega⟩ c :=
  beta_gen I g v58 hg (3 : Fin 4) 1200 rfl slices_S512x1516_o0_1200_S512x316 c
end

section
variable (I : Cert.Spec.GateIn) (g : Fin 2) (v37 : FVec Ideal S256x1558 .f32) (v51 : Vec Ideal S512x2304 .bf16) (v54 : Vec Ideal S512x1 .f32)
  (hg : ∀ (bl : Fin 4) (o : Fin 512) (j : Fin 316),
      k0_pay2 (F := Ideal) v37 v51 v54 (ix2 o (⟨400 * bl.val + j.val, by have := bl.isLt; have := j.isLt; omega⟩ : Fin 1516))
        = I.g ⟨4 * g.val + bl.val, by have := g.isLt; have := bl.isLt; omega⟩ o j)
include hg

/-- Batch 0 of the block: the multiplicative gate. -/
theorem gamma0_apply (c : Fin 256) :
    k0_pay6 (F := Ideal) (k0_pay5 (F := Ideal) v37 v51 v54) (ix3 (0 : Fin 1) c (0 : Fin 1)) = I.gamma ⟨4 * g.val + 0, by have := g.isLt; omega⟩ c :=
  gamma_gen I g (k0_pay2 (F := Ideal) v37 v51 v54) hg (0 : Fin 4) 0 rfl slices_S512x1516_o0_0_S512x316 c
/-- Batch 0 of the block: the additive gate. -/
theorem beta0_apply (c : Fin 256) :
    k0_pay7 (F := Ideal) (k0_pay4 (F := Ideal) v37 v51 v54) (ix3 (0 : Fin 1) c (0 : Fin 1)) = I.beta ⟨4 * g.val + 0, by have := g.isLt; omega⟩ c :=
  beta_gen I g (k0_pay2 (F := Ideal) v37 v51 v54) hg (0 : Fin 4) 0 rfl slices_S512x1516_o0_0_S512x316 c
end

end Cert.KernelIdeal.Pay

end
-- ==== Proof.KGate.lean ====
/-
  The gate region of the kernel program: two grid points, each computing four batches laid side by side; each point
  writes its four [256, 1] columns of the two gates into rows 4g .. 4g+3 of the [8, 256, 1] result arrays. From what the
  body stores (four pieces per result block) and the block-to-array cover, the two arrays after the region hold
  the multiplicative and the additive gate of every batch.
-/
import proofs.«107153_g2000701298156354_pallasbulk_673_6_alg».proof.Proof.Gen.KernelIdeal.Frame
import proofs.«107153_g2000701298156354_pallasbulk_673_6_alg».proof.Proof.KPay1
import proofs.«107153_g2000701298156354_pallasbulk_673_6_alg».proof.Proof.KPay2
import proofs.«107153_g2000701298156354_pallasbulk_673_6_alg».proof.Proof.KTail
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (V : (c : Dev nD) → (b : Ref sig .tc) → Buf (Elt Ideal) ((c : Thread nD τ).loc b))

/-- Two zero offsets, however spelt, are the zero offset function. -/
theorem zeros2 : (![0, 0] : Fin 2 → Nat) = fun _ => 0 := funext fun a => by fin_cases a <;> rfl
/-- Three zero offsets likewise. -/
theorem zeros3 : (![0, 0, 0] : Fin 3 → Nat) = fun _ => 0 := funext fun a => by fin_cases a <;> rfl

/-- The [1, 256, 1] column placed at row `o` of the [4, 256, 1] block: its entry `ch` sits at (o, ch, 0). -/
theorem col_emb {off : Fin 3 → Nat} (inb : ∀ a, off a + S1x256x1.size a ≤ S4x256x1.size a) (o : Fin 4)
    (h0 : off 0 = o.val) (h1 : off 1 = 0) (h2 : off 2 = 0) (ch : Fin 256) :
    (Rect.unit (s := S4x256x1) off S1x256x1.size inb).emb (ix3 (0 : Fin 1) ch (0 : Fin 1)) = ix3 o ch (0 : Fin 1) := by
  funext a; apply Fin.ext
  rw [Rect.emb_apply, Rect.off_unit, Rect.stride_unit]
  match a with
  | ⟨0, _⟩ => show off 0 + 1 * 0 = o.val; omega
  | ⟨1, _⟩ => show off 1 + 1 * ch.val = ch.val; omega
  | ⟨2, _⟩ => show off 2 + 1 * 0 = 0; omega

/-- An entry of row `o` lies outside the column placed at another row. -/
theorem col_not_mem {off : Fin 3 → Nat} (inb : ∀ a, off a + S1x256x1.size a ≤ S4x256x1.size a) (o : Fin 4) (ch : Fin 256)
    (h : off 0 ≠ o.val) : ix3 o ch (0 : Fin 1) ∉ (Rect.unit (s := S4x256x1) off S1x256x1.size inb).set := by
  rw [Rect.mem_set_unit]
  intro hm
  have h' : off 0 ≤ o.val ∧ o.val < off 0 + 1 := hm 0
  omega

section Pieces
variable (p3 p2 p1 p0 : Vec Ideal S1x256x1 .f32) (ch : Fin 256)

/-- Four columns stored at rows 3, 2, 1, 0 of a block (the last store first): row 3 reads the first piece. -/
theorem cols_row3 :
    View.canon ([⟨r0_9, p3⟩, ⟨r0_8, p2⟩, ⟨r0_7, p1⟩, ⟨r0_6, p0⟩] : List (View.Piece (Elt Ideal) S4x256x1 .f32))
        (ix3 (⟨3, by omega⟩ : Fin 4) ch (0 : Fin 1)) = p3 (ix3 (0 : Fin 1) ch (0 : Fin 1)) := by
  have e := col_emb inb_S4x256x1_S1x256x1_3_0_0 (⟨3, by omega⟩ : Fin 4) rfl rfl rfl ch
  rw [← e]
  exact View.canon_cons_emb r0_9 p3 _ _

/-- Row 2 reads the second piece. -/
theorem cols_row2 :
    View.canon ([⟨r0_9, p3⟩, ⟨r0_8, p2⟩, ⟨r0_7, p1⟩, ⟨r0_6, p0⟩] : List (View.Piece (Elt Ideal) S4x256x1 .f32))
        (ix3 (⟨2, by omega⟩ : Fin 4) ch (0 : Fin 1)) = p2 (ix3 (0 : Fin 1) ch (0 : Fin 1)) := by
  have n3 : ix3 (⟨2, by omega⟩ : Fin 4) ch (0 : Fin 1) ∉ (r0_9 : Rect S4x256x1).set :=
    col_not_mem inb_S4x256x1_S1x256x1_3_0_0 (⟨2, by omega⟩ : Fin 4) ch (by decide)
  rw [View.canon_cons_of_not_mem (⟨r0_9, p3⟩ : View.Piece (Elt Ideal) S4x256x1 .f32) _ n3]
  have e := col_emb inb_S4x256x1_S1x256x1_2_0_0 (⟨2, by omega⟩ : Fin 4) rfl rfl rfl ch
  rw [← e]
  exact View.canon_cons_emb r0_8 p2 _ _

/-- Row 1 reads the third piece. -/
theorem cols_row1 :
    View.canon ([⟨r0_9, p3⟩, ⟨r0_8, p2⟩, ⟨r0_7, p1⟩, ⟨r0_6, p0⟩] : List (View.Piece (Elt Ideal) S4x256x1 .f32))
        (ix3 (⟨1, by omega⟩ : Fin 4) ch (0 : Fin 1)) = p1 (ix3 (0 : Fin 1) ch (0 : Fin 1)) := by
  have n3 : ix3 (⟨1, by omega⟩ : Fin 4) ch (0 : Fin 1) ∉ (r0_9 : Rect S4x256x1).set :=
    col_not_mem inb_S4x256x1_S1x256x1_3_0_0 (⟨1, by omega⟩ : Fin 4) ch (by decide)
  have n2 : ix3 (⟨1, by omega⟩ : Fin 4) ch (0 : Fin 1) ∉ (r0_8 : Rect S4x256x1).set :=
    col_not_mem inb_S4x256x1_S1x256x1_2_0_0 (⟨1, by omega⟩ : Fin 4) ch (by decide)
  rw [View.canon_cons_of_not_mem (⟨r0_9, p3⟩ : View.Piece (Elt Ideal) S4x256x1 .f32) _ n3,
    View.canon_cons_of_not_mem (⟨r0_8, p2⟩ : View.Piece (Elt Ideal) S4x256x1 .f32) _ n2]
  have e := col_emb inb_S4x256x1_S1x256x1_1_0_0 (⟨1, by omega⟩ : Fin 4) rfl rfl rfl ch
  rw [← e]
  exact View.canon_cons_emb r0_7 p1 _ _

/-- Row 0 reads the fourth piece. -/
theorem cols_row0 :
    View.canon ([⟨r0_9, p3⟩, ⟨r0_8, p2⟩, ⟨r0_7, p1⟩, ⟨r0_6, p0⟩] : List (View.Piece (Elt Ideal) S4x256x1 .f32))
        (ix3 (⟨0, by omega⟩ : Fin 4) ch (0 : Fin 1)) = p0 (ix3 (0 : Fin 1) ch (0 : Fin 1)) := by
  have n3 : ix3 (⟨0, by omega⟩ : Fin 4) ch (0 : Fin 1) ∉ (r0_9 : Rect S4x256x1).set :=
    col_not_mem inb_S4x256x1_S1x256x1_3_0_0 (⟨0, by omega⟩ : Fin 4) ch (by decide)
  have n2 : ix3 (⟨0, by omega⟩ : Fin 4) ch (0 : Fin 1) ∉ (r0_8 : Rect S4x256x1).set :=
    col_not_mem inb_S4x256x1_S1x256x1_2_0_0 (⟨0, by omega⟩ : Fin 4) ch (by decide)
  have n1 : ix3 (⟨0, by omega⟩ : Fin 4) ch (0 : Fin 1) ∉ (r0_7 : Rect S4x256x1).set :=
    col_not_mem inb_S4x256x1_S1x256x1_1_0_0 (⟨0, by omega⟩ : Fin 4) ch (by decide)
  rw [View.canon_cons_of_not_mem (⟨r0_9, p3⟩ : View.Piece (Elt Ideal) S4x256x1 .f32) _ n3,
    View.canon_cons_of_not_mem (⟨r0_8, p2⟩ : View.Piece (Elt Ideal) S4x256x1 .f32) _ n2,
    View.canon_cons_of_not_mem (⟨r0_7, p1⟩ : View.Piece (Elt Ideal) S4x256x1 .f32) _ n1]
  have e := col_emb inb_S4x256x1_S1x256x1_0_0_0 (⟨0, by omega⟩ : Fin 4) rfl rfl rfl ch
  rw [← e]
  exact View.canon_cons_emb r0_6 p0 _ _

end Pieces

section Block
variable (I : Cert.Spec.GateIn) (g : Fin 2)
  (x0 : Vec Ideal S1x256x1600 .bf16) (x1 : Vec Ideal S256x256 .bf16) (x2 : Vec Ideal S256x1 .f32)
  (x3 : Vec Ideal S512x2304 .bf16) (x4 : Vec Ideal S512x1 .f32) (x5 : Vec Ideal S256x512 .bf16)
  (x6 : Vec Ideal S256x1 .f32) (x7 : Vec Ideal S512x2304 .bf16) (x8 : Vec Ideal S512x1 .f32)
  (hx0 : ∀ (ch : Fin 256) (bl : Fin 4) (j : Fin 400),
    x0 (ix3 (0 : Fin 1) ch (⟨400 * bl.val + j.val, by have := bl.isLt; have := j.isLt; omega⟩ : Fin 1600))
      = I.zp ⟨4 * g.val + bl.val, by have := g.isLt; have := bl.isLt; omega⟩ ch j)
  (hx1 : ∀ (k ch : Fin 256), x1 (ix2 k ch) = I.w1sq k ch)
  (hx2 : ∀ k : Fin 256, x2 (ix2 k (0 : Fin 1)) = I.b1sq k)
  (hx3 : ∀ (o : Fin 512) (t : Fin 9) (k : Fin 256),
    x3 (ix2 o (⟨256 * t.val + k.val, by have := t.isLt; have := k.isLt; omega⟩ : Fin 2304)) = I.w1ex t o k)
  (hx4 : ∀ o : Fin 512, x4 (ix2 o (0 : Fin 1)) = I.b1ex o)
  (hx5 : ∀ (k : Fin 256) (o : Fin 512), x5 (ix2 k o) = I.w2sq k o)
  (hx6 : ∀ k : Fin 256, x6 (ix2 k (0 : Fin 1)) = I.b2sq k)
  (hx7 : ∀ (o : Fin 512) (t : Fin 9) (k : Fin 256),
    x7 (ix2 o (⟨256 * t.val + k.val, by have := t.isLt; have := k.isLt; omega⟩ : Fin 2304)) = I.w2ex t o k)
  (hx8 : ∀ o : Fin 512, x8 (ix2 o (0 : Fin 1)) = I.b2ex o)
include hx0 hx1 hx2 hx3 hx4 hx5 hx6 hx7 hx8

/-- The second squeeze (before its ReLU) of the block's four batches, as the body computes it from the blocks. -/
theorem blk_s2pre (bl : Fin 4) (k : Fin 256) (j : Fin 358) :
    k0_pay1 (F := Ideal) x1 x0 x2 x3 x4 x5 x6
        (ix2 k (⟨400 * bl.val + j.val, by have := bl.isLt; have := j.isLt; omega⟩ : Fin 1558))
      = I.s2pre ⟨4 * g.val + bl.val, by have := g.isLt; have := bl.isLt; omega⟩ k j :=
  Cert.KernelIdeal.Pay.pay1_apply I g x1 x0 x2 x3 x4 x5 x6 hx1 hx0 hx2 hx3 hx4 hx5 hx6 bl k j

/-- The second expand of the block's four batches. -/
theorem blk_g (bl : Fin 4) (o : Fin 512) (j : Fin 316) :
    k0_pay2 (F := Ideal) (k0_pay1 (F := Ideal) x1 x0 x2 x3 x4 x5 x6) x7 x8
        (ix2 o (⟨400 * bl.val + j.val, by have := bl.isLt; have := j.isLt; omega⟩ : Fin 1516))
      = I.g ⟨4 * g.val + bl.val, by have := g.isLt; have := bl.isLt; omega⟩ o j :=
  Cert.KernelIdeal.Pay.pay2_apply I g (k0_pay1 (F := Ideal) x1 x0 x2 x3 x4 x5 x6) x7 x8
    (blk_s2pre I g x0 x1 x2 x3 x4 x5 x6 x7 x8 hx0 hx1 hx2 hx3 hx4 hx5 hx6 hx7 hx8) hx7 hx8 bl o j

/-- What the body leaves in the first result's block, entry by entry: the multiplicative gate of batch 4g + bl. -/
theorem out9_apply (bl : Fin 4) (ch : Fin 256) :
    out0_9 (F := Ideal) x0 x1 x2 x3 x4 x5 x6 x7 x8 (ix3 bl ch (0 : Fin 1))
      = I.gamma ⟨4 * g.val + bl.val, by have := g.isLt; have := bl.isLt; omega⟩ ch := by
  have hg := blk_g I g x0 x1 x2 x3 x4 x5 x6 x7 x8 hx0 hx1 hx2 hx3 hx4 hx5 hx6 hx7 hx8
  unfold out0_9
  simp only [View.ld_unit_zero (S := S256x256) zeros2, View.ld_unit_zero (S := S1x256x1600) zeros3,
    View.ld_unit_zero (S := S256x1) zeros2, View.ld_unit_zero (S := S512x2304) zeros2,
    View.ld_unit_zero (S := S512x1) zeros2, View.ld_unit_zero (S := S256x512) zeros2]
  match bl with
  | ⟨0, _⟩ =>
    rw [cols_row0]
    exact Cert.KernelIdeal.Pay.gamma0_apply I g (k0_pay1 (F := Ideal) x1 x0 x2 x3 x4 x5 x6) x7 x8 hg ch
  | ⟨1, _⟩ =>
    rw [cols_row1]
    exact Cert.KernelIdeal.Pay.gamma1_apply I g _ hg ch
  | ⟨2, _⟩ =>
    rw [cols_row2]
    exact Cert.KernelIdeal.Pay.gamma2_apply I g _ hg ch
  | ⟨3, _⟩ =>
    rw [cols_row3]
    exact Cert.KernelIdeal.Pay.gamma3_apply I g _ hg ch
  | ⟨n + 4, h⟩ => exact absurd h (by omega)

/-- What the body leaves in the second result's block: the additive gate of batch 4g + bl. -/
theorem out10_apply (bl : Fin 4) (ch : Fin 256) :
    out0_10 (F := Ideal) x0 x1 x2 x3 x4 x5 x6 x7 x8 (ix3 bl ch (0 : Fin 1))
      = I.beta ⟨4 * g.val + bl.val, by have := g.isLt; have := bl.isLt; omega⟩ ch := by
  have hg := blk_g I g x0 x1 x2 x3 x4 x5 x6 x7 x8 hx0 hx1 hx2 hx3 hx4 hx5 hx6 hx7 hx8
  unfold out0_10
  simp only [View.ld_unit_zero (S := S256x256) zeros2, View.ld_unit_zero (S := S1x256x1600) zeros3,
    View.ld_unit_zero (S := S256x1) zeros2, View.ld_unit_zero (S := S512x2304) zeros2,
    View.ld_unit_zero (S := S512x1) zeros2, View.ld_unit_zero (S := S256x512) zeros2]
  match bl with
  | ⟨0, _⟩ =>
    rw [cols_row0]
    exact Cert.KernelIdeal.Pay.beta0_apply I g (k0_pay1 (F := Ideal) x1 x0 x2 x3 x4 x5 x6) x7 x8 hg ch
  | ⟨1, _⟩ =>
    rw [cols_row1]
    exact Cert.KernelIdeal.Pay.beta1_apply I g _ hg ch
  | ⟨2, _⟩ =>
    rw [cols_row2]
    exact Cert.KernelIdeal.Pay.beta2_apply I g _ hg ch
  | ⟨3, _⟩ =>
    rw [cols_row3]
    exact Cert.KernelIdeal.Pay.beta3_apply I g _ hg ch
  | ⟨n + 4, h⟩ => exact absurd h (by omega)

end Block

/-- The first result as one function of the array index: the multiplicative gate. -/
def gammaArr (I : Cert.Spec.GateIn) : Vec Ideal S8x256x1 .f32 :=
  fun i => I.gamma ⟨(i 0).val, by have h : (i 0).val < 8 := (i 0).isLt; exact h⟩
    ⟨(i 1).val, by have h : (i 1).val < 256 := (i 1).isLt; exact h⟩

/-- The second result as one function of the array index: the additive gate. -/
def betaArr (I : Cert.Spec.GateIn) : Vec Ideal S8x256x1 .f32 :=
  fun i => I.beta ⟨(i 0).val, by have h : (i 0).val < 8 := (i 0).isLt; exact h⟩
    ⟨(i 1).val, by have h : (i 1).val < 256 := (i 1).isLt; exact h⟩

section BlockIdx
variable (I : Cert.Spec.GateIn) (g : Fin 2)
  (x0 : Vec Ideal S1x256x1600 .bf16) (x1 : Vec Ideal S256x256 .bf16) (x2 : Vec Ideal S256x1 .f32)
  (x3 : Vec Ideal S512x2304 .bf16) (x4 : Vec Ideal S512x1 .f32) (x5 : Vec Ideal S256x512 .bf16)
  (x6 : Vec Ideal S256x1 .f32) (x7 : Vec Ideal S512x2304 .bf16) (x8 : Vec Ideal S512x1 .f32)
  (hx0 : ∀ (ch : Fin 256) (bl : Fin 4) (j : Fin 400),
    x0 (ix3 (0 : Fin 1) ch (⟨400 * bl.val + j.val, by have := bl.isLt; have := j.isLt; omega⟩ : Fin 1600))
      = I.zp ⟨4 * g.val + bl.val, by have := g.isLt; have := bl.isLt; omega⟩ ch j)
  (hx1 : ∀ (k ch : Fin 256), x1 (ix2 k ch) = I.w1sq k ch)
  (hx2 : ∀ k : Fin 256, x2 (ix2 k (0 : Fin 1)) = I.b1sq k)
  (hx3 : ∀ (o : Fin 512) (t : Fin 9) (k : Fin 256),
    x3 (ix2 o (⟨256 * t.val + k.val, by have := t.isLt; have := k.isLt; omega⟩ : Fin 2304)) = I.w1ex t o k)
  (hx4 : ∀ o : Fin 512, x4 (ix2 o (0 : Fin 1)) = I.b1ex o)
  (hx5 : ∀ (k : Fin 256) (o : Fin 512), x5 (ix2 k o) = I.w2sq k o)
  (hx6 : ∀ k : Fin 256, x6 (ix2 k (0 : Fin 1)) = I.b2sq k)
  (hx7 : ∀ (o : Fin 512) (t : Fin 9) (k : Fin 256),
    x7 (ix2 o (⟨256 * t.val + k.val, by have := t.isLt; have := k.isLt; omega⟩ : Fin 2304)) = I.w2ex t o k)
  (hx8 : ∀ o : Fin 512, x8 (ix2 o (0 : Fin 1)) = I.b2ex o)
include hx0 hx1 hx2 hx3 hx4 hx5 hx6 hx7 hx8

/-- The first result's block of point g is rows 4g .. 4g+3 of the multiplicative gate: entry `y` of the block is the
    array entry `i` whose batch is 4g + y₀ and whose channel is y₁. -/
theorem out9_at (y : S4x256x1.Idx) (i : S8x256x1.Idx)
    (hi0 : (i 0).val = 4 * g.val + (y 0).val) (hi1 : (i 1).val = (y 1).val) :
    out0_9 (F := Ideal) x0 x1 x2 x3 x4 x5 x6 x7 x8 y = gammaArr I i := by
  obtain ⟨bl, ch, z, rfl⟩ : ∃ (bl : Fin 4) (ch : Fin 256) (z : Fin 1), y = ix3 bl ch z := ⟨y 0, y 1, y 2, eq_ix3 y⟩
  obtain rfl : z = 0 := Subsingleton.elim _ _
  rw [out9_apply I g x0 x1 x2 x3 x4 x5 x6 x7 x8 hx0 hx1 hx2 hx3 hx4 hx5 hx6 hx7 hx8 bl ch]
  unfold gammaArr
  have a0 : (⟨4 * g.val + bl.val, by have := g.isLt; have := bl.isLt; omega⟩ : Fin 8)
      = ⟨(i 0).val, by have h : (i 0).val < 8 := (i 0).isLt; exact h⟩ := Fin.ext hi0.symm
  have a1 : ch = ⟨(i 1).val, by have h : (i 1).val < 256 := (i 1).isLt; exact h⟩ := Fin.ext hi1.symm
  exact congrArg₂ I.gamma a0 a1

/-- The second result's block of point g is rows 4g .. 4g+3 of the additive gate. -/
theorem out10_at (y : S4x256x1.Idx) (i : S8x256x1.Idx)
    (hi0 : (i 0).val = 4 * g.val + (y 0).val) (hi1 : (i 1).val = (y 1).val) :
    out0_10 (F := Ideal) x0 x1 x2 x3 x4 x5 x6 x7 x8 y = betaArr I i := by
  obtain ⟨bl, ch, z, rfl⟩ : ∃ (bl : Fin 4) (ch : Fin 256) (z : Fin 1), y = ix3 bl ch z := ⟨y 0, y 1, y 2, eq_ix3 y⟩
  obtain rfl : z = 0 := Subsingleton.elim _ _
  rw [out10_apply I g x0 x1 x2 x3 x4 x5 x6 x7 x8 hx0 hx1 hx2 hx3 hx4 hx5 hx6 hx7 hx8 bl ch]
  unfold betaArr
  have a0 : (⟨4 * g.val + bl.val, by have := g.isLt; have := bl.isLt; omega⟩ : Fin 8)
      = ⟨(i 0).val, by have h : (i 0).val < 8 := (i 0).isLt; exact h⟩ := Fin.ext hi0.symm
  have a1 : ch = ⟨(i 1).val, by have h : (i 1).val < 256 := (i 1).isLt; exact h⟩ := Fin.ext hi1.symm
  exact congrArg₂ I.beta a0 a1

end BlockIdx

/-! ## The windows' blocks read off their arrays -/

/-- The padded map's block index is (g, 0, 0) at point g. -/
theorem idx_w0 : ∀ t : Fin cfg0.N,
    win0_0.index t (0 : Fin 3) = t.val ∧ win0_0.index t (1 : Fin 3) = 0 ∧ win0_0.index t (2 : Fin 3) = 0 :=
  (by decide +kernel : ∀ t : Fin grid0.N, _)

/-- The padded map's block at point g is row g of the [2, 256, 1600] array. -/
theorem blk_w0 (c : Dev nD) (t : Fin cfg0.N) (g : Fin 2) (hg : t.val = g.val) (ch : Fin 256) (p : Fin 1600) :
    (iblk0 V c 0 t : Vec Ideal S1x256x1600 .bf16) (ix3 (0 : Fin 1) ch p)
      = (V c main_v6 : Vec Ideal S2x256x1600 .bf16) (ix3 g ch p) := by
  obtain ⟨e0, e1, e2⟩ := idx_w0 t
  unfold iblk0
  rw [View.read_apply]
  show V c main_v6 _ = V c main_v6 _
  congr 1
  funext a
  apply Fin.ext
  match a with
  | ⟨0, _⟩ => show win0_0.index t (0 : Fin 3) * 1 + 1 * 0 = g.val; rw [e0, hg]; omega
  | ⟨1, _⟩ => show win0_0.index t (1 : Fin 3) * 256 + 1 * ch.val = ch.val; rw [e1]; omega
  | ⟨2, _⟩ => show win0_0.index t (2 : Fin 3) * 1600 + 1 * p.val = p.val; rw [e2]; omega

/-- Window 1's block index is (0, 0) at both points. -/
theorem idx_w1 : ∀ t : Fin cfg0.N, win0_1.index t (0 : Fin 2) = 0 ∧ win0_1.index t (1 : Fin 2) = 0 :=
  (by decide +kernel : ∀ t : Fin grid0.N, _)

/-- Window 1's block is its whole array. -/
theorem blk_w1 (c : Dev nD) (t : Fin cfg0.N) (y : S256x256.Idx) :
    (iblk0 V c 1 t : Vec Ideal S256x256 .bf16) y = (V c main_v11 : Vec Ideal S256x256 .bf16) y := by
  obtain ⟨e0, e1⟩ := idx_w1 t
  unfold iblk0
  rw [View.read_apply]
  show V c main_v11 _ = V c main_v11 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- Window 2's block index is (0, 0) at both points. -/
theorem idx_w2 : ∀ t : Fin cfg0.N, win0_2.index t (0 : Fin 2) = 0 ∧ win0_2.index t (1 : Fin 2) = 0 :=
  (by decide +kernel : ∀ t : Fin grid0.N, _)

/-- Window 2's block is its whole array. -/
theorem blk_w2 (c : Dev nD) (t : Fin cfg0.N) (y : S256x1.Idx) :
    (iblk0 V c 2 t : Vec Ideal S256x1 .f32) y = (V c main_arg3 : Vec Ideal S256x1 .f32) y := by
  obtain ⟨e0, e1⟩ := idx_w2 t
  unfold iblk0
  rw [View.read_apply]
  show V c main_arg3 _ = V c main_arg3 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 1 + 1 * (y 1).val = (y 1).val; rw [e1]; omega

/-- Window 3's block index is (0, 0) at both points. -/
theorem idx_w3 : ∀ t : Fin cfg0.N, win0_3.index t (0 : Fin 2) = 0 ∧ win0_3.index t (1 : Fin 2) = 0 :=
  (by decide +kernel : ∀ t : Fin grid0.N, _)

/-- Window 3's block is its whole array. -/
theorem blk_w3 (c : Dev nD) (t : Fin cfg0.N) (y : S512x2304.Idx) :
    (iblk0 V c 3 t : Vec Ideal S512x2304 .bf16) y = (V c main_v12 : Vec Ideal S512x2304 .bf16) y := by
  obtain ⟨e0, e1⟩ := idx_w3 t
  unfold iblk0
  rw [View.read_apply]
  show V c main_v12 _ = V c main_v12 _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 2304 + 1 * (y 1).val = (y 1).val; rw [e1]; omega

/-- Window 4's block index is (0, 0) at both points. -/
theorem idx_w4 : ∀ t : Fin cfg0.N, win0_4.index t (0 : Fin 2) = 0 ∧ win0_4.index t (1 : Fin 2) = 0 :=
  (by decide +kernel : ∀ t : Fin grid0.N, _)

/-- Window 4's block is its whole array. -/
theorem blk_w4 (c : Dev nD) (t : Fin cfg0.N) (y : S512x1.Idx) :
    (iblk0 V c 4 t : Vec Ideal S512x1 .f32) y = (V c main_arg5 : Vec Ideal S512x1 .f32) y := by
  obtain ⟨e0, e1⟩ := idx_w4 t
  unfold iblk0
  rw [View.read_apply]
  show V c main_arg5 _ = V c main_arg5 _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 1 + 1 * (y 1).val = (y 1).val; rw [e1]; omega

/-- Window 5's block index is (0, 0) at both points. -/
theorem idx_w5 : ∀ t : Fin cfg0.N, win0_5.index t (0 : Fin 2) = 0 ∧ win0_5.index t (1 : Fin 2) = 0 :=
  (by decide +kernel : ∀ t : Fin grid0.N, _)

/-- Window 5's block is its whole array. -/
theorem blk_w5 (c : Dev nD) (t : Fin cfg0.N) (y : S256x512.Idx) :
    (iblk0 V c 5 t : Vec Ideal S256x512 .bf16) y = (V c main_v13 : Vec Ideal S256x512 .bf16) y := by
  obtain ⟨e0, e1⟩ := idx_w5 t
  unfold iblk0
  rw [View.read_apply]
  show V c main_v13 _ = V c main_v13 _
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 512 + 1 * (y 1).val = (y 1).val; rw [e1]; omega

/-- Window 6's block index is (0, 0) at both points. -/
theorem idx_w6 : ∀ t : Fin cfg0.N, win0_6.index t (0 : Fin 2) = 0 ∧ win0_6.index t (1 : Fin 2) = 0 :=
  (by decide +kernel : ∀ t : Fin grid0.N, _)

/-- Window 6's block is its whole array. -/
theorem blk_w6 (c : Dev nD) (t : Fin cfg0.N) (y : S256x1.Idx) :
    (iblk0 V c 6 t : Vec Ideal S256x1 .f32) y = (V c main_arg7 : Vec Ideal S256x1 .f32) y := by
  obtain ⟨e0, e1⟩ := idx_w6 t
  unfold iblk0
  rw [View.read_apply]
  show V c main_arg7 _ = V c main_arg7 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 1 + 1 * (y 1).val = (y 1).val; rw [e1]; omega

/-- Window 7's block index is (0, 0) at both points. -/
theorem idx_w7 : ∀ t : Fin cfg0.N, win0_7.index t (0 : Fin 2) = 0 ∧ win0_7.index t (1 : Fin 2) = 0 :=
  (by decide +kernel : ∀ t : Fin grid0.N, _)

/-- Window 7's block is its whole array. -/
theorem blk_w7 (c : Dev nD) (t : Fin cfg0.N) (y : S512x2304.Idx) :
    (iblk0 V c 7 t : Vec Ideal S512x2304 .bf16) y = (V c main_v14 : Vec Ideal S512x2304 .bf16) y := by
  obtain ⟨e0, e1⟩ := idx_w7 t
  unfold iblk0
  rw [View.read_apply]
  show V c main_v14 _ = V c main_v14 _
  congr 1
  funext a
  apply Fin.ext
  match a with
  | ⟨0, _⟩ => show win0_7.index t (0 : Fin 2) * 512 + 1 * (y 0).val = (y 0).val; rw [e0]; omega
  | ⟨1, _⟩ => show win0_7.index t (1 : Fin 2) * 2304 + 1 * (y 1).val = (y 1).val; rw [e1]; omega

/-- Window 8's block index is (0, 0) at both points. -/
theorem idx_w8 : ∀ t : Fin cfg0.N, win0_8.index t (0 : Fin 2) = 0 ∧ win0_8.index t (1 : Fin 2) = 0 :=
  (by decide +kernel : ∀ t : Fin grid0.N, _)

/-- Window 8's block is its whole array. -/
theorem blk_w8 (c : Dev nD) (t : Fin cfg0.N) (y : S512x1.Idx) :
    (iblk0 V c 8 t : Vec Ideal S512x1 .f32) y = (V c main_arg9 : Vec Ideal S512x1 .f32) y := by
  obtain ⟨e0, e1⟩ := idx_w8 t
  unfold iblk0
  rw [View.read_apply]
  show V c main_arg9 _ = V c main_arg9 _
  congr 1
  funext a
  apply Fin.ext
  match a with
  | ⟨0, _⟩ => show win0_8.index t (0 : Fin 2) * 512 + 1 * (y 0).val = (y 0).val; rw [e0]; omega
  | ⟨1, _⟩ => show win0_8.index t (1 : Fin 2) * 1 + 1 * (y 1).val = (y 1).val; rw [e1]; omega

/-! ## From the blocks to the two result arrays -/

/-- A result's block index is (g, 0, 0) at point g. -/
theorem idx_w9 : ∀ t : Fin cfg0.N,
    win0_9.index t (0 : Fin 3) = t.val ∧ win0_9.index t (1 : Fin 3) = 0 ∧ win0_9.index t (2 : Fin 3) = 0 :=
  (by decide +kernel : ∀ t : Fin grid0.N, _)
theorem idx_w10 : ∀ t : Fin cfg0.N,
    win0_10.index t (0 : Fin 3) = t.val ∧ win0_10.index t (1 : Fin 3) = 0 ∧ win0_10.index t (2 : Fin 3) = 0 :=
  (by decide +kernel : ∀ t : Fin grid0.N, _)

/-- Every entry of the first result array lies in the block of the point that owns its batch (batch / 4). -/
theorem cover_w9 (i : S8x256x1.Idx) :
    ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 1 := (i 2).isLt
  have hN : cfg0.N = 2 := N_0
  obtain ⟨t, ht⟩ : ∃ t : Fin cfg0.N, t.val = (i 0).val / 4 := ⟨⟨(i 0).val / 4, by rw [hN]; omega⟩, rfl⟩
  obtain ⟨e0, e1, e2⟩ := idx_w9 t
  refine ⟨t, flush0_9 t, ?_⟩
  show i ∈ ((View.whole main_v15_0).slice (win0_9.rect t)).set
  rw [View.set_slice_whole, Rect.mem_set_unit]
  intro a
  match a with
  | ⟨0, _⟩ =>
    show win0_9.index t (0 : Fin 3) * 4 ≤ (i 0).val ∧ (i 0).val < win0_9.index t (0 : Fin 3) * 4 + 4
    rw [e0, ht]; omega
  | ⟨1, _⟩ =>
    show win0_9.index t (1 : Fin 3) * 256 ≤ (i 1).val ∧ (i 1).val < win0_9.index t (1 : Fin 3) * 256 + 256
    rw [e1]; omega
  | ⟨2, _⟩ =>
    show win0_9.index t (2 : Fin 3) * 1 ≤ (i 2).val ∧ (i 2).val < win0_9.index t (2 : Fin 3) * 1 + 1
    rw [e2]; omega

/-- The same for the second result array. -/
theorem cover_w10 (i : S8x256x1.Idx) :
    ∃ t : Fin cfg0.N, (cfg0.win 10).flush t = true ∧ i ∈ ((cfg0.win 10).blk t).view.set := by
  have h0 : (i 0).val < 8 := (i 0).isLt
  have h1 : (i 1).val < 256 := (i 1).isLt
  have h2 : (i 2).val < 1 := (i 2).isLt
  have hN : cfg0.N = 2 := N_0
  obtain ⟨t, ht⟩ : ∃ t : Fin cfg0.N, t.val = (i 0).val / 4 := ⟨⟨(i 0).val / 4, by rw [hN]; omega⟩, rfl⟩
  obtain ⟨e0, e1, e2⟩ := idx_w10 t
  refine ⟨t, flush0_10 t, ?_⟩
  show i ∈ ((View.whole main_v15_1).slice (win0_10.rect t)).set
  rw [View.set_slice_whole, Rect.mem_set_unit]
  intro a
  match a with
  | ⟨0, _⟩ =>
    show win0_10.index t (0 : Fin 3) * 4 ≤ (i 0).val ∧ (i 0).val < win0_10.index t (0 : Fin 3) * 4 + 4
    rw [e0, ht]; omega
  | ⟨1, _⟩ =>
    show win0_10.index t (1 : Fin 3) * 256 ≤ (i 1).val ∧ (i 1).val < win0_10.index t (1 : Fin 3) * 256 + 256
    rw [e1]; omega
  | ⟨2, _⟩ =>
    show win0_10.index t (2 : Fin 3) * 1 ≤ (i 2).val ∧ (i 2).val < win0_10.index t (2 : Fin 3) * 1 + 1
    rw [e2]; omega

section Region
variable (c : Dev nD) (I : Cert.Spec.GateIn)
  (h6 : ∀ (g : Fin 2) (ch : Fin 256) (bl : Fin 4) (j : Fin 400),
    (V c main_v6 : Vec Ideal S2x256x1600 .bf16)
        (ix3 g ch (⟨400 * bl.val + j.val, by have := bl.isLt; have := j.isLt; omega⟩ : Fin 1600))
      = I.zp ⟨4 * g.val + bl.val, by have := g.isLt; have := bl.isLt; omega⟩ ch j)
  (h11 : ∀ (k ch : Fin 256), (V c main_v11 : Vec Ideal S256x256 .bf16) (ix2 k ch) = I.w1sq k ch)
  (h3 : ∀ k : Fin 256, (V c main_arg3 : Vec Ideal S256x1 .f32) (ix2 k (0 : Fin 1)) = I.b1sq k)
  (h12 : ∀ (o : Fin 512) (t : Fin 9) (k : Fin 256),
    (V c main_v12 : Vec Ideal S512x2304 .bf16)
        (ix2 o (⟨256 * t.val + k.val, by have := t.isLt; have := k.isLt; omega⟩ : Fin 2304)) = I.w1ex t o k)
  (h5 : ∀ o : Fin 512, (V c main_arg5 : Vec Ideal S512x1 .f32) (ix2 o (0 : Fin 1)) = I.b1ex o)
  (h13 : ∀ (k : Fin 256) (o : Fin 512), (V c main_v13 : Vec Ideal S256x512 .bf16) (ix2 k o) = I.w2sq k o)
  (h7 : ∀ k : Fin 256, (V c main_arg7 : Vec Ideal S256x1 .f32) (ix2 k (0 : Fin 1)) = I.b2sq k)
  (h14 : ∀ (o : Fin 512) (t : Fin 9) (k : Fin 256),
    (V c main_v14 : Vec Ideal S512x2304 .bf16)
        (ix2 o (⟨256 * t.val + k.val, by have := t.isLt; have := k.isLt; omega⟩ : Fin 2304)) = I.w2ex t o k)
  (h9 : ∀ o : Fin 512, (V c main_arg9 : Vec Ideal S512x1 .f32) (ix2 o (0 : Fin 1)) = I.b2ex o)
include h6 h11 h3 h12 h5 h13 h7 h14 h9

/-- What point g writes back to the first result array is its block of the multiplicative gate. -/
theorem flushed_w9 (t : Fin cfg0.N) :
    (dat0 V c).flushed 9 t = ((cfg0.win 9).blk t).view.read (Elt Ideal) (gammaArr I) := by
  have ht : t.val < 2 := by have hN : cfg0.N = 2 := N_0; have h := t.isLt; omega
  obtain ⟨e0, e1, e2⟩ := idx_w9 t
  show (cfg0.win 9).cut (grid0.coords t) ((dat0 V c).after 9 t) = _
  rw [after0_9]
  funext y
  rw [View.read_apply]
  refine out9_at I (⟨t.val, ht⟩ : Fin 2) (iblk0 V c 0 t) (iblk0 V c 1 t) (iblk0 V c 2 t) (iblk0 V c 3 t) (iblk0 V c 4 t)
    (iblk0 V c 5 t) (iblk0 V c 6 t) (iblk0 V c 7 t) (iblk0 V c 8 t)
    (fun ch bl j => (blk_w0 V c t (⟨t.val, ht⟩ : Fin 2) rfl ch _).trans (h6 (⟨t.val, ht⟩ : Fin 2) ch bl j))
    (fun k ch => (blk_w1 V c t (ix2 k ch)).trans (h11 k ch))
    (fun k => (blk_w2 V c t (ix2 k (0 : Fin 1))).trans (h3 k))
    (fun o t' k => (blk_w3 V c t _).trans (h12 o t' k))
    (fun o => (blk_w4 V c t (ix2 o (0 : Fin 1))).trans (h5 o))
    (fun k o => (blk_w5 V c t (ix2 k o)).trans (h13 k o))
    (fun k => (blk_w6 V c t (ix2 k (0 : Fin 1))).trans (h7 k))
    (fun o t' k => (blk_w7 V c t _).trans (h14 o t' k))
    (fun o => (blk_w8 V c t (ix2 o (0 : Fin 1))).trans (h9 o))
    ((cfg0.win 9).xinj (grid0.coords t) y) (((cfg0.win 9).blk t).view.emb y) ?_ ?_
  · show win0_9.index t (0 : Fin 3) * 4 + 1 * (y 0).val = 4 * t.val + (y 0).val
    rw [e0]; omega
  · show win0_9.index t (1 : Fin 3) * 256 + 1 * (y 1).val = (y 1).val
    rw [e1]; omega

/-- What point g writes back to the second result array is its block of the additive gate. -/
theorem flushed_w10 (t : Fin cfg0.N) :
    (dat0 V c).flushed 10 t = ((cfg0.win 10).blk t).view.read (Elt Ideal) (betaArr I) := by
  have ht : t.val < 2 := by have hN : cfg0.N = 2 := N_0; have h := t.isLt; omega
  obtain ⟨e0, e1, e2⟩ := idx_w10 t
  show (cfg0.win 10).cut (grid0.coords t) ((dat0 V c).after 10 t) = _
  rw [after0_10]
  funext y
  rw [View.read_apply]
  refine out10_at I (⟨t.val, ht⟩ : Fin 2) (iblk0 V c 0 t) (iblk0 V c 1 t) (iblk0 V c 2 t) (iblk0 V c 3 t) (iblk0 V c 4 t)
    (iblk0 V c 5 t) (iblk0 V c 6 t) (iblk0 V c 7 t) (iblk0 V c 8 t)
    (fun ch bl j => (blk_w0 V c t (⟨t.val, ht⟩ : Fin 2) rfl ch _).trans (h6 (⟨t.val, ht⟩ : Fin 2) ch bl j))
    (fun k ch => (blk_w1 V c t (ix2 k ch)).trans (h11 k ch))
    (fun k => (blk_w2 V c t (ix2 k (0 : Fin 1))).trans (h3 k))
    (fun o t' k => (blk_w3 V c t _).trans (h12 o t' k))
    (fun o => (blk_w4 V c t (ix2 o (0 : Fin 1))).trans (h5 o))
    (fun k o => (blk_w5 V c t (ix2 k o)).trans (h13 k o))
    (fun k => (blk_w6 V c t (ix2 k (0 : Fin 1))).trans (h7 k))
    (fun o t' k => (blk_w7 V c t _).trans (h14 o t' k))
    (fun o => (blk_w8 V c t (ix2 o (0 : Fin 1))).trans (h9 o))
    ((cfg0.win 10).xinj (grid0.coords t) y) (((cfg0.win 10).blk t).view.emb y) ?_ ?_
  · show win0_10.index t (0 : Fin 3) * 4 + 1 * (y 0).val = 4 * t.val + (y 0).val
    rw [e0]; omega
  · show win0_10.index t (1 : Fin 3) * 256 + 1 * (y 1).val = (y 1).val
    rw [e1]; omega

/-- The first result array after the region is the multiplicative gate. -/
theorem final_w9 : (dat0 V c).arrAt 9 cfg0.N = gammaArr I :=
  (dat0 V c).arrAt_eq_of_cover 9 (gammaArr I)
    (fun t _ => flushed_w9 V c I h6 h11 h3 h12 h5 h13 h7 h14 h9 t) cover_w9

/-- The second result array after the region is the additive gate. -/
theorem final_w10 : (dat0 V c).arrAt 10 cfg0.N = betaArr I :=
  (dat0 V c).arrAt_eq_of_cover 10 (betaArr I)
    (fun t _ => flushed_w10 V c I h6 h11 h3 h12 h5 h13 h7 h14 h9 t) cover_w10

end Region

/-- The two result arrays of the gate region, index by index, for any contents `V` at the region's entry whose nine
    input arrays read as the gate's inputs `I`: the padded map as [2, 256, 1600] with four batches side by side per
    block, the two expand weights as [512, 2304] with the nine taps side by side. -/
theorem gate_arrays (c : Dev nD) (I : Cert.Spec.GateIn)
    (h6 : ∀ (g : Fin 2) (ch : Fin 256) (bl : Fin 4) (j : Fin 400),
      (V c main_v6 : Vec Ideal S2x256x1600 .bf16)
          (ix3 g ch (⟨400 * bl.val + j.val, by have := bl.isLt; have := j.isLt; omega⟩ : Fin 1600))
        = I.zp ⟨4 * g.val + bl.val, by have := g.isLt; have := bl.isLt; omega⟩ ch j)
    (h11 : ∀ (k ch : Fin 256), (V c main_v11 : Vec Ideal S256x256 .bf16) (ix2 k ch) = I.w1sq k ch)
    (h3 : ∀ k : Fin 256, (V c main_arg3 : Vec Ideal S256x1 .f32) (ix2 k (0 : Fin 1)) = I.b1sq k)
    (h12 : ∀ (o : Fin 512) (t : Fin 9) (k : Fin 256),
      (V c main_v12 : Vec Ideal S512x2304 .bf16)
          (ix2 o (⟨256 * t.val + k.val, by have := t.isLt; have := k.isLt; omega⟩ : Fin 2304)) = I.w1ex t o k)
    (h5 : ∀ o : Fin 512, (V c main_arg5 : Vec Ideal S512x1 .f32) (ix2 o (0 : Fin 1)) = I.b1ex o)
    (h13 : ∀ (k : Fin 256) (o : Fin 512), (V c main_v13 : Vec Ideal S256x512 .bf16) (ix2 k o) = I.w2sq k o)
    (h7 : ∀ k : Fin 256, (V c main_arg7 : Vec Ideal S256x1 .f32) (ix2 k (0 : Fin 1)) = I.b2sq k)
    (h14 : ∀ (o : Fin 512) (t : Fin 9) (k : Fin 256),
      (V c main_v14 : Vec Ideal S512x2304 .bf16)
          (ix2 o (⟨256 * t.val + k.val, by have := t.isLt; have := k.isLt; omega⟩ : Fin 2304)) = I.w2ex t o k)
    (h9 : ∀ o : Fin 512, (V c main_arg9 : Vec Ideal S512x1 .f32) (ix2 o (0 : Fin 1)) = I.b2ex o) :
    (∀ (b : Fin 8) (ch : Fin 256),
        ((dat0 V c).arrAt 9 cfg0.N : Vec Ideal S8x256x1 .f32) (ix3 b ch (0 : Fin 1)) = I.gamma b ch)
    ∧ (∀ (b : Fin 8) (ch : Fin 256),
        ((dat0 V c).arrAt 10 cfg0.N : Vec Ideal S8x256x1 .f32) (ix3 b ch (0 : Fin 1)) = I.beta b ch) := by
  refine ⟨fun b ch => ?_, fun b ch => ?_⟩
  · exact congrFun (final_w9 V c I h6 h11 h3 h12 h5 h13 h7 h14 h9) (ix3 b ch (0 : Fin 1))
  · exact congrFun (final_w10 V c I h6 h11 h3 h12 h5 h13 h7 h14 h9) (ix3 b ch (0 : Fin 1))

end Cert.KernelIdeal.Val

end
-- ==== Proof.KAdain.lean ====
/-
  The normalisation region of the kernel program: a grid of 8 × 4 points, each a block of 64 channels of one batch,
  [1, 64, 4096]; the body takes each row's sum and sum of squares, scales both by 2⁻¹², and stores
  (x − mu) · (rsqrt (ex2 − mu² + ε) · gamma) + beta. The blocks tile the [8, 256, 4096] result array.
-/
import proofs.«107153_g2000701298156354_pallasbulk_673_6_alg».proof.Proof.Gen.KernelIdeal.Frame

import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (V : (c : Dev nD) → (b : Ref sig .tc) → Buf (Elt Ideal) ((c : Thread nD τ).loc b))

/-! The region read in four steps: how a column cast, a column broadcast and a lane sum read at an index; the body's
    stored value at (row, lane) of a block; each input block read off its array; the blocks covering the result array. -/
namespace Adain

/-- A vector of length a cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a [64, 4096] array, read at row r. -/
theorem laneSum_apply (v : FVec Ideal S64x4096 .f32) (hφ : FKind.Formats .f32) (hacc : (0x00000000#32 : BitVec 32) = 0x00000000#32) (r : Fin 64) :
    multiReduction (F := Ideal) .add [1] S64 v 0x00000000#32 reduces_S64x4096_S64 hφ hacc (ix1 r)
      = ∑ q : Fin 4096, v (ix2 r q) := by
  refine (Ideal.multiReduction_add_single v 0x00000000#32 reduces_S64x4096_S64 hφ hacc (ix1 r)).trans ?_
  refine Finset.sum_congr rfl fun q _ => congrArg v ?_
  funext a
  match a with
  | ⟨0, _⟩ => exact Fin.ext rfl
  | ⟨1, _⟩ => exact Fin.ext rfl

theorem rsqrt_apply {s : Shape} {φ : FTy} (a : FVec Ideal s φ) (i : s.Idx) : rsqrt a i = Ideal.rsqrt (a i) := rfl

/-- The body's stored value at row r, lane p of its block, from the three loaded blocks: the row's sum and sum of squares
    scaled by 2⁻¹², the variance as their difference, and the normalised entry scaled and shifted by the row's two gates. -/
theorem pay_apply (x0 : Vec Ideal S1x64x4096 .f32) (x1 x2 : Vec Ideal S1x64x1 .f32) (r : Fin 64) (p : Fin 4096) :
    k1_pay1 (F := Ideal) x0 x1 x2 (ix3 (0 : Fin 1) r p)
      = (x0 (ix3 (0 : Fin 1) r p) - (∑ q : Fin 4096, x0 (ix3 (0 : Fin 1) r q)) * lit 0x39800000#32)
          * (Ideal.rsqrt ((((∑ q : Fin 4096, x0 (ix3 (0 : Fin 1) r q) * x0 (ix3 (0 : Fin 1) r q)) * lit 0x39800000#32
                - ((∑ q : Fin 4096, x0 (ix3 (0 : Fin 1) r q)) * lit 0x39800000#32)
                  * ((∑ q : Fin 4096, x0 (ix3 (0 : Fin 1) r q)) * lit 0x39800000#32))
              + lit 0x3727C5AC#32)) * x1 (ix3 (0 : Fin 1) r (0 : Fin 1)))
        + x2 (ix3 (0 : Fin 1) r (0 : Fin 1)) := by
  unfold k1_pay1
  simp only [shapeCast_ab_1ab_apply, addf_apply, mulf_apply, subf_apply, rsqrt_apply, broadcastTo_a1_ab_apply,
    shapeCast_1ab_ab_apply, shapeCast_a_a1_apply, broadcast_apply, Ideal.ofBits_def]
  rewrite [laneSum_apply, laneSum_apply]
  simp only [shapeCast_1ab_ab_apply, mulf_apply]

/-- The stored value against the specification: when the loaded blocks' row r holds the inputs' row (B, CH), the body's
    value at (r, p) is the specification's output at (B, CH, p). -/
theorem pay_out (A : Cert.Spec.AdainIn) (x0 : Vec Ideal S1x64x4096 .f32) (x1 x2 : Vec Ideal S1x64x1 .f32)
    (B : Fin 8) (CH : Fin 256) (r : Fin 64)
    (h0 : ∀ q : Fin 4096, x0 (ix3 (0 : Fin 1) r q) = A.x B CH q)
    (h1 : x1 (ix3 (0 : Fin 1) r (0 : Fin 1)) = A.gam B CH)
    (h2 : x2 (ix3 (0 : Fin 1) r (0 : Fin 1)) = A.bet B CH) (p : Fin 4096) :
    k1_pay1 (F := Ideal) x0 x1 x2 (ix3 (0 : Fin 1) r p) = A.out B CH p := by
  rw [pay_apply, h1, h2]
  simp only [h0]
  rfl

/-- The three input arrays and the three input blocks at a point, at their literal types. -/
abbrev xarr (c : Dev nD) : Vec Ideal S8x256x4096 .f32 := V c main_v16
abbrev garr (c : Dev nD) : Vec Ideal S8x256x1 .f32 := V c main_v15_0
abbrev barr (c : Dev nD) : Vec Ideal S8x256x1 .f32 := V c main_v15_1
abbrev xblk (c : Dev nD) (t : Fin cfg1.N) : Vec Ideal S1x64x4096 .f32 := iblk1 V c 0 t
abbrev gblk (c : Dev nD) (t : Fin cfg1.N) : Vec Ideal S1x64x1 .f32 := iblk1 V c 1 t
abbrev bblk (c : Dev nD) (t : Fin cfg1.N) : Vec Ideal S1x64x1 .f32 := iblk1 V c 2 t

/-- The four windows' block indices over the grid: all four sit at block (batch, channel block, 0) of the point, the batch
    below 8 and the channel block below 4. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = win1_3.index t (1 : Fin 3)
    ∧ win1_1.index t (2 : Fin 3) = 0
    ∧ win1_2.index t (0 : Fin 3) = win1_3.index t (0 : Fin 3) ∧ win1_2.index t (1 : Fin 3) = win1_3.index t (1 : Fin 3)
    ∧ win1_2.index t (2 : Fin 3) = 0
    ∧ win1_3.index t (0 : Fin 3) ≤ 7 ∧ win1_3.index t (1 : Fin 3) ≤ 3 ∧ win1_3.index t (2 : Fin 3) = 0 :=
  (by decide +kernel : ∀ t : Fin grid1.N, _)

/-- Every (batch, channel block) is some point's. -/
theorem idx_onto : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- The image block at a point, read off its array. -/
theorem xblk_apply (c : Dev nD) (t : Fin cfg1.N) (y : S1x64x4096.Idx) (k : S8x256x4096.Idx)
    (h0 : (k 0).val = win1_0.index t (0 : Fin 3) * 1 + (y 0).val)
    (h1 : (k 1).val = win1_0.index t (1 : Fin 3) * 64 + (y 1).val)
    (h2 : (k 2).val = win1_0.index t (2 : Fin 3) * 4096 + (y 2).val) :
    xblk V c t y = xarr V c k := by
  unfold xblk xarr iblk1
  rw [View.read_apply]
  show V c main_v16 _ = V c main_v16 _
  congr 1
  funext a
  apply Fin.ext
  match a with
  | ⟨0, _⟩ => show win1_0.index t (0 : Fin 3) * 1 + 1 * (y 0).val = (k 0).val; omega
  | ⟨1, _⟩ => show win1_0.index t (1 : Fin 3) * 64 + 1 * (y 1).val = (k 1).val; omega
  | ⟨2, _⟩ => show win1_0.index t (2 : Fin 3) * 4096 + 1 * (y 2).val = (k 2).val; omega

/-- The first gate's block at a point, read off its array. -/
theorem gblk_apply (c : Dev nD) (t : Fin cfg1.N) (y : S1x64x1.Idx) (k : S8x256x1.Idx)
    (h0 : (k 0).val = win1_1.index t (0 : Fin 3) * 1 + (y 0).val)
    (h1 : (k 1).val = win1_1.index t (1 : Fin 3) * 64 + (y 1).val)
    (h2 : (k 2).val = win1_1.index t (2 : Fin 3) * 1 + (y 2).val) :
    gblk V c t y = garr V c k := by
  unfold gblk garr iblk1
  rw [View.read_apply]
  show V c main_v15_0 _ = V c main_v15_0 _
  congr 1
  funext a
  apply Fin.ext
  match a with
  | ⟨0, _⟩ => show win1_1.index t (0 : Fin 3) * 1 + 1 * (y 0).val = (k 0).val; omega
  | ⟨1, _⟩ => show win1_1.index t (1 : Fin 3) * 64 + 1 * (y 1).val = (k 1).val; omega
  | ⟨2, _⟩ => show win1_1.index t (2 : Fin 3) * 1 + 1 * (y 2).val = (k 2).val; omega

/-- The second gate's block at a point, read off its array. -/
theorem bblk_apply (c : Dev nD) (t : Fin cfg1.N) (y : S1x64x1.Idx) (k : S8x256x1.Idx)
    (h0 : (k 0).val = win1_2.index t (0 : Fin 3) * 1 + (y 0).val)
    (h1 : (k 1).val = win1_2.index t (1 : Fin 3) * 64 + (y 1).val)
    (h2 : (k 2).val = win1_2.index t (2 : Fin 3) * 1 + (y 2).val) :
    bblk V c t y = barr V c k := by
  unfold bblk barr iblk1
  rw [View.read_apply]
  show V c main_v15_1 _ = V c main_v15_1 _
  congr 1
  funext a
  apply Fin.ext
  match a with
  | ⟨0, _⟩ => show win1_2.index t (0 : Fin 3) * 1 + 1 * (y 0).val = (k 0).val; omega
  | ⟨1, _⟩ => show win1_2.index t (1 : Fin 3) * 64 + 1 * (y 1).val = (k 1).val; omega
  | ⟨2, _⟩ => show win1_2.index t (2 : Fin 3) * 1 + 1 * (y 2).val = (k 2).val; omega

theorem hz3 : (![0, 0, 0] : Fin 3 → Nat) = fun _ => 0 := funext fun a => by fin_cases a <;> rfl

/-- The whole result array as the specification gives it, index by index. -/
abbrev outArr (A : Cert.Spec.AdainIn) : Vec Ideal S8x256x4096 .f32 := fun i => A.out (i 0) (i 1) (i 2)

/-- What a point writes back is its block of the specification's array: row r of the point's block is channel
    64 · (channel block) + r of the point's batch, in all three inputs and in the result. -/
theorem flushed_eq (c : Dev nD) (A : Cert.Spec.AdainIn)
    (hx : ∀ (b : Fin 8) (ch : Fin 256) (p : Fin 4096), xarr V c (ix3 b ch p) = A.x b ch p)
    (hg : ∀ (b : Fin 8) (ch : Fin 256), garr V c (ix3 b ch (0 : Fin 1)) = A.gam b ch)
    (hb : ∀ (b : Fin 8) (ch : Fin 256), barr V c (ix3 b ch (0 : Fin 1)) = A.bet b ch)
    (t : Fin cfg1.N) :
    (dat1 V c).flushed 3 t = ((cfg1.win 3).blk t).view.read (Elt Ideal) (outArr A) := by
  show (cfg1.win 3).cut (grid1.coords t) ((dat1 V c).after 3 t) = _
  rw [after1_3]
  unfold out1_3
  rw [View.canon_unit_zero hz3]
  simp only [View.ld_unit_zero (S := S1x64x4096) hz3, View.ld_unit_zero (S := S1x64x1) hz3]
  obtain ⟨e00, e01, e02, e10, e11, e12, e20, e21, e22, l0, l1, e32⟩ := idx_facts t
  funext j
  obtain ⟨u, r, p, rfl⟩ : ∃ (u : Fin 1) (r : Fin 64) (p : Fin 4096), j = ix3 u r p := ⟨j 0, j 1, j 2, eq_ix3 j⟩
  obtain rfl : u = (0 : Fin 1) := Subsingleton.elim _ _
  have hr : r.val < 64 := r.isLt
  have hemb : ((cfg1.win 3).blk t).view.emb (ix3 (0 : Fin 1) r p)
      = (ix3 (⟨win1_3.index t (0 : Fin 3), by omega⟩ : Fin 8) (⟨win1_3.index t (1 : Fin 3) * 64 + r.val, by omega⟩ : Fin 256) p : S8x256x4096.Idx) := by
    funext a
    apply Fin.ext
    match a with
    | ⟨0, _⟩ => show win1_3.index t (0 : Fin 3) * 1 + 1 * 0 = win1_3.index t (0 : Fin 3); omega
    | ⟨1, _⟩ => show win1_3.index t (1 : Fin 3) * 64 + 1 * r.val = win1_3.index t (1 : Fin 3) * 64 + r.val; omega
    | ⟨2, _⟩ => show win1_3.index t (2 : Fin 3) * 4096 + 1 * p.val = p.val; omega
  show k1_pay1 (F := Ideal) (xblk V c t) (gblk V c t) (bblk V c t) (ix3 (0 : Fin 1) r p)
    = outArr A (((cfg1.win 3).blk t).view.emb (ix3 (0 : Fin 1) r p))
  rw [hemb]
  refine pay_out A (xblk V c t) (gblk V c t) (bblk V c t) (⟨win1_3.index t (0 : Fin 3), by omega⟩ : Fin 8)
    (⟨win1_3.index t (1 : Fin 3) * 64 + r.val, by omega⟩ : Fin 256) r (fun q => ?_) ?_ ?_ p
  · refine (xblk_apply V c t (ix3 (0 : Fin 1) r q) (ix3 (⟨win1_3.index t (0 : Fin 3), by omega⟩ : Fin 8)
      (⟨win1_3.index t (1 : Fin 3) * 64 + r.val, by omega⟩ : Fin 256) q) ?_ ?_ ?_).trans (hx _ _ _)
    · show win1_3.index t (0 : Fin 3) = win1_0.index t (0 : Fin 3) * 1 + 0; omega
    · show win1_3.index t (1 : Fin 3) * 64 + r.val = win1_0.index t (1 : Fin 3) * 64 + r.val; omega
    · show q.val = win1_0.index t (2 : Fin 3) * 4096 + q.val; omega
  · refine (gblk_apply V c t (ix3 (0 : Fin 1) r (0 : Fin 1)) (ix3 (⟨win1_3.index t (0 : Fin 3), by omega⟩ : Fin 8)
      (⟨win1_3.index t (1 : Fin 3) * 64 + r.val, by omega⟩ : Fin 256) (0 : Fin 1)) ?_ ?_ ?_).trans (hg _ _)
    · show win1_3.index t (0 : Fin 3) = win1_1.index t (0 : Fin 3) * 1 + 0; omega
    · show win1_3.index t (1 : Fin 3) * 64 + r.val = win1_1.index t (1 : Fin 3) * 64 + r.val; omega
    · show 0 = win1_1.index t (2 : Fin 3) * 1 + 0; omega
  · refine (bblk_apply V c t (ix3 (0 : Fin 1) r (0 : Fin 1)) (ix3 (⟨win1_3.index t (0 : Fin 3), by omega⟩ : Fin 8)
      (⟨win1_3.index t (1 : Fin 3) * 64 + r.val, by omega⟩ : Fin 256) (0 : Fin 1)) ?_ ?_ ?_).trans (hb _ _)
    · show win1_3.index t (0 : Fin 3) = win1_2.index t (0 : Fin 3) * 1 + 0; omega
    · show win1_3.index t (1 : Fin 3) * 64 + r.val = win1_2.index t (1 : Fin 3) * 64 + r.val; omega
    · show 0 = win1_2.index t (2 : Fin 3) * 1 + 0; omega

/-- An index of the result array is in a point's block iff each coordinate is in the block's range on its axis. -/
theorem mem_blk (t : Fin cfg1.N) (i : S8x256x4096.Idx) :
    i ∈ ((cfg1.win 3).blk t).view.set ↔ ∀ a : Fin 3, win1_3.index t a * S1x64x4096.size a ≤ (i a).val ∧ (i a).val < win1_3.index t a * S1x64x4096.size a + S1x64x4096.size a := by
  show i ∈ ((View.whole main_v17).slice (win1_3.rect t)).set ↔ _
  rw [View.set_slice_whole, Rect.mem_set_unit]
  exact Iff.rfl

/-- Every index of the result array lies in the block of the point with its batch and its channel's block of 64. -/
theorem covered (i : S8x256x4096.Idx) :
    ∃ t : Fin cfg1.N, (cfg1.win 3).flush t = true ∧ i ∈ ((cfg1.win 3).blk t).view.set := by
  have hi0 : (i 0).val < 8 := (i 0).isLt
  have hi1 : (i 1).val < 256 := (i 1).isLt
  have hi2 : (i 2).val < 4096 := (i 2).isLt
  obtain ⟨t, ht⟩ := idx_onto ⟨(i 0).val, hi0⟩ ⟨(i 1).val / 64, by omega⟩
  have q0 : win1_3.index t (0 : Fin 3) = (i 0).val := congrFun ht 0
  have q1 : win1_3.index t (1 : Fin 3) = (i 1).val / 64 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 4096 ≤ (i 2).val ∧ (i 2).val < win1_3.index t (2 : Fin 3) * 4096 + 4096; omega

end Adain

/-- The result array of the normalisation region, index by index, for any contents `V` at the region's entry whose
    three input arrays read as the inputs `A`. -/
theorem adain_array (c : Dev nD) (A : Cert.Spec.AdainIn)
    (hx : ∀ (b : Fin 8) (ch : Fin 256) (p : Fin 4096), (V c main_v16 : Vec Ideal S8x256x4096 .f32) (ix3 b ch p) = A.x b ch p)
    (hg : ∀ (b : Fin 8) (ch : Fin 256), (V c main_v15_0 : Vec Ideal S8x256x1 .f32) (ix3 b ch (0 : Fin 1)) = A.gam b ch)
    (hb : ∀ (b : Fin 8) (ch : Fin 256), (V c main_v15_1 : Vec Ideal S8x256x1 .f32) (ix3 b ch (0 : Fin 1)) = A.bet b ch)
    (b : Fin 8) (ch : Fin 256) (p : Fin 4096) :
    ((dat1 V c).arrAt 3 cfg1.N : Vec Ideal S8x256x4096 .f32) (ix3 b ch p) = A.out b ch p := by
  have h := (dat1 V c).arrAt_eq_of_cover 3 (Adain.outArr A) (fun t _ => Adain.flushed_eq V c A hx hg hb t) Adain.covered
  exact congrFun h (ix3 b ch p)

end Cert.KernelIdeal.Val

end
-- ==== Proof.KResult.lean ====
/-
  The kernel program's result buffer as one function of the argument arrays: the host tail reads the normalisation
  region's result array, that region reads the image and the two gate arrays, which the gate region computed from
  what the host operations made of the arguments.
-/
import proofs.«107153_g2000701298156354_pallasbulk_673_6_alg».proof.Proof.Gen.KernelIdeal.Frame
import proofs.«107153_g2000701298156354_pallasbulk_673_6_alg».proof.Proof.KArgs
import proofs.«107153_g2000701298156354_pallasbulk_673_6_alg».proof.Proof.KHost
import proofs.«107153_g2000701298156354_pallasbulk_673_6_alg».proof.Proof.KMid
import proofs.«107153_g2000701298156354_pallasbulk_673_6_alg».proof.Proof.KGate
import proofs.«107153_g2000701298156354_pallasbulk_673_6_alg».proof.Proof.KAdain
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

/-- The result buffer after the run's last boundary is the specification's result of the image and the gate's inputs. -/
theorem result_eq (c : Dev nD) :
    (W7 m ρ c (Proc.devRef .tc main_v18) : Vec Ideal S8x256x64x64 .f32) = Cert.Spec.result (aX m c) (gateIn m c) := by
  funext i
  rw [w7_res m ρ c i]
  have hG := gate_arrays (V3 m ρ) c (gateIn m c) (v3_v6 m ρ c) (v3_v11 m ρ c) (v3_arg3 m ρ c) (v3_v12 m ρ c)
    (v3_arg5 m ρ c) (v3_v13 m ρ c) (v3_arg7 m ρ c) (v3_v14 m ρ c) (v3_arg9 m ρ c)
  exact adain_array (V5 m ρ) c (Cert.Spec.AdainIn.ofImage (aX m c) (gateIn m c).gamma (gateIn m c).beta)
    (fun b ch p => v5_x m ρ c b ch p)
    (fun b ch => (v5_gam m ρ c b ch).trans (hG.1 b ch))
    (fun b ch => (v5_bet m ρ c b ch).trans (hG.2 b ch)) (i 0) (i 1) _

end Cert.KernelIdeal.Val

end
-- ==== Proof.RArgs.lean ====
/-
  The ten argument arrays of the program at their literal array types, and the gate's inputs read off them.
-/
import proofs.«107153_g2000701298156354_pallasbulk_673_6_alg».proof.Proof.Gen.ReferenceIdeal.Frame
import proofs.«107153_g2000701298156354_pallasbulk_673_6_alg».proof.Proof.SpecPad
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (m : (ℓ : Loc nD τ sig) → Buf (Elt Ideal) ℓ) (ρ : Dev nD → PrngReg)

/-- The argument arrays at their literal types. -/
abbrev aX (c : Dev nD) : Vec Ideal S8x256x64x64 .f32 := m ((c : Thread nD τ).loc main_arg0)
abbrev aZ (c : Dev nD) : Vec Ideal S8x256x16x16 .f32 := m ((c : Thread nD τ).loc main_arg1)
abbrev a2 (c : Dev nD) : Vec Ideal S256x256 .f32 := m ((c : Thread nD τ).loc main_arg2)
abbrev a3 (c : Dev nD) : Vec Ideal S256x1 .f32 := m ((c : Thread nD τ).loc main_arg3)
abbrev a4 (c : Dev nD) : Vec Ideal S9x512x256 .f32 := m ((c : Thread nD τ).loc main_arg4)
abbrev a5 (c : Dev nD) : Vec Ideal S512x1 .f32 := m ((c : Thread nD τ).loc main_arg5)
abbrev a6 (c : Dev nD) : Vec Ideal S256x512 .f32 := m ((c : Thread nD τ).loc main_arg6)
abbrev a7 (c : Dev nD) : Vec Ideal S256x1 .f32 := m ((c : Thread nD τ).loc main_arg7)
abbrev a8 (c : Dev nD) : Vec Ideal S9x512x256 .f32 := m ((c : Thread nD τ).loc main_arg8)
abbrev a9 (c : Dev nD) : Vec Ideal S512x1 .f32 := m ((c : Thread nD τ).loc main_arg9)

/-- The gate's inputs read off the launch memory. -/
abbrev gateIn (c : Dev nD) : Cert.Spec.GateIn :=
  Cert.Spec.GateIn.ofArgs (aZ m c) (a2 m c) (a3 m c) (a4 m c) (a5 m c) (a6 m c) (a7 m c) (a8 m c) (a9 m c)

end Cert.ReferenceIdeal.Val

end
-- ==== Proof.RHost.lean ====
/-
  What the reference program's host operations leave in the gate region's ten input arrays, index by index, in terms
  of the argument arrays: the reflection padding (slices, reversals and concatenations on the two spatial axes) and
  the flattening [8,256,20,20] → [8,256,400]; the validity mask, a table of 316 words reshaped to [1, 316], whose word
  at position j is one where j mod 20 < 16 and zero elsewhere; the eight parameter arrays untouched.
-/
import proofs.«107153_g2000701298156354_pallasbulk_673_6_alg».proof.Proof.Gen.ReferenceIdeal.Frame
import proofs.«107153_g2000701298156354_pallasbulk_673_6_alg».proof.Proof.RArgs
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (m : (ℓ : Loc nD τ sig) → Buf (Elt Ideal) ℓ) (ρ : Dev nD → PrngReg)

/-! ## The reflection padding on vectors -/

section Pad
variable {α : Type}

/-- A reversal along axis 2 of a rank-4 array reads the mirrored row. -/
theorem reverse2_apply {n0 n1 n2 n3 : Nat} (x : (⟨4, ![n0, n1, n2, n3]⟩ : Shape).Idx → α)
    (b : Fin n0) (c : Fin n1) (r : Fin n2) (s : Fin n3) :
    Host.reverse [2] x (ix4 b c r s) = x (ix4 b c r.rev s) := by
  unfold Host.reverse
  congr 1
  funext a
  match a with
  | ⟨0, _⟩ => rfl
  | ⟨1, _⟩ => rfl
  | ⟨2, _⟩ => rfl
  | ⟨3, _⟩ => rfl

/-- A reversal along axis 3 of a rank-4 array reads the mirrored column. -/
theorem reverse3_apply {n0 n1 n2 n3 : Nat} (x : (⟨4, ![n0, n1, n2, n3]⟩ : Shape).Idx → α)
    (b : Fin n0) (c : Fin n1) (r : Fin n2) (s : Fin n3) :
    Host.reverse [3] x (ix4 b c r s) = x (ix4 b c r s.rev) := by
  unfold Host.reverse
  congr 1
  funext a
  match a with
  | ⟨0, _⟩ => rfl
  | ⟨1, _⟩ => rfl
  | ⟨2, _⟩ => rfl
  | ⟨3, _⟩ => rfl

/-- Rows 1 and 2 mirrored and put in front of the 16 rows. -/
def rows18 (z : S8x256x16x16.Idx → α) : S8x256x18x16.Idx → α :=
  concatenate S8x256x18x16 2
    [⟨S8x256x2x16, Host.reverse [2]
        (extractStridedSlice S8x256x2x16 ![0, 0, 1, 0] z slices_S8x256x16x16_S8x256x2x16_0_0_1_0)⟩,
      ⟨S8x256x16x16, z⟩]
    concatenates_S8x256x2x16_S8x256x16x16_S8x256x18x16_d2

/-- Row r of the 18 reads source row 2 − r for r < 2 and r − 2 from there on. -/
theorem rows18_apply (z : S8x256x16x16.Idx → α) (b : Fin 8) (c : Fin 256) (r : Fin 18) (s : Fin 16) (q : Fin 16)
    (hq : q.val = if r.val < 2 then 2 - r.val else r.val - 2) :
    rows18 z (ix4 b c r s) = z (ix4 b c q s) := by
  unfold rows18
  by_cases hr : r.val < 2
  · rw [if_pos hr] at hq
    refine (concatenate_pair_apply_left (t := S8x256x18x16) (s₁ := S8x256x2x16) (s₂ := S8x256x16x16) 2 _ _ _
      (ix4 b c r s) rfl (ix4 b c ⟨r.val, hr⟩ s) (fun a => by
      match a with
      | ⟨0, _⟩ => rfl
      | ⟨1, _⟩ => rfl
      | ⟨2, _⟩ => rfl
      | ⟨3, _⟩ => rfl)).trans ?_
    refine (reverse2_apply _ b c _ s).trans ?_
    exact extractStridedSlice_apply _ _ _ _ (ix4 b c q s) (fun a => by
      match a with
      | ⟨0, _⟩ => show b.val = 0 + b.val; omega
      | ⟨1, _⟩ => show c.val = 0 + c.val; omega
      | ⟨2, _⟩ => show q.val = 1 + ((⟨r.val, hr⟩ : Fin 2).rev).val; rw [Fin.val_rev]; show q.val = 1 + (2 - (r.val + 1)); omega
      | ⟨3, _⟩ => show s.val = 0 + s.val; omega)
  · rw [if_neg hr] at hq
    exact concatenate_pair_apply_right (t := S8x256x18x16) (s₁ := S8x256x2x16) (s₂ := S8x256x16x16) 2 _ _ _
      (ix4 b c r s) rfl rfl (ix4 b c q s) (fun a ha => by
      match a with
      | ⟨0, _⟩ => rfl
      | ⟨1, _⟩ => rfl
      | ⟨2, _⟩ => exact absurd rfl ha
      | ⟨3, _⟩ => rfl) (by show q.val + 2 = r.val; omega)

/-- Rows 15 and 16 of the 18 mirrored and put behind them. -/
def rows20 (z : S8x256x16x16.Idx → α) : S8x256x20x16.Idx → α :=
  concatenate S8x256x20x16 2
    [⟨S8x256x18x16, rows18 z⟩,
      ⟨S8x256x2x16, Host.reverse [2]
        (extractStridedSlice S8x256x2x16 ![0, 0, 15, 0] (rows18 z) slices_S8x256x18x16_S8x256x2x16_0_0_15_0)⟩]
    concatenates_S8x256x18x16_S8x256x2x16_S8x256x20x16_d2

/-- Row r of the 20 reads the source row the reflection assigns to r. -/
theorem rows20_apply (z : S8x256x16x16.Idx → α) (b : Fin 8) (c : Fin 256) (r : Fin 20) (s : Fin 16) :
    rows20 z (ix4 b c r s) = z (ix4 b c (refl r) s) := by
  have hrefl : (refl r).val = if r.val < 2 then 2 - r.val else if r.val < 18 then r.val - 2 else 32 - r.val := rfl
  have hlt := r.isLt
  unfold rows20
  by_cases hr : r.val < 18
  · refine (concatenate_pair_apply_left (t := S8x256x20x16) (s₁ := S8x256x18x16) (s₂ := S8x256x2x16) 2 _ _ _
      (ix4 b c r s) rfl (ix4 b c ⟨r.val, hr⟩ s) (fun a => by
      match a with
      | ⟨0, _⟩ => rfl
      | ⟨1, _⟩ => rfl
      | ⟨2, _⟩ => rfl
      | ⟨3, _⟩ => rfl)).trans ?_
    exact rows18_apply z b c ⟨r.val, hr⟩ s (refl r) (by
      rw [hrefl]; show _ = if r.val < 2 then 2 - r.val else r.val - 2
      split_ifs <;> omega)
  · have h18 : r.val - 18 < 2 := by omega
    refine (concatenate_pair_apply_right (t := S8x256x20x16) (s₁ := S8x256x18x16) (s₂ := S8x256x2x16) 2 _ _ _
      (ix4 b c r s) rfl rfl (ix4 b c ⟨r.val - 18, h18⟩ s) (fun a ha => by
      match a with
      | ⟨0, _⟩ => rfl
      | ⟨1, _⟩ => rfl
      | ⟨2, _⟩ => exact absurd rfl ha
      | ⟨3, _⟩ => rfl) (by show r.val - 18 + 18 = r.val; omega)).trans ?_
    refine (reverse2_apply _ b c _ s).trans ?_
    refine (extractStridedSlice_apply _ _ _ _ (ix4 b c (⟨34 - r.val, by omega⟩ : Fin 18) s) (fun a => by
      match a with
      | ⟨0, _⟩ => show b.val = 0 + b.val; omega
      | ⟨1, _⟩ => show c.val = 0 + c.val; omega
      | ⟨2, _⟩ => show 34 - r.val = 15 + ((⟨r.val - 18, h18⟩ : Fin 2).rev).val; rw [Fin.val_rev]; show 34 - r.val = 15 + (2 - (r.val - 18 + 1)); omega
      | ⟨3, _⟩ => show s.val = 0 + s.val; omega)).trans ?_
    exact rows18_apply z b c _ s (refl r) (by
      rw [hrefl]; show _ = if 34 - r.val < 2 then 2 - (34 - r.val) else 34 - r.val - 2
      split_ifs <;> omega)

/-- Columns 1 and 2 mirrored and put in front of the 16 columns. -/
def cols18 (y : S8x256x20x16.Idx → α) : S8x256x20x18.Idx → α :=
  concatenate S8x256x20x18 3
    [⟨S8x256x20x2, Host.reverse [3]
        (extractStridedSlice S8x256x20x2 ![0, 0, 0, 1] y slices_S8x256x20x16_S8x256x20x2_0_0_0_1)⟩,
      ⟨S8x256x20x16, y⟩]
    concatenates_S8x256x20x2_S8x256x20x16_S8x256x20x18_d3

/-- Column s of the 18 reads source column 2 − s for s < 2 and s − 2 from there on. -/
theorem cols18_apply (y : S8x256x20x16.Idx → α) (b : Fin 8) (c : Fin 256) (r : Fin 20) (s : Fin 18) (q : Fin 16)
    (hq : q.val = if s.val < 2 then 2 - s.val else s.val - 2) :
    cols18 y (ix4 b c r s) = y (ix4 b c r q) := by
  unfold cols18
  by_cases hs : s.val < 2
  · rw [if_pos hs] at hq
    refine (concatenate_pair_apply_left (t := S8x256x20x18) (s₁ := S8x256x20x2) (s₂ := S8x256x20x16) 3 _ _ _
      (ix4 b c r s) rfl (ix4 b c r ⟨s.val, hs⟩) (fun a => by
      match a with
      | ⟨0, _⟩ => rfl
      | ⟨1, _⟩ => rfl
      | ⟨2, _⟩ => rfl
      | ⟨3, _⟩ => rfl)).trans ?_
    refine (reverse3_apply _ b c r _).trans ?_
    exact extractStridedSlice_apply _ _ _ _ (ix4 b c r q) (fun a => by
      match a with
      | ⟨0, _⟩ => show b.val = 0 + b.val; omega
      | ⟨1, _⟩ => show c.val = 0 + c.val; omega
      | ⟨2, _⟩ => show r.val = 0 + r.val; omega
      | ⟨3, _⟩ => show q.val = 1 + ((⟨s.val, hs⟩ : Fin 2).rev).val; rw [Fin.val_rev]; show q.val = 1 + (2 - (s.val + 1)); omega)
  · rw [if_neg hs] at hq
    exact concatenate_pair_apply_right (t := S8x256x20x18) (s₁ := S8x256x20x2) (s₂ := S8x256x20x16) 3 _ _ _
      (ix4 b c r s) rfl rfl (ix4 b c r q) (fun a ha => by
      match a with
      | ⟨0, _⟩ => rfl
      | ⟨1, _⟩ => rfl
      | ⟨2, _⟩ => rfl
      | ⟨3, _⟩ => exact absurd rfl ha) (by show q.val + 2 = s.val; omega)

/-- Columns 15 and 16 of the 18 mirrored and put behind them. -/
def cols20 (y : S8x256x20x16.Idx → α) : S8x256x20x20.Idx → α :=
  concatenate S8x256x20x20 3
    [⟨S8x256x20x18, cols18 y⟩,
      ⟨S8x256x20x2, Host.reverse [3]
        (extractStridedSlice S8x256x20x2 ![0, 0, 0, 15] (cols18 y) slices_S8x256x20x18_S8x256x20x2_0_0_0_15)⟩]
    concatenates_S8x256x20x18_S8x256x20x2_S8x256x20x20_d3

/-- Column s of the 20 reads the source column the reflection assigns to s. -/
theorem cols20_apply (y : S8x256x20x16.Idx → α) (b : Fin 8) (c : Fin 256) (r : Fin 20) (s : Fin 20) :
    cols20 y (ix4 b c r s) = y (ix4 b c r (refl s)) := by
  have hrefl : (refl s).val = if s.val < 2 then 2 - s.val else if s.val < 18 then s.val - 2 else 32 - s.val := rfl
  have hlt := s.isLt
  unfold cols20
  by_cases hs : s.val < 18
  · refine (concatenate_pair_apply_left (t := S8x256x20x20) (s₁ := S8x256x20x18) (s₂ := S8x256x20x2) 3 _ _ _
      (ix4 b c r s) rfl (ix4 b c r ⟨s.val, hs⟩) (fun a => by
      match a with
      | ⟨0, _⟩ => rfl
      | ⟨1, _⟩ => rfl
      | ⟨2, _⟩ => rfl
      | ⟨3, _⟩ => rfl)).trans ?_
    exact cols18_apply y b c r ⟨s.val, hs⟩ (refl s) (by
      rw [hrefl]; show _ = if s.val < 2 then 2 - s.val else s.val - 2
      split_ifs <;> omega)
  · have h18 : s.val - 18 < 2 := by omega
    refine (concatenate_pair_apply_right (t := S8x256x20x20) (s₁ := S8x256x20x18) (s₂ := S8x256x20x2) 3 _ _ _
      (ix4 b c r s) rfl rfl (ix4 b c r ⟨s.val - 18, h18⟩) (fun a ha => by
      match a with
      | ⟨0, _⟩ => rfl
      | ⟨1, _⟩ => rfl
      | ⟨2, _⟩ => rfl
      | ⟨3, _⟩ => exact absurd rfl ha) (by show s.val - 18 + 18 = s.val; omega)).trans ?_
    refine (reverse3_apply _ b c r _).trans ?_
    refine (extractStridedSlice_apply _ _ _ _ (ix4 b c r (⟨34 - s.val, by omega⟩ : Fin 18)) (fun a => by
      match a with
      | ⟨0, _⟩ => show b.val = 0 + b.val; omega
      | ⟨1, _⟩ => show c.val = 0 + c.val; omega
      | ⟨2, _⟩ => show r.val = 0 + r.val; omega
      | ⟨3, _⟩ => show 34 - s.val = 15 + ((⟨s.val - 18, h18⟩ : Fin 2).rev).val; rw [Fin.val_rev]; show 34 - s.val = 15 + (2 - (s.val - 18 + 1)); omega)).trans ?_
    exact cols18_apply y b c r _ (refl s) (by
      rw [hrefl]; show _ = if 34 - s.val < 2 then 2 - (34 - s.val) else 34 - s.val - 2
      split_ifs <;> omega)

end Pad

/-! ## The three stretches, each over any contents it may find -/

/-- A buffer that none of a stretch's operations writes holds after the stretch what it held before. -/
local macro "untouched " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide))))

/-- The padding stretch leaves in its result the padded columns of the padded rows of the map it finds. -/
theorem after_pad (W : Valuation τ sig (Elt Ideal)) :
    (StableHlo.after hostOps0_1 W (Proc.devRef .tc main_v0) : Vec Ideal S8x256x20x20 .f32)
      = cols20 (rows20 (W (Proc.devRef .tc main_arg1) : Vec Ideal S8x256x16x16 .f32)) := by
  after_results
  simp only [StableHlo.TRef.ofBuf, StableHlo.TRef.toBuf, cast_eq]
  rfl

/-- The last stretch leaves the padded map flattened on its two spatial axes. -/
theorem after_flat (W : Valuation τ sig (Elt Ideal)) :
    (StableHlo.after hostOps0_2 W (Proc.devRef .tc main_v1) : Vec Ideal S8x256x400 .f32)
      = shapeCast S8x256x400 (W (Proc.devRef .tc main_v0) : Vec Ideal S8x256x20x20 .f32)
          shapeCasts_S8x256x20x20_S8x256x400 := by
  after_results
  simp only [StableHlo.TRef.ofBuf, StableHlo.TRef.toBuf, cast_eq]
  rfl

/-- The last stretch leaves the table of 316 words as one row of 316. -/
theorem after_row (W : Valuation τ sig (Elt Ideal)) :
    (StableHlo.after hostOps0_2 W (Proc.devRef .tc main_v2) : Vec Ideal S1x316 .f32)
      = shapeCast S1x316 (W (Proc.devRef .tc main_cst) : Vec Ideal S316 .f32) shapeCasts_S316_S1x316 := by
  after_results
  simp only [StableHlo.TRef.ofBuf, StableHlo.TRef.toBuf, cast_eq]
  rfl

/-- The first stretch leaves the table: at each position its word read as an extended real. -/
theorem after_table (W : Valuation τ sig (Elt Ideal)) :
    (StableHlo.after hostOps0 W (Proc.devRef .tc main_cst) : Vec Ideal S316 .f32)
      = fun i => Ideal.ofBits .f32 (lit0 (S316.rowMajor i)) := by
  after_results
  rfl

/-! ## The table's words -/

/-- Word j of the table is the word of one where j mod 20 < 16 and the word of zero elsewhere. -/
theorem lit0_eq : ∀ j : Fin 316, lit0 j = if j.val % 20 < 16 then 0x3F800000#32 else 0x00000000#32 := by
  decide

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

/-! ## The ten arrays at the gate region's entry -/

/-- The padded map as the gate region finds it. -/
theorem v3_v1 (c : Dev nD) (b : Fin 8) (ch : Fin 256) (j : Fin 400) :
    (V3 m ρ c main_v1 : Vec Ideal S8x256x400 .f32) (ix3 b ch j) = Cert.Spec.zpad (aZ m c) b ch j := by
  have hj := j.isLt
  have e3 : W1 m ρ c (Proc.devRef .tc main_arg1) = m ((c : Thread nD τ).loc main_arg1) :=
    (untouched hostOps0 : W1 m ρ c (Proc.devRef .tc main_arg1) = W0 m ρ c (Proc.devRef .tc main_arg1)).trans rfl
  refine (congrFun (after_flat (W2 m ρ c)) _).trans ?_
  -- flat position j of the [8,256,400] view is row j / 20, column j % 20 of the [8,256,20,20] map
  refine (shapeCast_apply _ _ _ (ix4 b ch (⟨j.val / 20, by omega⟩ : Fin 20) (⟨j.val % 20, by omega⟩ : Fin 20)) (by
    rw [Shape.rowMajor_val_four, Shape.rowMajor_val_three]
    show ((b.val * 256 + ch.val) * 20 + j.val / 20) * 20 + j.val % 20 = (b.val * 256 + ch.val) * 400 + j.val
    omega)).trans ?_
  refine (congrFun (after_pad (W1 m ρ c)) _).trans ?_
  refine (cols20_apply _ _ _ _ _).trans ?_
  refine (rows20_apply _ _ _ _ _).trans ?_
  exact congrFun e3 _

/-- The mask table as the gate region finds it. -/
theorem v3_v2 (c : Dev nD) (j : Fin 316) :
    (V3 m ρ c main_v2 : Vec Ideal S1x316 .f32) (ix2 (0 : Fin 1) j) = Cert.Spec.mask j := by
  have e2 : W2 m ρ c (Proc.devRef .tc main_cst) = W1 m ρ c (Proc.devRef .tc main_cst) := untouched hostOps0_1
  refine (congrFun (after_row (W2 m ρ c)) _).trans ?_
  -- position (0, j) of the one-row view is position j of the table
  refine (shapeCast_apply _ _ _ (ix1 j) (by
    rw [Shape.rowMajor_val_one, Shape.rowMajor_val_two]
    show j.val = 0 * 316 + j.val
    omega)).trans ?_
  refine (congrFun e2 _).trans ?_
  refine (congrFun (after_table (W0 m ρ c)) _).trans ?_
  have hpos : S316.rowMajor (ix1 j) = j := Fin.ext (Shape.rowMajor_val_one _)
  show Ideal.ofBits .f32 (lit0 (S316.rowMajor (ix1 j))) = Cert.Spec.mask j
  rw [hpos, lit0_eq j]
  unfold Cert.Spec.mask
  split_ifs
  · exact ofBits_one
  · exact ofBits_zero

/-! The eight parameter arrays: no operation of the three stretches writes one, so each holds its launch contents. -/

theorem w3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := untouched hostOps0_2
    _ = W1 m ρ c (Proc.devRef .tc main_arg2) := untouched hostOps0_1
    _ = W0 m ρ c (Proc.devRef .tc main_arg2) := untouched hostOps0
    _ = m ((c : Thread nD τ).loc main_arg2) := rfl

theorem w3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := untouched hostOps0_2
    _ = W1 m ρ c (Proc.devRef .tc main_arg3) := untouched hostOps0_1
    _ = W0 m ρ c (Proc.devRef .tc main_arg3) := untouched hostOps0
    _ = m ((c : Thread nD τ).loc main_arg3) := rfl

theorem w3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := untouched hostOps0_2
    _ = W1 m ρ c (Proc.devRef .tc main_arg4) := untouched hostOps0_1
    _ = W0 m ρ c (Proc.devRef .tc main_arg4) := untouched hostOps0
    _ = m ((c : Thread nD τ).loc main_arg4) := rfl

theorem w3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := untouched hostOps0_2
    _ = W1 m ρ c (Proc.devRef .tc main_arg5) := untouched hostOps0_1
    _ = W0 m ρ c (Proc.devRef .tc main_arg5) := untouched hostOps0
    _ = m ((c : Thread nD τ).loc main_arg5) := rfl

theorem w3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := untouched hostOps0_2
    _ = W1 m ρ c (Proc.devRef .tc main_arg6) := untouched hostOps0_1
    _ = W0 m ρ c (Proc.devRef .tc main_arg6) := untouched hostOps0
    _ = m ((c : Thread nD τ).loc main_arg6) := rfl

theorem w3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := untouched hostOps0_2
    _ = W1 m ρ c (Proc.devRef .tc main_arg7) := untouched hostOps0_1
    _ = W0 m ρ c (Proc.devRef .tc main_arg7) := untouched hostOps0
    _ = m ((c : Thread nD τ).loc main_arg7) := rfl

theorem w3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := untouched hostOps0_2
    _ = W1 m ρ c (Proc.devRef .tc main_arg8) := untouched hostOps0_1
    _ = W0 m ρ c (Proc.devRef .tc main_arg8) := untouched hostOps0
    _ = m ((c : Thread nD τ).loc main_arg8) := rfl

theorem w3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := untouched hostOps0_2
    _ = W1 m ρ c (Proc.devRef .tc main_arg9) := untouched hostOps0_1
    _ = W0 m ρ c (Proc.devRef .tc main_arg9) := untouched hostOps0
    _ = m ((c : Thread nD τ).loc main_arg9) := rfl

theorem v3_arg2 (c : Dev nD) (k ch : Fin 256) :
    (V3 m ρ c main_arg2 : Vec Ideal S256x256 .f32) (ix2 k ch) = a2 m c (ix2 k ch) :=
  congrFun (w3_arg2 m ρ c) _
theorem v3_arg3 (c : Dev nD) (k : Fin 256) :
    (V3 m ρ c main_arg3 : Vec Ideal S256x1 .f32) (ix2 k (0 : Fin 1)) = a3 m c (ix2 k (0 : Fin 1)) :=
  congrFun (w3_arg3 m ρ c) _
theorem v3_arg4 (c : Dev nD) (t : Fin 9) (o : Fin 512) (k : Fin 256) :
    (V3 m ρ c main_arg4 : Vec Ideal S9x512x256 .f32) (ix3 t o k) = a4 m c (ix3 t o k) :=
  congrFun (w3_arg4 m ρ c) _
theorem v3_arg5 (c : Dev nD) (o : Fin 512) :
    (V3 m ρ c main_arg5 : Vec Ideal S512x1 .f32) (ix2 o (0 : Fin 1)) = a5 m c (ix2 o (0 : Fin 1)) :=
  congrFun (w3_arg5 m ρ c) _
theorem v3_arg6 (c : Dev nD) (k : Fin 256) (o : Fin 512) :
    (V3 m ρ c main_arg6 : Vec Ideal S256x512 .f32) (ix2 k o) = a6 m c (ix2 k o) :=
  congrFun (w3_arg6 m ρ c) _
theorem v3_arg7 (c : Dev nD) (k : Fin 256) :
    (V3 m ρ c main_arg7 : Vec Ideal S256x1 .f32) (ix2 k (0 : Fin 1)) = a7 m c (ix2 k (0 : Fin 1)) :=
  congrFun (w3_arg7 m ρ c) _
theorem v3_arg8 (c : Dev nD) (t : Fin 9) (o : Fin 512) (k : Fin 256) :
    (V3 m ρ c main_arg8 : Vec Ideal S9x512x256 .f32) (ix3 t o k) = a8 m c (ix3 t o k) :=
  congrFun (w3_arg8 m ρ c) _
theorem v3_arg9 (c : Dev nD) (o : Fin 512) :
    (V3 m ρ c main_arg9 : Vec Ideal S512x1 .f32) (ix2 o (0 : Fin 1)) = a9 m c (ix2 o (0 : Fin 1)) :=
  congrFun (w3_arg9 m ρ c) _

end Cert.ReferenceIdeal.Val

end
-- ==== Proof.RMid.lean ====
/-
  The reference program between and after its two regions: the image reshaped [8,256,64,64] → [8,256,4096] before the
  normalisation region, the two gate arrays passed on as the gate region left them, and the result reshaped back.
-/
import proofs.«107153_g2000701298156354_pallasbulk_673_6_alg».proof.Proof.Gen.ReferenceIdeal.Frame
import proofs.«107153_g2000701298156354_pallasbulk_673_6_alg».proof.Proof.RArgs
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (m : (ℓ : Loc nD τ sig) → Buf (Elt Ideal) ℓ) (ρ : Dev nD → PrngReg)

/-- The image's buffer is none of the gate region's arrays and no host operation before that region writes it: at the
    gate region's exit it still holds the launch contents. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The flat position p of a 64 × 64 plane is row p / 64, column p % 64: both indices have the same row-major position. -/
theorem flat_pos (b : Fin 8) (ch : Fin 256) (p : Fin 4096) :
    (S8x256x64x64.rowMajor (ix4 b ch (⟨p.val / 64, by have := p.isLt; omega⟩ : Fin 64) (⟨p.val % 64, by omega⟩ : Fin 64))).val
      = (S8x256x4096.rowMajor (ix3 b ch p)).val := by
  rw [Shape.rowMajor_val_four, Shape.rowMajor_val_three]
  show ((b.val * 256 + ch.val) * 64 + p.val / 64) * 64 + p.val % 64 = (b.val * 256 + ch.val) * 4096 + p.val
  omega

/-- Row r, column q of the plane sits at flat position r * 64 + q. -/
theorem plane_pos (b : Fin 8) (ch : Fin 256) (r q : Fin 64) :
    (S8x256x4096.rowMajor (ix3 b ch (⟨r.val * 64 + q.val, by have := r.isLt; have := q.isLt; omega⟩ : Fin 4096))).val
      = (S8x256x64x64.rowMajor (ix4 b ch r q)).val := by
  rw [Shape.rowMajor_val_four, Shape.rowMajor_val_three]
  show (b.val * 256 + ch.val) * 4096 + (r.val * 64 + q.val) = ((b.val * 256 + ch.val) * 64 + r.val) * 64 + q.val
  omega

/-- The image as the normalisation region finds it: the 64 × 64 plane flattened row-major. -/
theorem v5_x (c : Dev nD) (b : Fin 8) (ch : Fin 256) (p : Fin 4096) :
    (V5 m ρ c main_v4 : Vec Ideal S8x256x4096 .f32) (ix3 b ch p)
      = aX m c (ix4 b ch (⟨p.val / 64, by have := p.isLt; omega⟩ : Fin 64) (⟨p.val % 64, by omega⟩ : Fin 64)) := by
  show StableHlo.after hostOps1 (W4 m ρ c) (Proc.devRef .tc main_v4) (ix3 b ch p) = _
  after_results
  show shapeCast S8x256x4096 (W4 m ρ c (Proc.devRef .tc main_arg0) : Vec Ideal S8x256x64x64 .f32)
    shapeCasts_S8x256x64x64_S8x256x4096 (ix3 b ch p) = _
  rw [W4_main_arg0]
  exact shapeCast_apply _ _ _ _ (flat_pos b ch p)

/-- The multiplicative gate as the normalisation region finds it: what the gate region's write-backs left. -/
theorem v5_gam (c : Dev nD) (b : Fin 8) (ch : Fin 256) :
    (V5 m ρ c main_v3_0 : Vec Ideal S8x256x1 .f32) (ix3 b ch (0 : Fin 1))
      = ((dat0 (V3 m ρ) c).arrAt 10 cfg0.N : Vec Ideal S8x256x1 .f32) (ix3 b ch (0 : Fin 1)) := by
  have h : W5 m ρ c (Proc.devRef .tc main_v3_0) = W4 m ρ c (Proc.devRef .tc main_v3_0) :=
    StableHlo.after_of_forall_not_mem (b := Proc.devRef .tc main_v3_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  exact congrFun (h.trans (W4_arr m ρ c 10)) (ix3 b ch (0 : Fin 1))

/-- The additive gate as the normalisation region finds it. -/
theorem v5_bet (c : Dev nD) (b : Fin 8) (ch : Fin 256) :
    (V5 m ρ c main_v3_1 : Vec Ideal S8x256x1 .f32) (ix3 b ch (0 : Fin 1))
      = ((dat0 (V3 m ρ) c).arrAt 11 cfg0.N : Vec Ideal S8x256x1 .f32) (ix3 b ch (0 : Fin 1)) := by
  have h : W5 m ρ c (Proc.devRef .tc main_v3_1) = W4 m ρ c (Proc.devRef .tc main_v3_1) :=
    StableHlo.after_of_forall_not_mem (b := Proc.devRef .tc main_v3_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  exact congrFun (h.trans (W4_arr m ρ c 11)) (ix3 b ch (0 : Fin 1))

/-- The result buffer after the last host operation: the normalisation region's result array with its flat axis cut
    back into the 64 × 64 plane. -/
theorem w7_res (c : Dev nD) (i : S8x256x64x64.Idx) :
    (W7 m ρ c (Proc.devRef .tc main_v6) : Vec Ideal S8x256x64x64 .f32) i
      = ((dat1 (V5 m ρ) c).arrAt 3 cfg1.N : Vec Ideal S8x256x4096 .f32)
          (ix3 (i 0) (i 1) (⟨(i 2).val * 64 + (i 3).val, by
            have h2 : (i 2).val < 64 := (i 2).isLt; have h3 : (i 3).val < 64 := (i 3).isLt; omega⟩ : Fin 4096)) := by
  show StableHlo.after hostOps2 (W6 m ρ c) (Proc.devRef .tc main_v6) i = _
  after_results
  show shapeCast S8x256x64x64 (W6 m ρ c (Proc.devRef .tc main_v5) : Vec Ideal S8x256x4096 .f32)
    shapeCasts_S8x256x4096_S8x256x64x64 i = _
  rw [show W6 m ρ c (Proc.devRef .tc main_v5) = (dat1 (V5 m ρ) c).arrAt 3 cfg1.N from W6_arr m ρ c 3]
  refine shapeCast_apply _ _ _ _ ?_
  exact (plane_pos (i 0) (i 1) (i 2) (i 3)).trans
    (congrArg (fun j : S8x256x64x64.Idx => (S8x256x64x64.rowMajor j).val) (eq_ix4 i).symm)

end Cert.ReferenceIdeal.Val

end
-- ==== Proof.RPayA.lean ====
/-
  The first three layers of the gate as the reference's body computes them for one batch: the 1×1 convolution with
  bias and ReLU; nine products, one per tap, of that tap's weight slice with the map read `off t` positions further
  on, added one after the other onto zero; bias, ReLU, scale; the second 1×1 convolution with bias and ReLU.
-/
import proofs.«107153_g2000701298156354_pallasbulk_673_6_alg».proof.Proof.Gen.ReferenceIdeal.Skeleton
import proofs.«107153_g2000701298156354_pallasbulk_673_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.ReferenceIdeal.Pay

open Cert.ReferenceIdeal Cert.ReferenceIdeal.Gen Cert.Spec

namespace Squeeze

/-! ## A plain matrix product read at an index -/

section Plain
variable (M K N : ℕ)

/-- The left operand's row coordinate is the result's row. -/
theorem plain_lhs_0 (j : (⟨2, ![M, N]⟩ : Shape).Idx) (k : (DotDims.plain M K N).contr.Idx) :
    ((DotDims.plain M K N).lhsIdx j k 0 : ℕ) = j 0 := rfl
/-- The left operand's column coordinate is the contraction position. -/
theorem plain_lhs_1 (j : (⟨2, ![M, N]⟩ : Shape).Idx) (k : (DotDims.plain M K N).contr.Idx) :
    ((DotDims.plain M K N).lhsIdx j k 1 : ℕ) = k ⟨0, Nat.one_pos⟩ := rfl
/-- The right operand's row coordinate is the contraction position. -/
theorem plain_rhs_0 (j : (⟨2, ![M, N]⟩ : Shape).Idx) (k : (DotDims.plain M K N).contr.Idx) :
    ((DotDims.plain M K N).rhsIdx j k 0 : ℕ) = k ⟨0, Nat.one_pos⟩ := rfl
/-- The right operand's column coordinate is the result's column. -/
theorem plain_rhs_1 (j : (⟨2, ![M, N]⟩ : Shape).Idx) (k : (DotDims.plain M K N).contr.Idx) :
    ((DotDims.plain M K N).rhsIdx j k 1 : ℕ) = j 1 := rfl

/-- An `M × K` by `K × N` product from a zero accumulator, at `(i, j)`, is the sum over `k` of the left operand at
    `(i, k)` times the right operand at `(k, j)`. -/
theorem plain_matmul_zero_apply (lhs : FVec Ideal ⟨2, ![M, K]⟩ .f32) (rhs : FVec Ideal ⟨2, ![K, N]⟩ .f32)
    (i : Fin M) (j : Fin N) :
    FloatOps.matmul (DotDims.plain M K N) none lhs rhs (constant (F := Ideal) ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2
  · exact Shape.idx_ext₂ (plain_lhs_0 M K N _ _) ((plain_lhs_1 M K N _ _).trans hk)
  · exact Shape.idx_ext₂ ((plain_rhs_0 M K N _ _).trans hk) (plain_rhs_1 M K N _ _)

end Plain

/-- A column `[a, 1]` broadcast along the rows of `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One tap's product: the weight slice `[1, 512, 256]` read as a matrix, times a `[256, 358]` map, from a zero
    accumulator, at `(o, j)`. -/
theorem tap_apply (w : FVec Ideal S1x512x256 .f32) (s : FVec Ideal S256x358 .f32) (o : Fin 512) (j : Fin 358) :
    matmul dot_S512x256_S256x358_S512x358_1_0_0_1_n_n none (shapeCast S512x256 w shapeCasts_S1x512x256_S512x256) s
        (constant (F := Ideal) S512x358 .f32 0x00000000#32) (ix2 o j)
      = ∑ k : Fin 256, w (ix3 (0 : Fin 1) o k) * s (ix2 k j) :=
  (plain_matmul_zero_apply 512 256 358 (shapeCast S512x256 w shapeCasts_S1x512x256_S512x256) s o j).trans
    (Finset.sum_congr rfl fun k _ => by rw [shapeCast_1ab_ab_apply])

/-- The first three taps added one after the other onto zero, at `(o, j)`. -/
theorem pay3_apply (w0 w1 w2 : FVec Ideal S1x512x256 .f32) (s0 s1 s2 : FVec Ideal S256x358 .f32) (o : Fin 512) (j : Fin 358) :
    k0_pay3 (F := Ideal) w0 s0 w1 s1 w2 s2 (ix2 o j)
      = ((0 + ∑ k : Fin 256, w0 (ix3 (0 : Fin 1) o k) * s0 (ix2 k j))
          + ∑ k : Fin 256, w1 (ix3 (0 : Fin 1) o k) * s1 (ix2 k j))
          + ∑ k : Fin 256, w2 (ix3 (0 : Fin 1) o k) * s2 (ix2 k j) := by
  unfold k0_pay3
  rw [addf_apply, addf_apply, addf_apply, tap_apply, tap_apply, tap_apply, broadcast_apply]
  exact congrArg (fun z : EReal => ((z + _) + _) + _) Ideal.ofBits_zero_f32

/-- Five more taps added one after the other onto an accumulator, at `(o, j)`. -/
theorem pay4_apply (acc : FVec Ideal S512x358 .f32) (w3 w4 w5 w6 w7 : FVec Ideal S1x512x256 .f32)
    (s3 s4 s5 s6 s7 : FVec Ideal S256x358 .f32) (o : Fin 512) (j : Fin 358) :
    k0_pay4 (F := Ideal) acc w3 s3 w4 s4 w5 s5 w6 s6 w7 s7 (ix2 o j)
      = ((((acc (ix2 o j) + ∑ k : Fin 256, w3 (ix3 (0 : Fin 1) o k) * s3 (ix2 k j))
          + ∑ k : Fin 256, w4 (ix3 (0 : Fin 1) o k) * s4 (ix2 k j))
          + ∑ k : Fin 256, w5 (ix3 (0 : Fin 1) o k) * s5 (ix2 k j))
          + ∑ k : Fin 256, w6 (ix3 (0 : Fin 1) o k) * s6 (ix2 k j))
          + ∑ k : Fin 256, w7 (ix3 (0 : Fin 1) o k) * s7 (ix2 k j) := by
  unfold k0_pay4
  rw [addf_apply, addf_apply, addf_apply, addf_apply, addf_apply, tap_apply, tap_apply, tap_apply, tap_apply, tap_apply]

/-- Nine terms added one after the other onto zero are their sum. -/
theorem nine_fold (f : Fin 9 → EReal) :
    ((((((((0 + f 0) + f 1) + f 2) + f 3) + f 4) + f 5) + f 6) + f 7) + f 8 = ∑ t : Fin 9, f t := by
  rw [zero_add, Fin.sum_univ_castSucc, Fin.sum_univ_eight]; rfl

end Squeeze

open Squeeze

/-- The payload `k0_pay2` (what the body stores in the first scratch, [256, 400]): the first squeeze of batch `b`. -/
theorem pay2_apply (I : Cert.Spec.GateIn) (b : Fin 8)
    (v0 : Vec Ideal S1x256x400 .f32) (v2 : Vec Ideal S256x256 .f32) (v4 : Vec Ideal S256x1 .f32)
    (h0 : ∀ (c : Fin 256) (j : Fin 400), v0 (ix3 (0 : Fin 1) c j) = I.zp b c j)
    (h2 : ∀ (k c : Fin 256), v2 (ix2 k c) = I.w1sq k c)
    (h4 : ∀ k : Fin 256, v4 (ix2 k (0 : Fin 1)) = I.b1sq k)
    (k : Fin 256) (j : Fin 400) :
    k0_pay2 (F := Ideal) v0 v2 v4 (ix2 k j) = I.s1 b k j := by
  unfold k0_pay2
  rw [shapeCast_self, maximumf_apply, addf_apply, broadcast_apply, broadcastTo_a1_ab_apply, h4]
  have hm : FloatOps.matmul (DotDims.plain 256 256 400) none v2 (shapeCast S256x400 v0 shapeCasts_S1x256x400_S256x400)
      (constant (F := Ideal) S256x400 .f32 0x00000000#32) (ix2 k j) = ∑ c : Fin 256, I.w1sq k c * I.zp b c j :=
    (plain_matmul_zero_apply 256 256 400 v2 _ k j).trans
      (Finset.sum_congr rfl fun c _ => by rw [h2, shapeCast_1ab_ab_apply, h0])
  exact congrArg (fun x => max (x + I.b1sq k) (lit 0x00000000#32)) hm

/-- The payload `k0_pay6` over the taps' partial sums `k0_pay3`, `k0_pay4` (what the body stores in the second
    scratch, [256, 358]): the second squeeze of batch `b`, given each tap's weight slice and each tap's shifted view
    of the first squeeze. -/
theorem pay6_apply (I : Cert.Spec.GateIn) (b : Fin 8)
    (w0 : Vec Ideal S1x512x256 .f32) (w1 : Vec Ideal S1x512x256 .f32) (w2 : Vec Ideal S1x512x256 .f32) (w3 : Vec Ideal S1x512x256 .f32) (w4 : Vec Ideal S1x512x256 .f32) (w5 : Vec Ideal S1x512x256 .f32) (w6 : Vec Ideal S1x512x256 .f32) (w7 : Vec Ideal S1x512x256 .f32) (w8 : Vec Ideal S1x512x256 .f32)
    (s0 : Vec Ideal S256x358 .f32) (s1 : Vec Ideal S256x358 .f32) (s2 : Vec Ideal S256x358 .f32) (s3 : Vec Ideal S256x358 .f32) (s4 : Vec Ideal S256x358 .f32) (s5 : Vec Ideal S256x358 .f32) (s6 : Vec Ideal S256x358 .f32) (s7 : Vec Ideal S256x358 .f32) (s8 : Vec Ideal S256x358 .f32)
    (v58 : Vec Ideal S512x1 .f32) (v65 : Vec Ideal S256x512 .f32) (v67 : Vec Ideal S256x1 .f32)
    (hw0 : ∀ (o : Fin 512) (k : Fin 256), w0 (ix3 (0 : Fin 1) o k) = I.w1ex (0 : Fin 9) o k)
    (hw1 : ∀ (o : Fin 512) (k : Fin 256), w1 (ix3 (0 : Fin 1) o k) = I.w1ex (1 : Fin 9) o k)
    (hw2 : ∀ (o : Fin 512) (k : Fin 256), w2 (ix3 (0 : Fin 1) o k) = I.w1ex (2 : Fin 9) o k)
    (hw3 : ∀ (o : Fin 512) (k : Fin 256), w3 (ix3 (0 : Fin 1) o k) = I.w1ex (3 : Fin 9) o k)
    (hw4 : ∀ (o : Fin 512) (k : Fin 256), w4 (ix3 (0 : Fin 1) o k) = I.w1ex (4 : Fin 9) o k)
    (hw5 : ∀ (o : Fin 512) (k : Fin 256), w5 (ix3 (0 : Fin 1) o k) = I.w1ex (5 : Fin 9) o k)
    (hw6 : ∀ (o : Fin 512) (k : Fin 256), w6 (ix3 (0 : Fin 1) o k) = I.w1ex (6 : Fin 9) o k)
    (hw7 : ∀ (o : Fin 512) (k : Fin 256), w7 (ix3 (0 : Fin 1) o k) = I.w1ex (7 : Fin 9) o k)
    (hw8 : ∀ (o : Fin 512) (k : Fin 256), w8 (ix3 (0 : Fin 1) o k) = I.w1ex (8 : Fin 9) o k)
    (hs0 : ∀ (k : Fin 256) (j : Fin 358), s0 (ix2 k j) = I.s1 b k ⟨j.val + off (0 : Fin 9), by have := off_le (0 : Fin 9); have := j.isLt; omega⟩)
    (hs1 : ∀ (k : Fin 256) (j : Fin 358), s1 (ix2 k j) = I.s1 b k ⟨j.val + off (1 : Fin 9), by have := off_le (1 : Fin 9); have := j.isLt; omega⟩)
    (hs2 : ∀ (k : Fin 256) (j : Fin 358), s2 (ix2 k j) = I.s1 b k ⟨j.val + off (2 : Fin 9), by have := off_le (2 : Fin 9); have := j.isLt; omega⟩)
    (hs3 : ∀ (k : Fin 256) (j : Fin 358), s3 (ix2 k j) = I.s1 b k ⟨j.val + off (3 : Fin 9), by have := off_le (3 : Fin 9); have := j.isLt; omega⟩)
    (hs4 : ∀ (k : Fin 256) (j : Fin 358), s4 (ix2 k j) = I.s1 b k ⟨j.val + off (4 : Fin 9), by have := off_le (4 : Fin 9); have := j.isLt; omega⟩)
    (hs5 : ∀ (k : Fin 256) (j : Fin 358), s5 (ix2 k j) = I.s1 b k ⟨j.val + off (5 : Fin 9), by have := off_le (5 : Fin 9); have := j.isLt; omega⟩)
    (hs6 : ∀ (k : Fin 256) (j : Fin 358), s6 (ix2 k j) = I.s1 b k ⟨j.val + off (6 : Fin 9), by have := off_le (6 : Fin 9); have := j.isLt; omega⟩)
    (hs7 : ∀ (k : Fin 256) (j : Fin 358), s7 (ix2 k j) = I.s1 b k ⟨j.val + off (7 : Fin 9), by have := off_le (7 : Fin 9); have := j.isLt; omega⟩)
    (hs8 : ∀ (k : Fin 256) (j : Fin 358), s8 (ix2 k j) = I.s1 b k ⟨j.val + off (8 : Fin 9), by have := off_le (8 : Fin 9); have := j.isLt; omega⟩)
    (h58 : ∀ o : Fin 512, v58 (ix2 o (0 : Fin 1)) = I.b1ex o)
    (h65 : ∀ (k : Fin 256) (o : Fin 512), v65 (ix2 k o) = I.w2sq k o)
    (h67 : ∀ k : Fin 256, v67 (ix2 k (0 : Fin 1)) = I.b2sq k)
    (k : Fin 256) (j : Fin 358) :
    k0_pay6 (F := Ideal)
        (k0_pay4 (F := Ideal) (k0_pay3 (F := Ideal) w0 s0 w1 s1 w2 s2) w3 s3 w4 s4 w5 s5 w6 s6 w7 s7)
        (k0_pay5 (F := Ideal) w8) s8 v58 v65 v67 (ix2 k j)
      = I.s2 b k j := by
  unfold k0_pay6 k0_pay5
  rw [shapeCast_self, maximumf_apply, addf_apply, broadcast_apply, broadcastTo_a1_ab_apply, h67]
  refine congrArg (fun x => max (x + I.b2sq k) (lit 0x00000000#32)) ?_
  refine (plain_matmul_zero_apply 256 512 358 v65 _ k j).trans (Finset.sum_congr rfl fun o _ => ?_)
  rw [h65]
  refine congrArg (fun x => I.w2sq k o * x) ?_
  rw [mulf_apply, broadcast_apply, maximumf_apply, broadcast_apply, addf_apply, broadcastTo_a1_ab_apply, h58, addf_apply]
  refine congrArg (fun x => lit 0x3F867D5F#32 * max (x + I.b1ex o) (lit 0x00000000#32)) ?_
  rw [pay4_apply, pay3_apply, tap_apply]
  simp only [hw0, hw1, hw2, hw3, hw4, hw5, hw6, hw7, hw8, hs0, hs1, hs2, hs3, hs4, hs5, hs6, hs7, hs8]
  exact nine_fold (fun t => ∑ k : Fin 256,
    I.w1ex t o k * I.s1 b k ⟨j.val + off t, by have := off_le t; have := j.isLt; omega⟩)

end Cert.ReferenceIdeal.Pay

end
-- ==== Proof.RPayB.lean ====
/-
  The gate's last layer and its mean as the reference's body computes them for one batch: nine products, one per
  tap, of that tap's weight slice with the second squeeze read `off t` positions further on, added one after the
  other onto zero; bias, ReLU; the product with the validity mask, the sum over the 316 flat positions scaled by 2⁻⁸;
  then 3 / (1 + e^(−m)) on the first 256 rows and the last 256 rows as they are.
-/
import proofs.«107153_g2000701298156354_pallasbulk_673_6_alg».proof.Proof.Gen.ReferenceIdeal.Skeleton
import proofs.«107153_g2000701298156354_pallasbulk_673_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.ReferenceIdeal.Pay

open Cert.ReferenceIdeal Cert.ReferenceIdeal.Gen Cert.Spec

/-! ## One tap's product read at an index -/

/-- Row coordinate of the left operand's index: the output's row. -/
theorem lhs_mm_0 (j : S512x316.Idx) (k : dot_S512x256_S256x316_S512x316_1_0_0_1_n_n.contr.Idx) :
    (dot_S512x256_S256x316_S512x316_1_0_0_1_n_n.lhsIdx j k 0 : ℕ) = j 0 := by
  simp [DotDims.lhsIdx, dot_S512x256_S256x316_S512x316_1_0_0_1_n_n]; rfl
/-- Column coordinate of the left operand's index: the contracted position. -/
theorem lhs_mm_1 (j : S512x316.Idx) (k : dot_S512x256_S256x316_S512x316_1_0_0_1_n_n.contr.Idx) :
    (dot_S512x256_S256x316_S512x316_1_0_0_1_n_n.lhsIdx j k 1 : ℕ) = k ⟨0, by decide⟩ := by
  simp [DotDims.lhsIdx, dot_S512x256_S256x316_S512x316_1_0_0_1_n_n]; rfl
/-- Row coordinate of the right operand's index: the contracted position. -/
theorem rhs_mm_0 (j : S512x316.Idx) (k : dot_S512x256_S256x316_S512x316_1_0_0_1_n_n.contr.Idx) :
    (dot_S512x256_S256x316_S512x316_1_0_0_1_n_n.rhsIdx j k 0 : ℕ) = k ⟨0, by decide⟩ := by
  simp [DotDims.rhsIdx, dot_S512x256_S256x316_S512x316_1_0_0_1_n_n]; rfl
/-- Column coordinate of the right operand's index: the output's column. -/
theorem rhs_mm_1 (j : S512x316.Idx) (k : dot_S512x256_S256x316_S512x316_1_0_0_1_n_n.contr.Idx) :
    (dot_S512x256_S256x316_S512x316_1_0_0_1_n_n.rhsIdx j k 1 : ℕ) = j 1 := by
  simp [DotDims.rhsIdx, dot_S512x256_S256x316_S512x316_1_0_0_1_n_n]; rfl

/-- A [512, 256] by [256, 316] product onto the zero accumulator, at (o, j): the sum over the 256 contracted positions. -/
theorem mm_apply (A : FVec Ideal S512x256 .f32) (B : FVec Ideal S256x316 .f32) (o : Fin 512) (j : Fin 316) :
    matmul dot_S512x256_S256x316_S512x316_1_0_0_1_n_n none A B (constant (F := Ideal) S512x316 .f32 0x00000000#32) (ix2 o j)
      = ∑ k : Fin 256, A (ix2 o k) * B (ix2 k j) := by
  show FloatOps.matmul _ none A B _ (ix2 o j) = _
  rw [Ideal.matmul_constant_zero_apply,
    ← Equiv.sum_comp (contrEquiv1 dot_S512x256_S256x316_S512x316_1_0_0_1_n_n 256 rfl rfl).symm]
  refine Finset.sum_congr rfl fun c _ => ?_
  have hc := contrEquiv1_symm_val dot_S512x256_S256x316_S512x316_1_0_0_1_n_n 256 rfl rfl c
  have hl : dot_S512x256_S256x316_S512x316_1_0_0_1_n_n.lhsIdx (ix2 o j)
      ((contrEquiv1 dot_S512x256_S256x316_S512x316_1_0_0_1_n_n 256 rfl rfl).symm c) = ix2 o c := by
    funext ax; apply Fin.ext
    match ax with
    | ⟨0, _⟩ => exact lhs_mm_0 _ _
    | ⟨1, _⟩ => exact (lhs_mm_1 _ _).trans hc
  have hr : dot_S512x256_S256x316_S512x316_1_0_0_1_n_n.rhsIdx (ix2 o j)
      ((contrEquiv1 dot_S512x256_S256x316_S512x316_1_0_0_1_n_n 256 rfl rfl).symm c) = ix2 c j := by
    funext ax; apply Fin.ext
    match ax with
    | ⟨0, _⟩ => exact (rhs_mm_0 _ _).trans hc
    | ⟨1, _⟩ => exact rhs_mm_1 _ _
  rw [hl, hr]

/-! ## Layout operations at the shapes met here -/

/-- A vector of length `a` cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 316 columns of a [512, 316] array, at row o. -/
theorem rowsum_apply (v : FVec Ideal S512x316 .f32) (h : S512x316.Reduces [1] S512) (hφ : FKind.Formats .f32)
    (hacc : (0x00000000#32 : BitVec 32) = FKind.add.neutral .f32 hφ) (o : Fin 512) :
    multiReduction (F := Ideal) .add [1] S512 v 0x00000000#32 h hφ hacc (ix1 o) = ∑ j : Fin 316, v (ix2 o j) := by
  refine (Ideal.multiReduction_add_single v 0x00000000#32 h hφ hacc (ix1 o)).trans ?_
  refine Finset.sum_congr rfl fun j _ => congrArg v ?_
  funext ax; apply Fin.ext
  match ax with
  | ⟨0, _⟩ => rfl
  | ⟨1, _⟩ => rfl

/-! ## The nine taps -/

/-- Tap t's share of the last layer at (o, j): its weight slice against the second squeeze read `off t` further on. -/
def tap (I : Cert.Spec.GateIn) (b : Fin 8) (o : Fin 512) (j : Fin 316) (t : Fin 9) : EReal :=
  ∑ k : Fin 256, I.w2ex t o k * I.s2 b k ⟨j.val + off t, by have := off_le t; have := j.isLt; omega⟩

theorem gpre_eq_taps (I : Cert.Spec.GateIn) (b : Fin 8) (o : Fin 512) (j : Fin 316) :
    I.gpre b o j = (∑ t : Fin 9, tap I b o j t) + I.b2ex o := rfl

/-- One tap's product of the cast weight slice and the shifted squeeze, at (o, j). -/
theorem tap_apply (I : Cert.Spec.GateIn) (b : Fin 8) (t : Fin 9) (w : Vec Ideal S1x512x256 .f32) (s : Vec Ideal S256x316 .f32)
    (hw : ∀ (o : Fin 512) (k : Fin 256), w (ix3 (0 : Fin 1) o k) = I.w2ex t o k)
    (hs : ∀ (k : Fin 256) (j : Fin 316), s (ix2 k j) = I.s2 b k ⟨j.val + off t, by have := off_le t; have := j.isLt; omega⟩)
    (o : Fin 512) (j : Fin 316) :
    matmul (φ₁ := .f32) (φ₂ := .f32) dot_S512x256_S256x316_S512x316_1_0_0_1_n_n none (shapeCast S512x256 w shapeCasts_S1x512x256_S512x256) s
        (constant (F := Ideal) S512x316 .f32 0x00000000#32) (ix2 o j) = tap I b o j t := by
  refine (mm_apply _ _ o j).trans ?_
  refine Finset.sum_congr rfl fun k _ => ?_
  rw [shapeCast_1ab_ab_apply, hw, hs]

/-- An accumulator plus one tap's product, at (o, j). -/
theorem step_apply (I : Cert.Spec.GateIn) (b : Fin 8) (t : Fin 9) (acc : FVec Ideal S512x316 .f32)
    (w : Vec Ideal S1x512x256 .f32) (s : Vec Ideal S256x316 .f32)
    (hw : ∀ (o : Fin 512) (k : Fin 256), w (ix3 (0 : Fin 1) o k) = I.w2ex t o k)
    (hs : ∀ (k : Fin 256) (j : Fin 316), s (ix2 k j) = I.s2 b k ⟨j.val + off t, by have := off_le t; have := j.isLt; omega⟩)
    (o : Fin 512) (j : Fin 316) :
    addf acc (matmul (φ₁ := .f32) (φ₂ := .f32) dot_S512x256_S256x316_S512x316_1_0_0_1_n_n none (shapeCast S512x256 w shapeCasts_S1x512x256_S512x256) s
        (constant (F := Ideal) S512x316 .f32 0x00000000#32)) (ix2 o j) = acc (ix2 o j) + tap I b o j t := by
  rw [addf_apply, tap_apply I b t w s hw hs]

/-- Nine terms added one after the other onto zero are the sum over the nine. -/
theorem sum_nine (f : Fin 9 → EReal) :
    ((((((((0 + f 0) + f 1) + f 2) + f 3) + f 4) + f 5) + f 6) + f 7) + f 8 = ∑ t : Fin 9, f t := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

/-! ## The partial sums at an index -/

/-- The first two taps added onto zero, at (o, j). -/
theorem pay7_at (I : Cert.Spec.GateIn) (b : Fin 8) (w0 : Vec Ideal S1x512x256 .f32) (s0 : Vec Ideal S256x316 .f32) (w1 : Vec Ideal S1x512x256 .f32) (s1 : Vec Ideal S256x316 .f32)
    (hw0 : ∀ (o : Fin 512) (k : Fin 256), w0 (ix3 (0 : Fin 1) o k) = I.w2ex (0 : Fin 9) o k)
    (hs0 : ∀ (k : Fin 256) (j : Fin 316), s0 (ix2 k j) = I.s2 b k ⟨j.val + off (0 : Fin 9), by have := off_le (0 : Fin 9); have := j.isLt; omega⟩)
    (hw1 : ∀ (o : Fin 512) (k : Fin 256), w1 (ix3 (0 : Fin 1) o k) = I.w2ex (1 : Fin 9) o k)
    (hs1 : ∀ (k : Fin 256) (j : Fin 316), s1 (ix2 k j) = I.s2 b k ⟨j.val + off (1 : Fin 9), by have := off_le (1 : Fin 9); have := j.isLt; omega⟩)
    (o : Fin 512) (j : Fin 316) :
    k0_pay7 (F := Ideal) w0 s0 w1 s1 (ix2 o j) = (0 + tap I b o j 0) + tap I b o j 1 := by
  unfold k0_pay7
  refine (step_apply I b 1 _ w1 s1 hw1 hs1 o j).trans ?_
  refine congrArg (· + tap I b o j 1) ?_
  refine (step_apply I b 0 _ w0 s0 hw0 hs0 o j).trans ?_
  refine congrArg (· + tap I b o j 0) ?_
  show Ideal.ofBits .f32 0x00000000#32 = 0
  exact Ideal.ofBits_zero_f32

/-- Taps 2 to 6 added onto an accumulator, at (o, j). -/
theorem pay8_at (I : Cert.Spec.GateIn) (b : Fin 8) (acc : FVec Ideal S512x316 .f32) (w2 : Vec Ideal S1x512x256 .f32) (s2 : Vec Ideal S256x316 .f32) (w3 : Vec Ideal S1x512x256 .f32) (s3 : Vec Ideal S256x316 .f32) (w4 : Vec Ideal S1x512x256 .f32) (s4 : Vec Ideal S256x316 .f32) (w5 : Vec Ideal S1x512x256 .f32) (s5 : Vec Ideal S256x316 .f32) (w6 : Vec Ideal S1x512x256 .f32) (s6 : Vec Ideal S256x316 .f32)
    (hw2 : ∀ (o : Fin 512) (k : Fin 256), w2 (ix3 (0 : Fin 1) o k) = I.w2ex (2 : Fin 9) o k)
    (hs2 : ∀ (k : Fin 256) (j : Fin 316), s2 (ix2 k j) = I.s2 b k ⟨j.val + off (2 : Fin 9), by have := off_le (2 : Fin 9); have := j.isLt; omega⟩)
    (hw3 : ∀ (o : Fin 512) (k : Fin 256), w3 (ix3 (0 : Fin 1) o k) = I.w2ex (3 : Fin 9) o k)
    (hs3 : ∀ (k : Fin 256) (j : Fin 316), s3 (ix2 k j) = I.s2 b k ⟨j.val + off (3 : Fin 9), by have := off_le (3 : Fin 9); have := j.isLt; omega⟩)
    (hw4 : ∀ (o : Fin 512) (k : Fin 256), w4 (ix3 (0 : Fin 1) o k) = I.w2ex (4 : Fin 9) o k)
    (hs4 : ∀ (k : Fin 256) (j : Fin 316), s4 (ix2 k j) = I.s2 b k ⟨j.val + off (4 : Fin 9), by have := off_le (4 : Fin 9); have := j.isLt; omega⟩)
    (hw5 : ∀ (o : Fin 512) (k : Fin 256), w5 (ix3 (0 : Fin 1) o k) = I.w2ex (5 : Fin 9) o k)
    (hs5 : ∀ (k : Fin 256) (j : Fin 316), s5 (ix2 k j) = I.s2 b k ⟨j.val + off (5 : Fin 9), by have := off_le (5 : Fin 9); have := j.isLt; omega⟩)
    (hw6 : ∀ (o : Fin 512) (k : Fin 256), w6 (ix3 (0 : Fin 1) o k) = I.w2ex (6 : Fin 9) o k)
    (hs6 : ∀ (k : Fin 256) (j : Fin 316), s6 (ix2 k j) = I.s2 b k ⟨j.val + off (6 : Fin 9), by have := off_le (6 : Fin 9); have := j.isLt; omega⟩)
    (o : Fin 512) (j : Fin 316) :
    k0_pay8 (F := Ideal) acc w2 s2 w3 s3 w4 s4 w5 s5 w6 s6 (ix2 o j)
      = ((((acc (ix2 o j) + tap I b o j 2) + tap I b o j 3) + tap I b o j 4) + tap I b o j 5) + tap I b o j 6 := by
  unfold k0_pay8
  refine (step_apply I b 6 _ w6 s6 hw6 hs6 o j).trans ?_
  refine congrArg (· + tap I b o j 6) ?_
  refine (step_apply I b 5 _ w5 s5 hw5 hs5 o j).trans ?_
  refine congrArg (· + tap I b o j 5) ?_
  refine (step_apply I b 4 _ w4 s4 hw4 hs4 o j).trans ?_
  refine congrArg (· + tap I b o j 4) ?_
  refine (step_apply I b 3 _ w3 s3 hw3 hs3 o j).trans ?_
  refine congrArg (· + tap I b o j 3) ?_
  exact step_apply I b 2 _ w2 s2 hw2 hs2 o j

/-! ## The masked mean -/

/-- The masked mean of row o, from an accumulator that already holds the first seven taps: the last two taps, the bias,
    the ReLU, the mask, the sum over the 316 flat positions, the scale. -/
theorem pay10_at (I : Cert.Spec.GateIn) (b : Fin 8) (acc : FVec Ideal S512x316 .f32) (w7 : Vec Ideal S1x512x256 .f32) (s7 : Vec Ideal S256x316 .f32) (w8 : Vec Ideal S1x512x256 .f32) (s8 : Vec Ideal S256x316 .f32)
    (v121 : Vec Ideal S512x1 .f32) (v126 : Vec Ideal S1x316 .f32)
    (hw7 : ∀ (o : Fin 512) (k : Fin 256), w7 (ix3 (0 : Fin 1) o k) = I.w2ex (7 : Fin 9) o k)
    (hs7 : ∀ (k : Fin 256) (j : Fin 316), s7 (ix2 k j) = I.s2 b k ⟨j.val + off (7 : Fin 9), by have := off_le (7 : Fin 9); have := j.isLt; omega⟩)
    (hw8 : ∀ (o : Fin 512) (k : Fin 256), w8 (ix3 (0 : Fin 1) o k) = I.w2ex (8 : Fin 9) o k)
    (hs8 : ∀ (k : Fin 256) (j : Fin 316), s8 (ix2 k j) = I.s2 b k ⟨j.val + off (8 : Fin 9), by have := off_le (8 : Fin 9); have := j.isLt; omega⟩)
    (h121 : ∀ o : Fin 512, v121 (ix2 o (0 : Fin 1)) = I.b2ex o)
    (h126 : ∀ j : Fin 316, v126 (ix2 (0 : Fin 1) j) = Cert.Spec.mask j)
    (o : Fin 512) :
    k0_pay10 (F := Ideal) acc (k0_pay9 (F := Ideal) w7) s7 w8 s8 v121 v126 (ix2 o (0 : Fin 1))
      = (∑ j : Fin 316, max (((acc (ix2 o j) + tap I b o j 7) + tap I b o j 8) + I.b2ex o) (lit 0x00000000#32) * mask j)
          * lit 0x3B800000#32 := by
  unfold k0_pay10 k0_pay9
  refine (mulf_apply _ _ _).trans ?_
  refine congrArg₂ (· * ·) ?_ rfl
  refine (shapeCast_a_a1_apply _ _ o 0).trans ?_
  refine (rowsum_apply _ _ _ _ o).trans ?_
  refine Finset.sum_congr rfl fun j _ => ?_
  refine (mulf_apply _ _ _).trans ?_
  refine congrArg₂ (· * ·) ?_ ?_
  · refine (maximumf_apply _ _ _).trans ?_
    refine congrArg₂ max ?_ rfl
    refine (addf_apply _ _ _).trans ?_
    refine congrArg₂ (· + ·) ?_ ?_
    · refine (step_apply I b 8 _ w8 s8 hw8 hs8 o j).trans ?_
      refine congrArg (· + tap I b o j 8) ?_
      exact step_apply I b 7 _ w7 s7 hw7 hs7 o j
    · exact (broadcastTo_a1_ab_apply _ _ o j).trans (h121 o)
  · exact (broadcastTo_1b_ab_apply _ _ o j).trans ((congrFun (shapeCast_self v126 _) _).trans (h126 j))

section
variable (I : Cert.Spec.GateIn) (b : Fin 8)
    (w0 : Vec Ideal S1x512x256 .f32) (w1 : Vec Ideal S1x512x256 .f32) (w2 : Vec Ideal S1x512x256 .f32) (w3 : Vec Ideal S1x512x256 .f32) (w4 : Vec Ideal S1x512x256 .f32) (w5 : Vec Ideal S1x512x256 .f32) (w6 : Vec Ideal S1x512x256 .f32) (w7 : Vec Ideal S1x512x256 .f32) (w8 : Vec Ideal S1x512x256 .f32)
    (s0 : Vec Ideal S256x316 .f32) (s1 : Vec Ideal S256x316 .f32) (s2 : Vec Ideal S256x316 .f32) (s3 : Vec Ideal S256x316 .f32) (s4 : Vec Ideal S256x316 .f32) (s5 : Vec Ideal S256x316 .f32) (s6 : Vec Ideal S256x316 .f32) (s7 : Vec Ideal S256x316 .f32) (s8 : Vec Ideal S256x316 .f32)
    (v121 : Vec Ideal S512x1 .f32) (v126 : Vec Ideal S1x316 .f32)
    (hw0 : ∀ (o : Fin 512) (k : Fin 256), w0 (ix3 (0 : Fin 1) o k) = I.w2ex (0 : Fin 9) o k)
    (hw1 : ∀ (o : Fin 512) (k : Fin 256), w1 (ix3 (0 : Fin 1) o k) = I.w2ex (1 : Fin 9) o k)
    (hw2 : ∀ (o : Fin 512) (k : Fin 256), w2 (ix3 (0 : Fin 1) o k) = I.w2ex (2 : Fin 9) o k)
    (hw3 : ∀ (o : Fin 512) (k : Fin 256), w3 (ix3 (0 : Fin 1) o k) = I.w2ex (3 : Fin 9) o k)
    (hw4 : ∀ (o : Fin 512) (k : Fin 256), w4 (ix3 (0 : Fin 1) o k) = I.w2ex (4 : Fin 9) o k)
    (hw5 : ∀ (o : Fin 512) (k : Fin 256), w5 (ix3 (0 : Fin 1) o k) = I.w2ex (5 : Fin 9) o k)
    (hw6 : ∀ (o : Fin 512) (k : Fin 256), w6 (ix3 (0 : Fin 1) o k) = I.w2ex (6 : Fin 9) o k)
    (hw7 : ∀ (o : Fin 512) (k : Fin 256), w7 (ix3 (0 : Fin 1) o k) = I.w2ex (7 : Fin 9) o k)
    (hw8 : ∀ (o : Fin 512) (k : Fin 256), w8 (ix3 (0 : Fin 1) o k) = I.w2ex (8 : Fin 9) o k)
    (hs0 : ∀ (k : Fin 256) (j : Fin 316), s0 (ix2 k j) = I.s2 b k ⟨j.val + off (0 : Fin 9), by have := off_le (0 : Fin 9); have := j.isLt; omega⟩)
    (hs1 : ∀ (k : Fin 256) (j : Fin 316), s1 (ix2 k j) = I.s2 b k ⟨j.val + off (1 : Fin 9), by have := off_le (1 : Fin 9); have := j.isLt; omega⟩)
    (hs2 : ∀ (k : Fin 256) (j : Fin 316), s2 (ix2 k j) = I.s2 b k ⟨j.val + off (2 : Fin 9), by have := off_le (2 : Fin 9); have := j.isLt; omega⟩)
    (hs3 : ∀ (k : Fin 256) (j : Fin 316), s3 (ix2 k j) = I.s2 b k ⟨j.val + off (3 : Fin 9), by have := off_le (3 : Fin 9); have := j.isLt; omega⟩)
    (hs4 : ∀ (k : Fin 256) (j : Fin 316), s4 (ix2 k j) = I.s2 b k ⟨j.val + off (4 : Fin 9), by have := off_le (4 : Fin 9); have := j.isLt; omega⟩)
    (hs5 : ∀ (k : Fin 256) (j : Fin 316), s5 (ix2 k j) = I.s2 b k ⟨j.val + off (5 : Fin 9), by have := off_le (5 : Fin 9); have := j.isLt; omega⟩)
    (hs6 : ∀ (k : Fin 256) (j : Fin 316), s6 (ix2 k j) = I.s2 b k ⟨j.val + off (6 : Fin 9), by have := off_le (6 : Fin 9); have := j.isLt; omega⟩)
    (hs7 : ∀ (k : Fin 256) (j : Fin 316), s7 (ix2 k j) = I.s2 b k ⟨j.val + off (7 : Fin 9), by have := off_le (7 : Fin 9); have := j.isLt; omega⟩)
    (hs8 : ∀ (k : Fin 256) (j : Fin 316), s8 (ix2 k j) = I.s2 b k ⟨j.val + off (8 : Fin 9), by have := off_le (8 : Fin 9); have := j.isLt; omega⟩)
    (h121 : ∀ o : Fin 512, v121 (ix2 o (0 : Fin 1)) = I.b2ex o)
    (h126 : ∀ j : Fin 316, v126 (ix2 (0 : Fin 1) j) = Cert.Spec.mask j)
include hw0 hw1 hw2 hw3 hw4 hw5 hw6 hw7 hw8 hs0 hs1 hs2 hs3 hs4 hs5 hs6 hs7 hs8 h121 h126

/-- The payload `k0_pay10` (the masked means, [512, 1]) over the taps' partial sums `k0_pay7`, `k0_pay8`. -/
theorem pay10_apply (o : Fin 512) :
    k0_pay10 (F := Ideal) (k0_pay8 (F := Ideal) (k0_pay7 (F := Ideal) w0 s0 w1 s1) w2 s2 w3 s3 w4 s4 w5 s5 w6 s6)
        (k0_pay9 (F := Ideal) w7) s7 w8 s8 v121 v126 (ix2 o (0 : Fin 1)) = I.means b o := by
  refine (pay10_at I b _ w7 s7 w8 s8 v121 v126 hw7 hs7 hw8 hs8 h121 h126 o).trans ?_
  unfold Cert.Spec.GateIn.means
  refine congrArg (· * lit 0x3B800000#32) ?_
  refine Finset.sum_congr rfl fun j _ => ?_
  refine congrArg (· * mask j) ?_
  unfold Cert.Spec.GateIn.g
  refine congrArg (max · (lit 0x00000000#32)) ?_
  rw [gpre_eq_taps]
  refine congrArg (· + I.b2ex o) ?_
  rw [pay8_at I b _ w2 s2 w3 s3 w4 s4 w5 s5 w6 s6 hw2 hs2 hw3 hs3 hw4 hs4 hw5 hs5 hw6 hs6 o j,
    pay7_at I b w0 s0 w1 s1 hw0 hs0 hw1 hs1 o j]
  exact sum_nine (tap I b o j)

/-- The payload `k0_pay11` (what the body stores in the first result's block): the multiplicative gate of batch `b`. -/
theorem pay11_apply (c : Fin 256) :
    k0_pay11 (F := Ideal) (k0_pay8 (F := Ideal) (k0_pay7 (F := Ideal) w0 s0 w1 s1) w2 s2 w3 s3 w4 s4 w5 s5 w6 s6)
        (k0_pay9 (F := Ideal) w7) s7 w8 s8 v121 v126 (ix3 (0 : Fin 1) c (0 : Fin 1)) = I.gamma b c := by
  unfold k0_pay11
  refine (shapeCast_ab_1ab_apply _ _ (0 : Fin 1) c (0 : Fin 1)).trans ?_
  refine (divf_apply _ _ _).trans ?_
  unfold Cert.Spec.GateIn.gamma
  refine congrArg₂ Ideal.div rfl ?_
  refine (addf_apply _ _ _).trans ?_
  refine congrArg₂ (· + ·) rfl ?_
  show Ideal.exp _ = _
  refine congrArg Ideal.exp ?_
  refine (subf_apply _ _ _).trans ?_
  refine congrArg₂ (· - ·) rfl ?_
  refine (slice2_axis0_apply 0 _ _ c (0 : Fin 1) (⟨c.val, by have := c.isLt; omega⟩ : Fin 512) (Nat.zero_add _).symm).trans ?_
  exact pay10_apply I b w0 w1 w2 w3 w4 w5 w6 w7 w8 s0 s1 s2 s3 s4 s5 s6 s7 s8 v121 v126 hw0 hw1 hw2 hw3 hw4 hw5 hw6 hw7 hw8 hs0 hs1 hs2 hs3 hs4 hs5 hs6 hs7 hs8 h121 h126 ⟨c.val, by have := c.isLt; omega⟩

/-- The payload `k0_pay1` of `k0_pay12` (what the body stores in the second result's block): the additive gate of
    batch `b`. -/
theorem pay1_apply (c : Fin 256) :
    k0_pay1 (F := Ideal) (k0_pay12 (F := Ideal) (k0_pay8 (F := Ideal) (k0_pay7 (F := Ideal) w0 s0 w1 s1) w2 s2 w3 s3 w4 s4 w5 s5 w6 s6)
        (k0_pay9 (F := Ideal) w7) s7 w8 s8 v121 v126) (ix3 (0 : Fin 1) c (0 : Fin 1)) = I.beta b c := by
  unfold k0_pay1 k0_pay12
  refine (shapeCast_ab_1ab_apply _ _ (0 : Fin 1) c (0 : Fin 1)).trans ?_
  refine (slice2_axis0_apply 256 _ _ c (0 : Fin 1) (⟨c.val + 256, by have := c.isLt; omega⟩ : Fin 512) (Nat.add_comm _ _)).trans ?_
  exact pay10_apply I b w0 w1 w2 w3 w4 w5 w6 w7 w8 s0 s1 s2 s3 s4 s5 s6 s7 s8 v121 v126 hw0 hw1 hw2 hw3 hw4 hw5 hw6 hw7 hw8 hs0 hs1 hs2 hs3 hs4 hs5 hs6 hs7 hs8 h121 h126 ⟨c.val + 256, by have := c.isLt; omega⟩
end

end Cert.ReferenceIdeal.Pay

end
-- ==== Proof.RGateArr.lean ====
/-
  The geometry of the reference program's gate region: eight grid points, point b reads block b of the padded map
  ([1, 256, 400] at (b, 0, 0)), the whole of the mask and of the eight parameter arrays, and writes block b
  ([1, 256, 1] at (b, 0, 0)) of each of the two [8, 256, 1] result arrays. So each input block is the array read at the
  point's batch, and the result arrays after the region hold, row by row, what each point's body left.
-/
import proofs.«107153_g2000701298156354_pallasbulk_673_6_alg».proof.Proof.Gen.ReferenceIdeal.Frame

import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (V : (c : Dev nD) → (b : Ref sig .tc) → Buf (Elt Ideal) ((c : Thread nD τ).loc b))

/-- The grid point as a batch index. -/
theorem pt_lt (t : Fin cfg0.N) : t.val < 8 := by
  have h : cfg0.N = 8 := N_0
  have := t.isLt; omega

/-- Window 0's block index at point t is (t, 0, 0). -/
theorem idx0_0 : ∀ t : Fin cfg0.N, win0_0.index t (0 : Fin 3) = t.val ∧ win0_0.index t (1 : Fin 3) = 0
    ∧ win0_0.index t (2 : Fin 3) = 0 :=
  (by decide +kernel : ∀ t : Fin grid0.N, _)

/-- Window 1's block index is (0, 0) at every point. -/
theorem idx0_1 : ∀ t : Fin cfg0.N, win0_1.index t (0 : Fin 2) = 0 ∧ win0_1.index t (1 : Fin 2) = 0 :=
  (by decide +kernel : ∀ t : Fin grid0.N, _)

/-- Window 0's block at point `t` is batch `t` of the padded map. -/
theorem iblk0_0_apply (c : Dev nD) (t : Fin cfg0.N) (ch : Fin 256) (j : Fin 400) :
    (iblk0 V c 0 t : Vec Ideal S1x256x400 .f32) (ix3 (0 : Fin 1) ch j)
      = (V c main_v1 : Vec Ideal S8x256x400 .f32) (ix3 (⟨t.val, pt_lt t⟩ : Fin 8) ch j) := by
  obtain ⟨e0, e1, e2⟩ := idx0_0 t
  unfold iblk0
  rw [View.read_apply]
  show V c main_v1 _ = V c main_v1 _
  congr 1
  funext a
  apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 400 + 1 * j.val = j.val; omega

/-- Windows 1 to 9 stage their whole arrays at every point. -/
theorem iblk0_1_eq (c : Dev nD) (t : Fin cfg0.N) : (iblk0 V c 1 t : Vec Ideal S1x316 .f32) = V c main_v2 := by
  obtain ⟨e0, e1⟩ := idx0_1 t
  funext x
  unfold iblk0
  rw [View.read_apply]
  show V c main_v2 _ = V c main_v2 x
  congr 1
  funext a
  apply Fin.ext
  match a with
  | ⟨0, _⟩ => show win0_1.index t (0 : Fin 2) * 1 + 1 * (x 0).val = (x 0).val; omega
  | ⟨1, _⟩ => show win0_1.index t (1 : Fin 2) * 316 + 1 * (x 1).val = (x 1).val; omega

/-- Window 2's block index is zero on every axis at every point. -/
theorem idx0_2 : ∀ t : Fin cfg0.N, win0_2.index t (0 : Fin 2) = 0 ∧ win0_2.index t (1 : Fin 2) = 0 :=
  (by decide +kernel : ∀ t : Fin grid0.N, _)

/-- Window 3's block index is zero on every axis at every point. -/
theorem idx0_3 : ∀ t : Fin cfg0.N, win0_3.index t (0 : Fin 2) = 0 ∧ win0_3.index t (1 : Fin 2) = 0 :=
  (by decide +kernel : ∀ t : Fin grid0.N, _)

/-- Window 4's block index is zero on every axis at every point. -/
theorem idx0_4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 5's block index is zero on every axis at every point. -/
theorem idx0_5 : ∀ t : Fin cfg0.N, win0_5.index t (0 : Fin 2) = 0 ∧ win0_5.index t (1 : Fin 2) = 0 :=
  (by decide +kernel : ∀ t : Fin grid0.N, _)

/-- Window 6's block index is zero on every axis at every point. -/
theorem idx0_6 : ∀ t : Fin cfg0.N, win0_6.index t (0 : Fin 2) = 0 ∧ win0_6.index t (1 : Fin 2) = 0 :=
  (by decide +kernel : ∀ t : Fin grid0.N, _)

/-- Window 7's block index is zero on every axis at every point. -/
theorem idx0_7 : ∀ t : Fin cfg0.N, win0_7.index t (0 : Fin 2) = 0 ∧ win0_7.index t (1 : Fin 2) = 0 :=
  (by decide +kernel : ∀ t : Fin grid0.N, _)

/-- Window 8's block index is zero on every axis at every point. -/
theorem idx0_8 : ∀ t : Fin cfg0.N, win0_8.index t (0 : Fin 3) = 0 ∧ win0_8.index t (1 : Fin 3) = 0 ∧ win0_8.index t (2 : Fin 3) = 0 :=
  (by decide +kernel : ∀ t : Fin grid0.N, _)

/-- Window 9's block index is zero on every axis at every point. -/
theorem idx0_9 : ∀ t : Fin cfg0.N, win0_9.index t (0 : Fin 2) = 0 ∧ win0_9.index t (1 : Fin 2) = 0 :=
  (by decide +kernel : ∀ t : Fin grid0.N, _)

theorem iblk0_2_eq (c : Dev nD) (t : Fin cfg0.N) : (iblk0 V c 2 t : Vec Ideal S256x256 .f32) = V c main_arg2 := by
  obtain ⟨e0, e1⟩ := idx0_2 t
  funext x
  unfold iblk0
  rw [View.read_apply]
  show V c main_arg2 _ = V c main_arg2 x
  congr 1
  funext a
  apply Fin.ext
  match a with
  | ⟨0, _⟩ => show win0_2.index t (0 : Fin 2) * 256 + 1 * (x 0).val = (x 0).val; omega
  | ⟨1, _⟩ => show win0_2.index t (1 : Fin 2) * 256 + 1 * (x 1).val = (x 1).val; omega
theorem iblk0_3_eq (c : Dev nD) (t : Fin cfg0.N) : (iblk0 V c 3 t : Vec Ideal S256x1 .f32) = V c main_arg3 := by
  obtain ⟨e0, e1⟩ := idx0_3 t
  funext x
  unfold iblk0
  rw [View.read_apply]
  show V c main_arg3 _ = V c main_arg3 x
  congr 1
  funext a
  apply Fin.ext
  match a with
  | ⟨0, _⟩ => show win0_3.index t (0 : Fin 2) * 256 + 1 * (x 0).val = (x 0).val; omega
  | ⟨1, _⟩ => show win0_3.index t (1 : Fin 2) * 1 + 1 * (x 1).val = (x 1).val; omega
theorem iblk0_4_eq (c : Dev nD) (t : Fin cfg0.N) : (iblk0 V c 4 t : Vec Ideal S9x512x256 .f32) = V c main_arg4 := by
  obtain ⟨e0, e1, e2⟩ := idx0_4 t
  funext x
  unfold iblk0
  rw [View.read_apply]
  show V c main_arg4 _ = V c main_arg4 x
  congr 1
  funext a
  apply Fin.ext
  match a with
  | ⟨0, _⟩ => show win0_4.index t (0 : Fin 3) * 9 + 1 * (x 0).val = (x 0).val; omega
  | ⟨1, _⟩ => show win0_4.index t (1 : Fin 3) * 512 + 1 * (x 1).val = (x 1).val; omega
  | ⟨2, _⟩ => show win0_4.index t (2 : Fin 3) * 256 + 1 * (x 2).val = (x 2).val; omega
theorem iblk0_5_eq (c : Dev nD) (t : Fin cfg0.N) : (iblk0 V c 5 t : Vec Ideal S512x1 .f32) = V c main_arg5 := by
  obtain ⟨e0, e1⟩ := idx0_5 t
  funext x
  unfold iblk0
  rw [View.read_apply]
  show V c main_arg5 _ = V c main_arg5 x
  congr 1
  funext a
  apply Fin.ext
  match a with
  | ⟨0, _⟩ => show win0_5.index t (0 : Fin 2) * 512 + 1 * (x 0).val = (x 0).val; omega
  | ⟨1, _⟩ => show win0_5.index t (1 : Fin 2) * 1 + 1 * (x 1).val = (x 1).val; omega
theorem iblk0_6_eq (c : Dev nD) (t : Fin cfg0.N) : (iblk0 V c 6 t : Vec Ideal S256x512 .f32) = V c main_arg6 := by
  obtain ⟨e0, e1⟩ := idx0_6 t
  funext x
  unfold iblk0
  rw [View.read_apply]
  show V c main_arg6 _ = V c main_arg6 x
  congr 1
  funext a
  apply Fin.ext
  match a with
  | ⟨0, _⟩ => show win0_6.index t (0 : Fin 2) * 256 + 1 * (x 0).val = (x 0).val; omega
  | ⟨1, _⟩ => show win0_6.index t (1 : Fin 2) * 512 + 1 * (x 1).val = (x 1).val; omega
theorem iblk0_7_eq (c : Dev nD) (t : Fin cfg0.N) : (iblk0 V c 7 t : Vec Ideal S256x1 .f32) = V c main_arg7 := by
  obtain ⟨e0, e1⟩ := idx0_7 t
  funext x
  unfold iblk0
  rw [View.read_apply]
  show V c main_arg7 _ = V c main_arg7 x
  congr 1
  funext a
  apply Fin.ext
  match a with
  | ⟨0, _⟩ => show win0_7.index t (0 : Fin 2) * 256 + 1 * (x 0).val = (x 0).val; omega
  | ⟨1, _⟩ => show win0_7.index t (1 : Fin 2) * 1 + 1 * (x 1).val = (x 1).val; omega
theorem iblk0_8_eq (c : Dev nD) (t : Fin cfg0.N) : (iblk0 V c 8 t : Vec Ideal S9x512x256 .f32) = V c main_arg8 := by
  obtain ⟨e0, e1, e2⟩ := idx0_8 t
  funext x
  unfold iblk0
  rw [View.read_apply]
  show V c main_arg8 _ = V c main_arg8 x
  congr 1
  funext a
  apply Fin.ext
  match a with
  | ⟨0, _⟩ => show win0_8.index t (0 : Fin 3) * 9 + 1 * (x 0).val = (x 0).val; omega
  | ⟨1, _⟩ => show win0_8.index t (1 : Fin 3) * 512 + 1 * (x 1).val = (x 1).val; omega
  | ⟨2, _⟩ => show win0_8.index t (2 : Fin 3) * 256 + 1 * (x 2).val = (x 2).val; omega
theorem iblk0_9_eq (c : Dev nD) (t : Fin cfg0.N) : (iblk0 V c 9 t : Vec Ideal S512x1 .f32) = V c main_arg9 := by
  obtain ⟨e0, e1⟩ := idx0_9 t
  funext x
  unfold iblk0
  rw [View.read_apply]
  show V c main_arg9 _ = V c main_arg9 x
  congr 1
  funext a
  apply Fin.ext
  match a with
  | ⟨0, _⟩ => show win0_9.index t (0 : Fin 2) * 512 + 1 * (x 0).val = (x 0).val; omega
  | ⟨1, _⟩ => show win0_9.index t (1 : Fin 2) * 1 + 1 * (x 1).val = (x 1).val; omega

/-! ## The two result arrays -/

/-- The [8, 256, 1] array whose row (b, ch) holds `Gm b ch`. -/
abbrev rowsOf (Gm : Fin 8 → Fin 256 → EReal) : Vec Ideal S8x256x1 .f32 :=
  fun i => Gm ⟨(i 0).val, (i 0).isLt⟩ ⟨(i 1).val, (i 1).isLt⟩

/-- Result window 10's block index at point t is (t, 0, 0). -/
theorem idx0_10 : ∀ t : Fin cfg0.N, win0_10.index t (0 : Fin 3) = t.val ∧ win0_10.index t (1 : Fin 3) = 0
    ∧ win0_10.index t (2 : Fin 3) = 0 :=
  (by decide +kernel : ∀ t : Fin grid0.N, _)

/-- What point t writes back through window 10 is block t of `rowsOf Gm`. -/
theorem flushed10_eq (c : Dev nD) (Gm : Fin 8 → Fin 256 → EReal)
    (h : ∀ (t : Fin cfg0.N) (ch : Fin 256),
      ((outsAt0 V c t).1 : Vec Ideal S1x256x1 .f32) (ix3 (0 : Fin 1) ch (0 : Fin 1)) = Gm ⟨t.val, pt_lt t⟩ ch)
    (t : Fin cfg0.N) :
    (dat0 V c).flushed 10 t = ((cfg0.win 10).blk t).view.read (Elt Ideal) (rowsOf Gm) := by
  obtain ⟨e0, e1, e2⟩ := idx0_10 t
  show (cfg0.win 10).cut (grid0.coords t) ((dat0 V c).after 10 t) = _
  rw [after0_10]
  refine funext fun (x : S1x256x1.Idx) => ?_
  obtain ⟨u, ch, v, rfl⟩ : ∃ (u : Fin 1) (ch : Fin 256) (v : Fin 1), x = ix3 u ch v := ⟨x 0, x 1, x 2, eq_ix3 x⟩
  obtain rfl : u = 0 := Subsingleton.elim _ _
  obtain rfl : v = 0 := Subsingleton.elim _ _
  rw [View.read_apply]
  show ((outsAt0 V c t).1 : Vec Ideal S1x256x1 .f32) (ix3 (0 : Fin 1) ch (0 : Fin 1)) = rowsOf Gm _
  refine (h t ch).trans ?_
  refine congrArg₂ Gm (Fin.ext ?_) (Fin.ext ?_)
  · show t.val = win0_10.index t (0 : Fin 3) * 1 + 1 * 0; omega
  · show ch.val = win0_10.index t (1 : Fin 3) * 256 + 1 * ch.val; omega

/-- An index of the result array is in point t's block iff each coordinate is in the block's range on its axis. -/
theorem mem_blk10 (t : Fin cfg0.N) (i : S8x256x1.Idx) :
    i ∈ ((cfg0.win 10).blk t).view.set ↔ ∀ a : Fin 3, win0_10.index t a * S1x256x1.size a ≤ (i a).val
      ∧ (i a).val < win0_10.index t a * S1x256x1.size a + S1x256x1.size a := by
  show i ∈ ((View.whole main_v3_0).slice (win0_10.rect t)).set ↔ _
  rw [View.set_slice_whole, Rect.mem_set_unit]
  exact Iff.rfl

/-- Every row of the result array lies in the block of the point that is its batch. -/
theorem cover10 (i : S8x256x1.Idx) :
    ∃ t : Fin cfg0.N, (cfg0.win 10).flush t = true ∧ i ∈ ((cfg0.win 10).blk t).view.set := by
  have h0 : (i 0).val < 8 := (i 0).isLt
  have h1 : (i 1).val < 256 := (i 1).isLt
  have h2 : (i 2).val < 1 := (i 2).isLt
  have hN : cfg0.N = 8 := N_0
  have hlt : (i 0).val < cfg0.N := by omega
  obtain ⟨e0, e1, e2⟩ := idx0_10 ⟨(i 0).val, hlt⟩
  have e0' : win0_10.index ⟨(i 0).val, hlt⟩ (0 : Fin 3) = (i 0).val := e0
  refine ⟨⟨(i 0).val, hlt⟩, flush0_10 _, ?_⟩
  rw [mem_blk10]
  intro a
  match a with
  | ⟨0, _⟩ =>
    show win0_10.index ⟨(i 0).val, hlt⟩ (0 : Fin 3) * 1 ≤ (i 0).val
      ∧ (i 0).val < win0_10.index ⟨(i 0).val, hlt⟩ (0 : Fin 3) * 1 + 1
    omega
  | ⟨1, _⟩ =>
    show win0_10.index ⟨(i 0).val, hlt⟩ (1 : Fin 3) * 256 ≤ (i 1).val
      ∧ (i 1).val < win0_10.index ⟨(i 0).val, hlt⟩ (1 : Fin 3) * 256 + 256
    omega
  | ⟨2, _⟩ =>
    show win0_10.index ⟨(i 0).val, hlt⟩ (2 : Fin 3) * 1 ≤ (i 2).val
      ∧ (i 2).val < win0_10.index ⟨(i 0).val, hlt⟩ (2 : Fin 3) * 1 + 1
    omega

/-- Result window 11's block index at point t is (t, 0, 0). -/
theorem idx0_11 : ∀ t : Fin cfg0.N, win0_11.index t (0 : Fin 3) = t.val ∧ win0_11.index t (1 : Fin 3) = 0
    ∧ win0_11.index t (2 : Fin 3) = 0 :=
  (by decide +kernel : ∀ t : Fin grid0.N, _)

/-- What point t writes back through window 11 is block t of `rowsOf Gm`. -/
theorem flushed11_eq (c : Dev nD) (Gm : Fin 8 → Fin 256 → EReal)
    (h : ∀ (t : Fin cfg0.N) (ch : Fin 256),
      ((outsAt0 V c t).2 : Vec Ideal S1x256x1 .f32) (ix3 (0 : Fin 1) ch (0 : Fin 1)) = Gm ⟨t.val, pt_lt t⟩ ch)
    (t : Fin cfg0.N) :
    (dat0 V c).flushed 11 t = ((cfg0.win 11).blk t).view.read (Elt Ideal) (rowsOf Gm) := by
  obtain ⟨e0, e1, e2⟩ := idx0_11 t
  show (cfg0.win 11).cut (grid0.coords t) ((dat0 V c).after 11 t) = _
  rw [after0_11]
  refine funext fun (x : S1x256x1.Idx) => ?_
  obtain ⟨u, ch, v, rfl⟩ : ∃ (u : Fin 1) (ch : Fin 256) (v : Fin 1), x = ix3 u ch v := ⟨x 0, x 1, x 2, eq_ix3 x⟩
  obtain rfl : u = 0 := Subsingleton.elim _ _
  obtain rfl : v = 0 := Subsingleton.elim _ _
  rw [View.read_apply]
  show ((outsAt0 V c t).2 : Vec Ideal S1x256x1 .f32) (ix3 (0 : Fin 1) ch (0 : Fin 1)) = rowsOf Gm _
  refine (h t ch).trans ?_
  refine congrArg₂ Gm (Fin.ext ?_) (Fin.ext ?_)
  · show t.val = win0_11.index t (0 : Fin 3) * 1 + 1 * 0; omega
  · show ch.val = win0_11.index t (1 : Fin 3) * 256 + 1 * ch.val; omega

/-- An index of the result array is in point t's block iff each coordinate is in the block's range on its axis. -/
theorem mem_blk11 (t : Fin cfg0.N) (i : S8x256x1.Idx) :
    i ∈ ((cfg0.win 11).blk t).view.set ↔ ∀ a : Fin 3, win0_11.index t a * S1x256x1.size a ≤ (i a).val
      ∧ (i a).val < win0_11.index t a * S1x256x1.size a + S1x256x1.size a := by
  show i ∈ ((View.whole main_v3_1).slice (win0_11.rect t)).set ↔ _
  rw [View.set_slice_whole, Rect.mem_set_unit]
  exact Iff.rfl

/-- Every row of the result array lies in the block of the point that is its batch. -/
theorem cover11 (i : S8x256x1.Idx) :
    ∃ t : Fin cfg0.N, (cfg0.win 11).flush t = true ∧ i ∈ ((cfg0.win 11).blk t).view.set := by
  have h0 : (i 0).val < 8 := (i 0).isLt
  have h1 : (i 1).val < 256 := (i 1).isLt
  have h2 : (i 2).val < 1 := (i 2).isLt
  have hN : cfg0.N = 8 := N_0
  have hlt : (i 0).val < cfg0.N := by omega
  obtain ⟨e0, e1, e2⟩ := idx0_11 ⟨(i 0).val, hlt⟩
  have e0' : win0_11.index ⟨(i 0).val, hlt⟩ (0 : Fin 3) = (i 0).val := e0
  refine ⟨⟨(i 0).val, hlt⟩, flush0_11 _, ?_⟩
  rw [mem_blk11]
  intro a
  match a with
  | ⟨0, _⟩ =>
    show win0_11.index ⟨(i 0).val, hlt⟩ (0 : Fin 3) * 1 ≤ (i 0).val
      ∧ (i 0).val < win0_11.index ⟨(i 0).val, hlt⟩ (0 : Fin 3) * 1 + 1
    omega
  | ⟨1, _⟩ =>
    show win0_11.index ⟨(i 0).val, hlt⟩ (1 : Fin 3) * 256 ≤ (i 1).val
      ∧ (i 1).val < win0_11.index ⟨(i 0).val, hlt⟩ (1 : Fin 3) * 256 + 256
    omega
  | ⟨2, _⟩ =>
    show win0_11.index ⟨(i 0).val, hlt⟩ (2 : Fin 3) * 1 ≤ (i 2).val
      ∧ (i 2).val < win0_11.index ⟨(i 0).val, hlt⟩ (2 : Fin 3) * 1 + 1
    omega

/-- If at every point the body leaves the column `Gm t` in the first result's block, the first result array ends
    holding `Gm` row by row. -/
theorem arr10_of_blocks (c : Dev nD) (Gm : Fin 8 → Fin 256 → EReal)
    (h : ∀ (t : Fin cfg0.N) (ch : Fin 256),
      ((outsAt0 V c t).1 : Vec Ideal S1x256x1 .f32) (ix3 (0 : Fin 1) ch (0 : Fin 1)) = Gm ⟨t.val, pt_lt t⟩ ch)
    (b : Fin 8) (ch : Fin 256) :
    ((dat0 V c).arrAt 10 cfg0.N : Vec Ideal S8x256x1 .f32) (ix3 b ch (0 : Fin 1)) = Gm b ch := by
  have e := (dat0 V c).arrAt_eq_of_cover 10 (rowsOf Gm) (fun t _ => flushed10_eq V c Gm h t) cover10
  exact congrFun e (ix3 b ch (0 : Fin 1))

/-- The same for the second result array. -/
theorem arr11_of_blocks (c : Dev nD) (Gm : Fin 8 → Fin 256 → EReal)
    (h : ∀ (t : Fin cfg0.N) (ch : Fin 256),
      ((outsAt0 V c t).2 : Vec Ideal S1x256x1 .f32) (ix3 (0 : Fin 1) ch (0 : Fin 1)) = Gm ⟨t.val, pt_lt t⟩ ch)
    (b : Fin 8) (ch : Fin 256) :
    ((dat0 V c).arrAt 11 cfg0.N : Vec Ideal S8x256x1 .f32) (ix3 b ch (0 : Fin 1)) = Gm b ch := by
  have e := (dat0 V c).arrAt_eq_of_cover 11 (rowsOf Gm) (fun t _ => flushed11_eq V c Gm h t) cover11
  exact congrFun e (ix3 b ch (0 : Fin 1))

end Cert.ReferenceIdeal.Val

end
-- ==== Proof.RGate.lean ====
/-
  The gate region of the reference program: eight grid points, one batch each; the body keeps the first and the second
  squeeze in two scratch buffers and reads each back nine times at the taps' offsets; it stores a [256, 1] column
  of each gate into row b of the [8, 256, 1] result arrays. From what the run leaves in the two result blocks and the
  block-to-array cover, the two arrays after the region hold the multiplicative and the additive gate of every batch.
-/
import proofs.«107153_g2000701298156354_pallasbulk_673_6_alg».proof.Proof.Gen.ReferenceIdeal.Frame
import proofs.«107153_g2000701298156354_pallasbulk_673_6_alg».proof.Proof.RPayA
import proofs.«107153_g2000701298156354_pallasbulk_673_6_alg».proof.Proof.RPayB
import proofs.«107153_g2000701298156354_pallasbulk_673_6_alg».proof.Proof.RGateArr
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val.GateRun

open Cert.ReferenceIdeal Cert.ReferenceIdeal.Gen Cert.Spec

variable {F : FTy → Type} [FloatOps F]

/-! ## What the run leaves in the two result blocks, as pure terms -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load through any rectangle, after one store of the whole shape, reads the stored payload there. -/
theorem readCov_one_whole {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h inb]

/-- Tap `t`'s [1, 512, 256] slice of a [9, 512, 256] weight array. -/
abbrev wtap (x : Vec F S9x512x256 .f32) (t : ℕ) (h : ∀ a, (![t, 0, 0] : Fin 3 → ℕ) a + S1x512x256.size a ≤ S9x512x256.size a) :
    Vec F S1x512x256 .f32 :=
  View.ld (S := S9x512x256) x (Rect.unit (s := S9x512x256) ![t, 0, 0] S1x512x256.size h)

/-- The [256, 358] window of a [256, 400] map that starts `o` flat positions in. -/
abbrev tap1 (s : Vec F S256x400 .f32) (o : ℕ) (h : ∀ a, (![0, o] : Fin 2 → ℕ) a + S256x358.size a ≤ S256x400.size a) :
    Vec F S256x358 .f32 :=
  View.ld (S := S256x400) s (Rect.unit (s := S256x400) ![0, o] S256x358.size h)

/-- The [256, 316] window of a [256, 358] map that starts `o` flat positions in. -/
abbrev tap2 (s : Vec F S256x358 .f32) (o : ℕ) (h : ∀ a, (![0, o] : Fin 2 → ℕ) a + S256x316.size a ≤ S256x358.size a) :
    Vec F S256x316 .f32 :=
  View.ld (S := S256x358) s (Rect.unit (s := S256x358) ![0, o] S256x316.size h)

/-- What the body keeps in its first scratch buffer: the first squeeze of the block. -/
def sq1 (x0 : Vec F S1x256x400 .f32) (x2 : Vec F S256x256 .f32) (x3 : Vec F S256x1 .f32) : Vec F S256x400 .f32 :=
  k0_pay2 x0 x2 x3

/-- What the body keeps in its second scratch buffer: the second squeeze, over the nine shifted windows of the first. -/
def sq2 (x0 : Vec F S1x256x400 .f32) (x2 : Vec F S256x256 .f32) (x3 : Vec F S256x1 .f32) (x4 : Vec F S9x512x256 .f32)
    (x5 : Vec F S512x1 .f32) (x6 : Vec F S256x512 .f32) (x7 : Vec F S256x1 .f32) : Vec F S256x358 .f32 :=
  k0_pay6
    (k0_pay4
      (k0_pay3 (wtap x4 0 inb_S9x512x256_S1x512x256_0_0_0) (tap1 (sq1 x0 x2 x3) 0 inb_S256x400_S256x358_0_0)
        (wtap x4 1 inb_S9x512x256_S1x512x256_1_0_0) (tap1 (sq1 x0 x2 x3) 1 inb_S256x400_S256x358_0_1)
        (wtap x4 2 inb_S9x512x256_S1x512x256_2_0_0) (tap1 (sq1 x0 x2 x3) 2 inb_S256x400_S256x358_0_2))
      (wtap x4 3 inb_S9x512x256_S1x512x256_3_0_0) (tap1 (sq1 x0 x2 x3) 20 inb_S256x400_S256x358_0_20)
      (wtap x4 4 inb_S9x512x256_S1x512x256_4_0_0) (tap1 (sq1 x0 x2 x3) 21 inb_S256x400_S256x358_0_21)
      (wtap x4 5 inb_S9x512x256_S1x512x256_5_0_0) (tap1 (sq1 x0 x2 x3) 22 inb_S256x400_S256x358_0_22)
      (wtap x4 6 inb_S9x512x256_S1x512x256_6_0_0) (tap1 (sq1 x0 x2 x3) 40 inb_S256x400_S256x358_0_40)
      (wtap x4 7 inb_S9x512x256_S1x512x256_7_0_0) (tap1 (sq1 x0 x2 x3) 41 inb_S256x400_S256x358_0_41))
    (k0_pay5 (wtap x4 8 inb_S9x512x256_S1x512x256_8_0_0)) (tap1 (sq1 x0 x2 x3) 42 inb_S256x400_S256x358_0_42) x5 x6 x7

section Names
variable (c : Dev nD) (arg1 : Memref sig .tc .vmem S1x256x400 .f32) (harg1 : arg1.IsWhole) (arg2 : Memref sig .tc .vmem S1x316 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x1 .f32) (harg11 : arg11.IsWhole) (arg12 : Memref sig .tc .vmem S1x256x1 .f32) (harg12 : arg12.IsWhole) (arg13 : Memref sig .tc .vmem S256x400 .f32) (harg13 : arg13.IsWhole) (arg14 : Memref sig .tc .vmem S256x358 .f32) (harg14 : arg14.IsWhole)
  (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32)

/-- The one store into the first scratch. -/
theorem HS0_eq : kernelRun0_A.sl.HS0_1 c arg1 harg1 arg3 harg3 arg4 harg4 x0 x2 x3
    = [⟨Rect.unit ![0, 0] S256x400.size inb_S256x400_S256x400_0_0, sq1 x0 x2 x3⟩] := by
  unfold kernelRun0_A.sl.HS0_1 sq1
  simp only [View.readAt_eq_ld, harg1.read_unread, harg3.read_unread, harg4.read_unread,
    View.ld_unit_zero (S := S1x256x400) hz3, View.ld_unit_zero (S := S256x256) hz2, View.ld_unit_zero (S := S256x1) hz2]

/-- The one store into the second scratch. -/
theorem HS1_eq : kernelRun0_A.sl.HS1_1 c arg1 harg1 arg3 harg3 arg4 harg4 arg5 harg5 arg6 harg6 arg7 harg7 arg8 harg8 arg13 x0 x2 x3 x4 x5 x6 x7
    = [⟨Rect.unit ![0, 0] S256x358.size inb_S256x358_S256x358_0_0, sq2 x0 x2 x3 x4 x5 x6 x7⟩] := by
  unfold kernelRun0_A.sl.HS1_1 kernelRun0_A.sl.r_1 kernelRun0_A.sl.r kernelRun0_A.sl.r_2
    kernelRun0_A.sl.v15 kernelRun0_A.sl.v20 kernelRun0_A.sl.v25 kernelRun0_A.sl.v30 kernelRun0_A.sl.v35
    kernelRun0_A.sl.v40 kernelRun0_A.sl.v45 kernelRun0_A.sl.v50 kernelRun0_A.sl.v55 sq2
  rw [HS0_eq]
  simp only [readCov_one_whole (S := S256x400) _ hz2, View.readAt_eq_ld, harg5.read_unread, harg6.read_unread, harg7.read_unread, harg8.read_unread,
    View.ld_unit_zero (S := S512x1) hz2, View.ld_unit_zero (S := S256x512) hz2, View.ld_unit_zero (S := S256x1) hz2]
end Names

/-- Seven taps' partial sums of the second expand, over the shifted windows of the second scratch. -/
def acc2 (x0 : Vec F S1x256x400 .f32) (x2 : Vec F S256x256 .f32) (x3 : Vec F S256x1 .f32) (x4 : Vec F S9x512x256 .f32)
    (x5 : Vec F S512x1 .f32) (x6 : Vec F S256x512 .f32) (x7 : Vec F S256x1 .f32) (x8 : Vec F S9x512x256 .f32) : FVec F S512x316 .f32 :=
  k0_pay8
    (k0_pay7 (wtap x8 0 inb_S9x512x256_S1x512x256_0_0_0) (tap2 (sq2 x0 x2 x3 x4 x5 x6 x7) 0 inb_S256x358_S256x316_0_0)
      (wtap x8 1 inb_S9x512x256_S1x512x256_1_0_0) (tap2 (sq2 x0 x2 x3 x4 x5 x6 x7) 1 inb_S256x358_S256x316_0_1))
    (wtap x8 2 inb_S9x512x256_S1x512x256_2_0_0) (tap2 (sq2 x0 x2 x3 x4 x5 x6 x7) 2 inb_S256x358_S256x316_0_2)
    (wtap x8 3 inb_S9x512x256_S1x512x256_3_0_0) (tap2 (sq2 x0 x2 x3 x4 x5 x6 x7) 20 inb_S256x358_S256x316_0_20)
    (wtap x8 4 inb_S9x512x256_S1x512x256_4_0_0) (tap2 (sq2 x0 x2 x3 x4 x5 x6 x7) 21 inb_S256x358_S256x316_0_21)
    (wtap x8 5 inb_S9x512x256_S1x512x256_5_0_0) (tap2 (sq2 x0 x2 x3 x4 x5 x6 x7) 22 inb_S256x358_S256x316_0_22)
    (wtap x8 6 inb_S9x512x256_S1x512x256_6_0_0) (tap2 (sq2 x0 x2 x3 x4 x5 x6 x7) 40 inb_S256x358_S256x316_0_40)

/-- What the body stores in the first result's block. -/
def gammaBlk (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) : Vec F S1x256x1 .f32 :=
  k0_pay11 (acc2 x0 x2 x3 x4 x5 x6 x7 x8) (k0_pay9 (wtap x8 7 inb_S9x512x256_S1x512x256_7_0_0))
    (tap2 (sq2 x0 x2 x3 x4 x5 x6 x7) 41 inb_S256x358_S256x316_0_41) (wtap x8 8 inb_S9x512x256_S1x512x256_8_0_0)
    (tap2 (sq2 x0 x2 x3 x4 x5 x6 x7) 42 inb_S256x358_S256x316_0_42) x9 x1

/-- What the body stores in the second result's block. -/
def betaBlk (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) : Vec F S1x256x1 .f32 :=
  k0_pay1 (k0_pay12 (acc2 x0 x2 x3 x4 x5 x6 x7 x8) (k0_pay9 (wtap x8 7 inb_S9x512x256_S1x512x256_7_0_0))
    (tap2 (sq2 x0 x2 x3 x4 x5 x6 x7) 41 inb_S256x358_S256x316_0_41) (wtap x8 8 inb_S9x512x256_S1x512x256_8_0_0)
    (tap2 (sq2 x0 x2 x3 x4 x5 x6 x7) 42 inb_S256x358_S256x316_0_42) x9 x1)

section Outs
variable (c : Dev nD) (i : grid0.Coords) (arg1 : Memref sig .tc .vmem S1x256x400 .f32) (harg1 : arg1.IsWhole) (arg2 : Memref sig .tc .vmem S1x316 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x1 .f32) (harg11 : arg11.IsWhole) (arg12 : Memref sig .tc .vmem S1x256x1 .f32) (harg12 : arg12.IsWhole) (arg13 : Memref sig .tc .vmem S256x400 .f32) (harg13 : arg13.IsWhole) (arg14 : Memref sig .tc .vmem S256x358 .f32) (harg14 : arg14.IsWhole)
  (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32)

set_option maxHeartbeats 1000000 in
/-- The run leaves the first payload in the first result's block. -/
theorem out10_eq : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = gammaBlk x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  unfold kernelRun0_A.sl.r_4 kernelRun0_A.sl.r_3 kernelRun0_A.sl.r_5
    kernelRun0_A.sl.v78 kernelRun0_A.sl.v83 kernelRun0_A.sl.v88 kernelRun0_A.sl.v93 kernelRun0_A.sl.v98
    kernelRun0_A.sl.v103 kernelRun0_A.sl.v108 kernelRun0_A.sl.v113 kernelRun0_A.sl.v118 gammaBlk acc2
  rw [HS1_eq, View.canon_unit_zero hz3]
  simp only [readCov_one_whole (S := S256x358) _ hz2, View.readAt_eq_ld, harg9.read_unread, harg10.read_unread, harg2.read_unread,
    View.ld_unit_zero (S := S512x1) hz2, View.ld_unit_zero (S := S1x316) hz2]

set_option maxHeartbeats 1000000 in
/-- The run leaves the second payload in the second result's block. -/
theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = betaBlk x0 x1 x2 x3 x4 x5 x6 x7 x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  unfold kernelRun0_A.sl.r_6 kernelRun0_A.sl.r_4 kernelRun0_A.sl.r_3 kernelRun0_A.sl.r_5
    kernelRun0_A.sl.v78 kernelRun0_A.sl.v83 kernelRun0_A.sl.v88 kernelRun0_A.sl.v93 kernelRun0_A.sl.v98
    kernelRun0_A.sl.v103 kernelRun0_A.sl.v108 kernelRun0_A.sl.v113 kernelRun0_A.sl.v118 betaBlk acc2
  rw [HS1_eq, View.canon_unit_zero hz3]
  simp only [readCov_one_whole (S := S256x358) _ hz2, View.readAt_eq_ld, harg9.read_unread, harg10.read_unread, harg2.read_unread,
    View.ld_unit_zero (S := S512x1) hz2, View.ld_unit_zero (S := S1x316) hz2]
end Outs

/-! ## The two payloads at an index -/

/-- A tap's weight slice at an index is the weight array at that tap. -/
theorem wtap_apply (x : Vec F S9x512x256 .f32) (t : ℕ) (ht : t < 9)
    (h : ∀ a, (![t, 0, 0] : Fin 3 → ℕ) a + S1x512x256.size a ≤ S9x512x256.size a) (o : Fin 512) (k : Fin 256) :
    wtap x t h (ix3 (0 : Fin 1) o k) = x (ix3 (⟨t, ht⟩ : Fin 9) o k) := by
  refine congrArg x (funext fun a => Fin.ext ?_)
  match a with
  | ⟨0, _⟩ => show t + 1 * 0 = t; omega
  | ⟨1, _⟩ => show 0 + 1 * o.val = o.val; omega
  | ⟨2, _⟩ => show 0 + 1 * k.val = k.val; omega

/-- A shifted window of the first scratch at an index is the scratch `o` positions further on. -/
theorem tap1_apply (s : Vec F S256x400 .f32) (o : ℕ) (ho : o ≤ 42)
    (h : ∀ a, (![0, o] : Fin 2 → ℕ) a + S256x358.size a ≤ S256x400.size a) (k : Fin 256) (j : Fin 358) :
    tap1 s o h (ix2 k j) = s (ix2 k (⟨j.val + o, by have := j.isLt; omega⟩ : Fin 400)) := by
  refine congrArg s (funext fun a => Fin.ext ?_)
  match a with
  | ⟨0, _⟩ => show 0 + 1 * k.val = k.val; omega
  | ⟨1, _⟩ => show o + 1 * j.val = j.val + o; omega

/-- A shifted window of the second scratch at an index is the scratch `o` positions further on. -/
theorem tap2_apply (s : Vec F S256x358 .f32) (o : ℕ) (ho : o ≤ 42)
    (h : ∀ a, (![0, o] : Fin 2 → ℕ) a + S256x316.size a ≤ S256x358.size a) (k : Fin 256) (j : Fin 316) :
    tap2 s o h (ix2 k j) = s (ix2 k (⟨j.val + o, by have := j.isLt; omega⟩ : Fin 358)) := by
  refine congrArg s (funext fun a => Fin.ext ?_)
  match a with
  | ⟨0, _⟩ => show 0 + 1 * k.val = k.val; omega
  | ⟨1, _⟩ => show o + 1 * j.val = j.val + o; omega

section AtIndex
variable (I : Cert.Spec.GateIn) (b : Fin 8)
  (x0 : Vec Ideal S1x256x400 .f32) (x1 : Vec Ideal S1x316 .f32) (x2 : Vec Ideal S256x256 .f32) (x3 : Vec Ideal S256x1 .f32)
  (x4 : Vec Ideal S9x512x256 .f32) (x5 : Vec Ideal S512x1 .f32) (x6 : Vec Ideal S256x512 .f32) (x7 : Vec Ideal S256x1 .f32)
  (x8 : Vec Ideal S9x512x256 .f32) (x9 : Vec Ideal S512x1 .f32)
  (h0 : ∀ (ch : Fin 256) (j : Fin 400), x0 (ix3 (0 : Fin 1) ch j) = I.zp b ch j)
  (h1 : ∀ j : Fin 316, x1 (ix2 (0 : Fin 1) j) = Cert.Spec.mask j)
  (h2 : ∀ (k ch : Fin 256), x2 (ix2 k ch) = I.w1sq k ch)
  (h3 : ∀ k : Fin 256, x3 (ix2 k (0 : Fin 1)) = I.b1sq k)
  (h4 : ∀ (t : Fin 9) (o : Fin 512) (k : Fin 256), x4 (ix3 t o k) = I.w1ex t o k)
  (h5 : ∀ o : Fin 512, x5 (ix2 o (0 : Fin 1)) = I.b1ex o)
  (h6 : ∀ (k : Fin 256) (o : Fin 512), x6 (ix2 k o) = I.w2sq k o)
  (h7 : ∀ k : Fin 256, x7 (ix2 k (0 : Fin 1)) = I.b2sq k)
  (h8 : ∀ (t : Fin 9) (o : Fin 512) (k : Fin 256), x8 (ix3 t o k) = I.w2ex t o k)
  (h9 : ∀ o : Fin 512, x9 (ix2 o (0 : Fin 1)) = I.b2ex o)
include h0 h2 h3

/-- The first scratch holds the first squeeze of the block's batch. -/
theorem sq1_apply (k : Fin 256) (j : Fin 400) : sq1 x0 x2 x3 (ix2 k j) = I.s1 b k j := by
  unfold sq1
  exact Pay.pay2_apply I b x0 x2 x3 h0 h2 h3 k j

include h4 h5 h6 h7

/-- The second scratch holds the second squeeze of the block's batch. -/
theorem sq2_apply (k : Fin 256) (j : Fin 358) : sq2 x0 x2 x3 x4 x5 x6 x7 (ix2 k j) = I.s2 b k j := by
  unfold sq2
  apply Pay.pay6_apply I b
  · exact fun o k => (wtap_apply x4 0 (by omega) _ o k).trans (h4 _ o k)
  · exact fun o k => (wtap_apply x4 1 (by omega) _ o k).trans (h4 _ o k)
  · exact fun o k => (wtap_apply x4 2 (by omega) _ o k).trans (h4 _ o k)
  · exact fun o k => (wtap_apply x4 3 (by omega) _ o k).trans (h4 _ o k)
  · exact fun o k => (wtap_apply x4 4 (by omega) _ o k).trans (h4 _ o k)
  · exact fun o k => (wtap_apply x4 5 (by omega) _ o k).trans (h4 _ o k)
  · exact fun o k => (wtap_apply x4 6 (by omega) _ o k).trans (h4 _ o k)
  · exact fun o k => (wtap_apply x4 7 (by omega) _ o k).trans (h4 _ o k)
  · exact fun o k => (wtap_apply x4 8 (by omega) _ o k).trans (h4 _ o k)
  · exact fun k j => (tap1_apply (sq1 x0 x2 x3) 0 (by omega) _ k j).trans (sq1_apply I b x0 x2 x3 h0 h2 h3 k _)
  · exact fun k j => (tap1_apply (sq1 x0 x2 x3) 1 (by omega) _ k j).trans (sq1_apply I b x0 x2 x3 h0 h2 h3 k _)
  · exact fun k j => (tap1_apply (sq1 x0 x2 x3) 2 (by omega) _ k j).trans (sq1_apply I b x0 x2 x3 h0 h2 h3 k _)
  · exact fun k j => (tap1_apply (sq1 x0 x2 x3) 20 (by omega) _ k j).trans (sq1_apply I b x0 x2 x3 h0 h2 h3 k _)
  · exact fun k j => (tap1_apply (sq1 x0 x2 x3) 21 (by omega) _ k j).trans (sq1_apply I b x0 x2 x3 h0 h2 h3 k _)
  · exact fun k j => (tap1_apply (sq1 x0 x2 x3) 22 (by omega) _ k j).trans (sq1_apply I b x0 x2 x3 h0 h2 h3 k _)
  · exact fun k j => (tap1_apply (sq1 x0 x2 x3) 40 (by omega) _ k j).trans (sq1_apply I b x0 x2 x3 h0 h2 h3 k _)
  · exact fun k j => (tap1_apply (sq1 x0 x2 x3) 41 (by omega) _ k j).trans (sq1_apply I b x0 x2 x3 h0 h2 h3 k _)
  · exact fun k j => (tap1_apply (sq1 x0 x2 x3) 42 (by omega) _ k j).trans (sq1_apply I b x0 x2 x3 h0 h2 h3 k _)
  · exact h5
  · exact h6
  · exact h7

include h1 h8 h9

/-- The first result's block holds the multiplicative gate of the block's batch. -/
theorem gammaBlk_apply (ch : Fin 256) :
    gammaBlk x0 x1 x2 x3 x4 x5 x6 x7 x8 x9 (ix3 (0 : Fin 1) ch (0 : Fin 1)) = I.gamma b ch := by
  unfold gammaBlk acc2
  apply Pay.pay11_apply I b
  · exact fun o k => (wtap_apply x8 0 (by omega) _ o k).trans (h8 _ o k)
  · exact fun o k => (wtap_apply x8 1 (by omega) _ o k).trans (h8 _ o k)
  · exact fun o k => (wtap_apply x8 2 (by omega) _ o k).trans (h8 _ o k)
  · exact fun o k => (wtap_apply x8 3 (by omega) _ o k).trans (h8 _ o k)
  · exact fun o k => (wtap_apply x8 4 (by omega) _ o k).trans (h8 _ o k)
  · exact fun o k => (wtap_apply x8 5 (by omega) _ o k).trans (h8 _ o k)
  · exact fun o k => (wtap_apply x8 6 (by omega) _ o k).trans (h8 _ o k)
  · exact fun o k => (wtap_apply x8 7 (by omega) _ o k).trans (h8 _ o k)
  · exact fun o k => (wtap_apply x8 8 (by omega) _ o k).trans (h8 _ o k)
  · exact fun k j => (tap2_apply (sq2 x0 x2 x3 x4 x5 x6 x7) 0 (by omega) _ k j).trans (sq2_apply I b x0 x2 x3 x4 x5 x6 x7 h0 h2 h3 h4 h5 h6 h7 k _)
  · exact fun k j => (tap2_apply (sq2 x0 x2 x3 x4 x5 x6 x7) 1 (by omega) _ k j).trans (sq2_apply I b x0 x2 x3 x4 x5 x6 x7 h0 h2 h3 h4 h5 h6 h7 k _)
  · exact fun k j => (tap2_apply (sq2 x0 x2 x3 x4 x5 x6 x7) 2 (by omega) _ k j).trans (sq2_apply I b x0 x2 x3 x4 x5 x6 x7 h0 h2 h3 h4 h5 h6 h7 k _)
  · exact fun k j => (tap2_apply (sq2 x0 x2 x3 x4 x5 x6 x7) 20 (by omega) _ k j).trans (sq2_apply I b x0 x2 x3 x4 x5 x6 x7 h0 h2 h3 h4 h5 h6 h7 k _)
  · exact fun k j => (tap2_apply (sq2 x0 x2 x3 x4 x5 x6 x7) 21 (by omega) _ k j).trans (sq2_apply I b x0 x2 x3 x4 x5 x6 x7 h0 h2 h3 h4 h5 h6 h7 k _)
  · exact fun k j => (tap2_apply (sq2 x0 x2 x3 x4 x5 x6 x7) 22 (by omega) _ k j).trans (sq2_apply I b x0 x2 x3 x4 x5 x6 x7 h0 h2 h3 h4 h5 h6 h7 k _)
  · exact fun k j => (tap2_apply (sq2 x0 x2 x3 x4 x5 x6 x7) 40 (by omega) _ k j).trans (sq2_apply I b x0 x2 x3 x4 x5 x6 x7 h0 h2 h3 h4 h5 h6 h7 k _)
  · exact fun k j => (tap2_apply (sq2 x0 x2 x3 x4 x5 x6 x7) 41 (by omega) _ k j).trans (sq2_apply I b x0 x2 x3 x4 x5 x6 x7 h0 h2 h3 h4 h5 h6 h7 k _)
  · exact fun k j => (tap2_apply (sq2 x0 x2 x3 x4 x5 x6 x7) 42 (by omega) _ k j).trans (sq2_apply I b x0 x2 x3 x4 x5 x6 x7 h0 h2 h3 h4 h5 h6 h7 k _)
  · exact h9
  · exact h1

/-- The second result's block holds the additive gate of the block's batch. -/
theorem betaBlk_apply (ch : Fin 256) :
    betaBlk x0 x1 x2 x3 x4 x5 x6 x7 x8 x9 (ix3 (0 : Fin 1) ch (0 : Fin 1)) = I.beta b ch := by
  unfold betaBlk acc2
  apply Pay.pay1_apply I b
  · exact fun o k => (wtap_apply x8 0 (by omega) _ o k).trans (h8 _ o k)
  · exact fun o k => (wtap_apply x8 1 (by omega) _ o k).trans (h8 _ o k)
  · exact fun o k => (wtap_apply x8 2 (by omega) _ o k).trans (h8 _ o k)
  · exact fun o k => (wtap_apply x8 3 (by omega) _ o k).trans (h8 _ o k)
  · exact fun o k => (wtap_apply x8 4 (by omega) _ o k).trans (h8 _ o k)
  · exact fun o k => (wtap_apply x8 5 (by omega) _ o k).trans (h8 _ o k)
  · exact fun o k => (wtap_apply x8 6 (by omega) _ o k).trans (h8 _ o k)
  · exact fun o k => (wtap_apply x8 7 (by omega) _ o k).trans (h8 _ o k)
  · exact fun o k => (wtap_apply x8 8 (by omega) _ o k).trans (h8 _ o k)
  · exact fun k j => (tap2_apply (sq2 x0 x2 x3 x4 x5 x6 x7) 0 (by omega) _ k j).trans (sq2_apply I b x0 x2 x3 x4 x5 x6 x7 h0 h2 h3 h4 h5 h6 h7 k _)
  · exact fun k j => (tap2_apply (sq2 x0 x2 x3 x4 x5 x6 x7) 1 (by omega) _ k j).trans (sq2_apply I b x0 x2 x3 x4 x5 x6 x7 h0 h2 h3 h4 h5 h6 h7 k _)
  · exact fun k j => (tap2_apply (sq2 x0 x2 x3 x4 x5 x6 x7) 2 (by omega) _ k j).trans (sq2_apply I b x0 x2 x3 x4 x5 x6 x7 h0 h2 h3 h4 h5 h6 h7 k _)
  · exact fun k j => (tap2_apply (sq2 x0 x2 x3 x4 x5 x6 x7) 20 (by omega) _ k j).trans (sq2_apply I b x0 x2 x3 x4 x5 x6 x7 h0 h2 h3 h4 h5 h6 h7 k _)
  · exact fun k j => (tap2_apply (sq2 x0 x2 x3 x4 x5 x6 x7) 21 (by omega) _ k j).trans (sq2_apply I b x0 x2 x3 x4 x5 x6 x7 h0 h2 h3 h4 h5 h6 h7 k _)
  · exact fun k j => (tap2_apply (sq2 x0 x2 x3 x4 x5 x6 x7) 22 (by omega) _ k j).trans (sq2_apply I b x0 x2 x3 x4 x5 x6 x7 h0 h2 h3 h4 h5 h6 h7 k _)
  · exact fun k j => (tap2_apply (sq2 x0 x2 x3 x4 x5 x6 x7) 40 (by omega) _ k j).trans (sq2_apply I b x0 x2 x3 x4 x5 x6 x7 h0 h2 h3 h4 h5 h6 h7 k _)
  · exact fun k j => (tap2_apply (sq2 x0 x2 x3 x4 x5 x6 x7) 41 (by omega) _ k j).trans (sq2_apply I b x0 x2 x3 x4 x5 x6 x7 h0 h2 h3 h4 h5 h6 h7 k _)
  · exact fun k j => (tap2_apply (sq2 x0 x2 x3 x4 x5 x6 x7) 42 (by omega) _ k j).trans (sq2_apply I b x0 x2 x3 x4 x5 x6 x7 h0 h2 h3 h4 h5 h6 h7 k _)
  · exact h9
  · exact h1

end AtIndex

end Cert.ReferenceIdeal.Val.GateRun

namespace Cert.ReferenceIdeal.Val

open Cert.ReferenceIdeal Cert.ReferenceIdeal.Gen Cert.Spec

variable (V : (c : Dev nD) → (b : Ref sig .tc) → Buf (Elt Ideal) ((c : Thread nD τ).loc b))

/-- The two result arrays of the gate region, index by index, for any contents `V` at the region's entry whose ten
    input arrays read as the gate's inputs `I` and the mask. -/
theorem gate_arrays (c : Dev nD) (I : Cert.Spec.GateIn)
    (h1 : ∀ (b : Fin 8) (ch : Fin 256) (j : Fin 400), (V c main_v1 : Vec Ideal S8x256x400 .f32) (ix3 b ch j) = I.zp b ch j)
    (h2 : ∀ j : Fin 316, (V c main_v2 : Vec Ideal S1x316 .f32) (ix2 (0 : Fin 1) j) = Cert.Spec.mask j)
    (ha2 : ∀ (k ch : Fin 256), (V c main_arg2 : Vec Ideal S256x256 .f32) (ix2 k ch) = I.w1sq k ch)
    (ha3 : ∀ k : Fin 256, (V c main_arg3 : Vec Ideal S256x1 .f32) (ix2 k (0 : Fin 1)) = I.b1sq k)
    (ha4 : ∀ (t : Fin 9) (o : Fin 512) (k : Fin 256), (V c main_arg4 : Vec Ideal S9x512x256 .f32) (ix3 t o k) = I.w1ex t o k)
    (ha5 : ∀ o : Fin 512, (V c main_arg5 : Vec Ideal S512x1 .f32) (ix2 o (0 : Fin 1)) = I.b1ex o)
    (ha6 : ∀ (k : Fin 256) (o : Fin 512), (V c main_arg6 : Vec Ideal S256x512 .f32) (ix2 k o) = I.w2sq k o)
    (ha7 : ∀ k : Fin 256, (V c main_arg7 : Vec Ideal S256x1 .f32) (ix2 k (0 : Fin 1)) = I.b2sq k)
    (ha8 : ∀ (t : Fin 9) (o : Fin 512) (k : Fin 256), (V c main_arg8 : Vec Ideal S9x512x256 .f32) (ix3 t o k) = I.w2ex t o k)
    (ha9 : ∀ o : Fin 512, (V c main_arg9 : Vec Ideal S512x1 .f32) (ix2 o (0 : Fin 1)) = I.b2ex o) :
    (∀ (b : Fin 8) (ch : Fin 256),
        ((dat0 V c).arrAt 10 cfg0.N : Vec Ideal S8x256x1 .f32) (ix3 b ch (0 : Fin 1)) = I.gamma b ch)
    ∧ (∀ (b : Fin 8) (ch : Fin 256),
        ((dat0 V c).arrAt 11 cfg0.N : Vec Ideal S8x256x1 .f32) (ix3 b ch (0 : Fin 1)) = I.beta b ch) := by
  refine ⟨arr10_of_blocks V c I.gamma fun t ch => ?_, arr11_of_blocks V c I.beta fun t ch => ?_⟩
  · unfold outsAt0
    dsimp only
    refine (congrFun (GateRun.out10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 (0 : Fin 1) ch (0 : Fin 1))).trans ?_
    exact GateRun.gammaBlk_apply I ⟨t.val, pt_lt t⟩ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
      (fun ch j => (iblk0_0_apply V c t ch j).trans (h1 _ ch j))
      (fun j => (congrFun (iblk0_1_eq V c t) _).trans (h2 j))
      (fun k ch => (congrFun (iblk0_2_eq V c t) _).trans (ha2 k ch))
      (fun k => (congrFun (iblk0_3_eq V c t) _).trans (ha3 k))
      (fun t' o k => (congrFun (iblk0_4_eq V c t) _).trans (ha4 t' o k))
      (fun o => (congrFun (iblk0_5_eq V c t) _).trans (ha5 o))
      (fun k o => (congrFun (iblk0_6_eq V c t) _).trans (ha6 k o))
      (fun k => (congrFun (iblk0_7_eq V c t) _).trans (ha7 k))
      (fun t' o k => (congrFun (iblk0_8_eq V c t) _).trans (ha8 t' o k))
      (fun o => (congrFun (iblk0_9_eq V c t) _).trans (ha9 o)) ch
  · unfold outsAt0
    dsimp only
    refine (congrFun (GateRun.out11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix3 (0 : Fin 1) ch (0 : Fin 1))).trans ?_
    exact GateRun.betaBlk_apply I ⟨t.val, pt_lt t⟩ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
      (fun ch j => (iblk0_0_apply V c t ch j).trans (h1 _ ch j))
      (fun j => (congrFun (iblk0_1_eq V c t) _).trans (h2 j))
      (fun k ch => (congrFun (iblk0_2_eq V c t) _).trans (ha2 k ch))
      (fun k => (congrFun (iblk0_3_eq V c t) _).trans (ha3 k))
      (fun t' o k => (congrFun (iblk0_4_eq V c t) _).trans (ha4 t' o k))
      (fun o => (congrFun (iblk0_5_eq V c t) _).trans (ha5 o))
      (fun k o => (congrFun (iblk0_6_eq V c t) _).trans (ha6 k o))
      (fun k => (congrFun (iblk0_7_eq V c t) _).trans (ha7 k))
      (fun t' o k => (congrFun (iblk0_8_eq V c t) _).trans (ha8 t' o k))
      (fun o => (congrFun (iblk0_9_eq V c t) _).trans (ha9 o)) ch

end Cert.ReferenceIdeal.Val

end
-- ==== Proof.RAdain.lean ====
/-
  The normalisation region of the reference program: a grid of 8 points, each one batch, [1, 256, 4096]; the body
  takes each row's mean as the sum divided by 4096, the variance as the mean of the squared deviations, and stores
  (x − mu) · (rsqrt (var + ε) · gamma) + beta. The blocks tile the [8, 256, 4096] result array.
-/
import proofs.«107153_g2000701298156354_pallasbulk_673_6_alg».proof.Proof.Gen.ReferenceIdeal.Frame

import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (V : (c : Dev nD) → (b : Ref sig .tc) → Buf (Elt Ideal) ((c : Thread nD τ).loc b))

namespace Adain

/-! ## The body's result block at an index -/

/-- A vector [a] cast to a column [a, 1] reads, at (i, u), the vector at i. -/
theorem col_of_vec_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] broadcast to [a, b] reads, at (i, j), the column at (i, 0). -/
theorem bcast_col_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The reciprocal square root of a vector, read at an index. -/
theorem rsqrt_apply {s : Shape} {φ : FTy} (a : FVec Ideal s φ) (i : s.Idx) : rsqrt a i = Ideal.rsqrt (a i) := rfl

/-- The lane sum of a [256, 4096] vector, read at row r. -/
theorem rowsum_apply (v : FVec Ideal S256x4096 .f32) (h : S256x4096.Reduces [1] S256) (hφ : FKind.Formats .f32)
    (hacc : (0x00000000#32 : BitVec 32) = 0x00000000#32) (r : Fin 256) :
    multiReduction .add [1] S256 v 0x00000000#32 h hφ hacc (ix1 r) = ∑ k : Fin 4096, v (ix2 r k) := by
  refine (Ideal.multiReduction_add_single v 0x00000000#32 h hφ hacc (ix1 r)).trans ?_
  show (∑ k : Fin 4096, v (h.lift (ix1 r) k)) = _
  refine Finset.sum_congr rfl fun k _ => congrArg v ?_
  funext a
  apply Fin.ext
  match a with
  | ⟨0, _⟩ => rfl
  | ⟨1, _⟩ => rfl

/-- The body's result block at (0, ch, p), for blocks that read as the inputs at batch b: the two-pass
    normalisation of the row. -/
theorem pay_apply (A : Cert.Spec.AdainIn) (b : Fin 8)
    (x0 : Vec Ideal S1x256x4096 .f32) (x1 x2 : Vec Ideal S1x256x1 .f32)
    (h0 : ∀ (ch : Fin 256) (p : Fin 4096), x0 (ix3 (0 : Fin 1) ch p) = A.x b ch p)
    (h1 : ∀ ch : Fin 256, x1 (ix3 (0 : Fin 1) ch (0 : Fin 1)) = A.gam b ch)
    (h2 : ∀ ch : Fin 256, x2 (ix3 (0 : Fin 1) ch (0 : Fin 1)) = A.bet b ch)
    (u : Fin 1) (ch : Fin 256) (p : Fin 4096) :
    k1_pay1 x0 x1 x2 (ix3 u ch p) = A.outR b ch p := by
  unfold k1_pay1
  dsimp only
  refine (shapeCast_ab_1ab_apply _ _ u ch p).trans ?_
  simp only [addf_apply, mulf_apply, subf_apply, divf_apply, rsqrt_apply, broadcast_apply, bcast_col_apply,
    col_of_vec_apply, shapeCast_1ab_ab_apply, h0, h1, h2]
  rw [rowsum_apply, rowsum_apply]
  simp only [mulf_apply, subf_apply, divf_apply, broadcast_apply, bcast_col_apply,
    col_of_vec_apply, shapeCast_1ab_ab_apply, h0]
  rw [rowsum_apply]
  simp only [shapeCast_1ab_ab_apply, h0]
  unfold AdainIn.outR AdainIn.varR AdainIn.muR
  rfl

/-- The same at any index of the block. -/
theorem pay_apply_idx (A : Cert.Spec.AdainIn) (b : Fin 8)
    (x0 : Vec Ideal S1x256x4096 .f32) (x1 x2 : Vec Ideal S1x256x1 .f32)
    (h0 : ∀ (ch : Fin 256) (p : Fin 4096), x0 (ix3 (0 : Fin 1) ch p) = A.x b ch p)
    (h1 : ∀ ch : Fin 256, x1 (ix3 (0 : Fin 1) ch (0 : Fin 1)) = A.gam b ch)
    (h2 : ∀ ch : Fin 256, x2 (ix3 (0 : Fin 1) ch (0 : Fin 1)) = A.bet b ch)
    (y : S1x256x4096.Idx) :
    k1_pay1 x0 x1 x2 y = A.outR b (y 1) (y 2) := by
  exact (congrArg (k1_pay1 x0 x1 x2) (eq_ix3 y)).trans (pay_apply A b x0 x1 x2 h0 h1 h2 (y 0) (y 1) (y 2))

/-! ## From the blocks to the array -/

/-- The image array, the two gate arrays, and their blocks at a point, by their literal types. -/
abbrev xarr (c : Dev nD) : Vec Ideal S8x256x4096 .f32 := V c main_v4
abbrev garr (c : Dev nD) : Vec Ideal S8x256x1 .f32 := V c main_v3_0
abbrev barr (c : Dev nD) : Vec Ideal S8x256x1 .f32 := V c main_v3_1
abbrev xblk (c : Dev nD) (t : Fin cfg1.N) : Vec Ideal S1x256x4096 .f32 := iblk1 V c 0 t
abbrev gblk (c : Dev nD) (t : Fin cfg1.N) : Vec Ideal S1x256x1 .f32 := iblk1 V c 1 t
abbrev bblk (c : Dev nD) (t : Fin cfg1.N) : Vec Ideal S1x256x1 .f32 := iblk1 V c 2 t

/-- Every window's block index at point t is (t, 0, 0). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The image block at point t is batch t of the image array. -/
theorem xblk_apply (c : Dev nD) (t : Fin cfg1.N) (y : S1x256x4096.Idx) (k : S8x256x4096.Idx)
    (hk0 : (k 0).val = t.val) (hk1 : (k 1).val = (y 1).val) (hk2 : (k 2).val = (y 2).val) :
    xblk V c t y = xarr V c k := by
  obtain ⟨⟨e0, e1, e2⟩, -⟩ := idx_facts t
  have hy0 : (y 0).val < 1 := (y 0).isLt
  show iblk1 V c 0 t y = V c main_v4 k
  unfold iblk1
  rw [View.read_apply]
  show V c main_v4 _ = V c main_v4 _
  congr 1
  funext a
  apply Fin.ext
  match a with
  | ⟨0, _⟩ => show win1_0.index t (0 : Fin 3) * 1 + 1 * (y 0).val = (k 0).val; rw [e0, hk0]; omega
  | ⟨1, _⟩ => show win1_0.index t (1 : Fin 3) * 256 + 1 * (y 1).val = (k 1).val; rw [e1, hk1]; omega
  | ⟨2, _⟩ => show win1_0.index t (2 : Fin 3) * 4096 + 1 * (y 2).val = (k 2).val; rw [e2, hk2]; omega

/-- The first gate block at point t is batch t of its array. -/
theorem gblk_apply (c : Dev nD) (t : Fin cfg1.N) (y : S1x256x1.Idx) (k : S8x256x1.Idx)
    (hk0 : (k 0).val = t.val) (hk1 : (k 1).val = (y 1).val) :
    gblk V c t y = garr V c k := by
  obtain ⟨-, ⟨e0, e1, e2⟩, -⟩ := idx_facts t
  have hy0 : (y 0).val < 1 := (y 0).isLt
  have hy2 : (y 2).val < 1 := (y 2).isLt
  have hk2 : (k 2).val < 1 := (k 2).isLt
  show iblk1 V c 1 t y = V c main_v3_0 k
  unfold iblk1
  rw [View.read_apply]
  show V c main_v3_0 _ = V c main_v3_0 _
  congr 1
  funext a
  apply Fin.ext
  match a with
  | ⟨0, _⟩ => show win1_1.index t (0 : Fin 3) * 1 + 1 * (y 0).val = (k 0).val; rw [e0, hk0]; omega
  | ⟨1, _⟩ => show win1_1.index t (1 : Fin 3) * 256 + 1 * (y 1).val = (k 1).val; rw [e1, hk1]; omega
  | ⟨2, _⟩ => show win1_1.index t (2 : Fin 3) * 1 + 1 * (y 2).val = (k 2).val; rw [e2]; omega

/-- The second gate block at point t is batch t of its array. -/
theorem bblk_apply (c : Dev nD) (t : Fin cfg1.N) (y : S1x256x1.Idx) (k : S8x256x1.Idx)
    (hk0 : (k 0).val = t.val) (hk1 : (k 1).val = (y 1).val) :
    bblk V c t y = barr V c k := by
  obtain ⟨-, -, ⟨e0, e1, e2⟩, -⟩ := idx_facts t
  have hy0 : (y 0).val < 1 := (y 0).isLt
  have hy2 : (y 2).val < 1 := (y 2).isLt
  have hk2 : (k 2).val < 1 := (k 2).isLt
  show iblk1 V c 2 t y = V c main_v3_1 k
  unfold iblk1
  rw [View.read_apply]
  show V c main_v3_1 _ = V c main_v3_1 _
  congr 1
  funext a
  apply Fin.ext
  match a with
  | ⟨0, _⟩ => show win1_2.index t (0 : Fin 3) * 1 + 1 * (y 0).val = (k 0).val; rw [e0, hk0]; omega
  | ⟨1, _⟩ => show win1_2.index t (1 : Fin 3) * 256 + 1 * (y 1).val = (k 1).val; rw [e1, hk1]; omega
  | ⟨2, _⟩ => show win1_2.index t (2 : Fin 3) * 1 + 1 * (y 2).val = (k 2).val; rw [e2]; omega

/-- The zero offsets of a whole-block access, as a constant function. -/
theorem hz3 : (![0, 0, 0] : Fin 3 → Nat) = fun _ => 0 := funext fun a => by fin_cases a <;> rfl

/-- The whole result array as one function of the index: the two-pass normalisation of the inputs. -/
abbrev outArr (A : Cert.Spec.AdainIn) : Vec Ideal S8x256x4096 .f32 := fun i => A.outR (i 0) (i 1) (i 2)

/-- What point t writes back is block t of that function. -/
theorem flushed_eq (c : Dev nD) (A : Cert.Spec.AdainIn)
    (hx : ∀ (b : Fin 8) (ch : Fin 256) (p : Fin 4096), xarr V c (ix3 b ch p) = A.x b ch p)
    (hg : ∀ (b : Fin 8) (ch : Fin 256), garr V c (ix3 b ch (0 : Fin 1)) = A.gam b ch)
    (hb : ∀ (b : Fin 8) (ch : Fin 256), barr V c (ix3 b ch (0 : Fin 1)) = A.bet b ch)
    (t : Fin cfg1.N) :
    (dat1 V c).flushed 3 t = ((cfg1.win 3).blk t).view.read (Elt Ideal) (outArr A) := by
  have ht : t.val < 8 := by have h := t.isLt; have hN : cfg1.N = 8 := N_1; omega
  obtain ⟨-, -, -, ⟨e0, e1, e2⟩⟩ := idx_facts t
  show (cfg1.win 3).cut (grid1.coords t) ((dat1 V c).after 3 t) = _
  rw [after1_3]
  unfold out1_3
  rw [View.canon_unit_zero hz3]
  simp only [View.ld_unit_zero (S := S1x256x4096) hz3, View.ld_unit_zero (S := S1x256x1) hz3]
  funext y
  rw [View.read_apply]
  refine (pay_apply_idx A ⟨t.val, ht⟩ (xblk V c t) (gblk V c t) (bblk V c t)
    (fun ch p => (xblk_apply V c t (ix3 (0 : Fin 1) ch p) (ix3 (⟨t.val, ht⟩ : Fin 8) ch p) rfl rfl rfl).trans (hx ⟨t.val, ht⟩ ch p))
    (fun ch => (gblk_apply V c t (ix3 (0 : Fin 1) ch (0 : Fin 1)) (ix3 (⟨t.val, ht⟩ : Fin 8) ch (0 : Fin 1)) rfl rfl).trans (hg ⟨t.val, ht⟩ ch))
    (fun ch => (bblk_apply V c t (ix3 (0 : Fin 1) ch (0 : Fin 1)) (ix3 (⟨t.val, ht⟩ : Fin 8) ch (0 : Fin 1)) rfl rfl).trans (hb ⟨t.val, ht⟩ ch))
    ((cfg1.win 3).xinj (grid1.coords t) y)).trans ?_
  have hy0 : (y 0).val < 1 := (y 0).isLt
  have q0 : (⟨t.val, ht⟩ : Fin 8) = ((cfg1.win 3).blk t).view.emb y 0 :=
    Fin.ext (by show t.val = win1_3.index t (0 : Fin 3) * 1 + 1 * (y 0).val; rw [e0]; omega)
  have q1 : (cfg1.win 3).xinj (grid1.coords t) y 1 = ((cfg1.win 3).blk t).view.emb y 1 :=
    Fin.ext (by show (y 1).val = win1_3.index t (1 : Fin 3) * 256 + 1 * (y 1).val; rw [e1]; omega)
  have q2 : (cfg1.win 3).xinj (grid1.coords t) y 2 = ((cfg1.win 3).blk t).view.emb y 2 :=
    Fin.ext (by show (y 2).val = win1_3.index t (2 : Fin 3) * 4096 + 1 * (y 2).val; rw [e2]; omega)
  exact congr (congr (congrArg A.outR q0) q1) q2

/-- An index of the result array is in point t's block iff each coordinate is in the block's range. -/
theorem mem_blk (t : Fin cfg1.N) (i : S8x256x4096.Idx) :
    i ∈ ((cfg1.win 3).blk t).view.set ↔ ∀ a : Fin 3, win1_3.index t a * S1x256x4096.size a ≤ (i a).val ∧ (i a).val < win1_3.index t a * S1x256x4096.size a + S1x256x4096.size a := by
  show i ∈ ((View.whole main_v5).slice (win1_3.rect t)).set ↔ _
  rw [View.set_slice_whole, Rect.mem_set_unit]
  exact Iff.rfl

/-- Every index of the result array lies in the block of the point named by its batch coordinate. -/
theorem cover (i : S8x256x4096.Idx) :
    ∃ t : Fin cfg1.N, (cfg1.win 3).flush t = true ∧ i ∈ ((cfg1.win 3).blk t).view.set := by
  have hi0 : (i 0).val < 8 := (i 0).isLt
  have hi1 : (i 1).val < 256 := (i 1).isLt
  have hi2 : (i 2).val < 4096 := (i 2).isLt
  have hN : cfg1.N = 8 := N_1
  obtain ⟨t, ht⟩ : ∃ t : Fin cfg1.N, t.val = (i 0).val := ⟨⟨(i 0).val, by omega⟩, rfl⟩
  refine ⟨t, flush1_3 t, ?_⟩
  obtain ⟨-, -, -, ⟨e0, e1, e2⟩⟩ := idx_facts t
  rw [mem_blk]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 256 ≤ (i 1).val ∧ (i 1).val < win1_3.index t (1 : Fin 3) * 256 + 256; rw [e1]; omega
  | ⟨2, _⟩ => show win1_3.index t (2 : Fin 3) * 4096 ≤ (i 2).val ∧ (i 2).val < win1_3.index t (2 : Fin 3) * 4096 + 4096; rw [e2]; omega

end Adain

/-- The result array of the normalisation region, index by index, for any contents `V` at the region's entry whose
    three input arrays read as the inputs `A`. -/
theorem adain_array (c : Dev nD) (A : Cert.Spec.AdainIn)
    (hx : ∀ (b : Fin 8) (ch : Fin 256) (p : Fin 4096), (V c main_v4 : Vec Ideal S8x256x4096 .f32) (ix3 b ch p) = A.x b ch p)
    (hg : ∀ (b : Fin 8) (ch : Fin 256), (V c main_v3_0 : Vec Ideal S8x256x1 .f32) (ix3 b ch (0 : Fin 1)) = A.gam b ch)
    (hb : ∀ (b : Fin 8) (ch : Fin 256), (V c main_v3_1 : Vec Ideal S8x256x1 .f32) (ix3 b ch (0 : Fin 1)) = A.bet b ch)
    (b : Fin 8) (ch : Fin 256) (p : Fin 4096) :
    ((dat1 V c).arrAt 3 cfg1.N : Vec Ideal S8x256x4096 .f32) (ix3 b ch p) = A.outR b ch p := by
  have h := (dat1 V c).arrAt_eq_of_cover 3 (Adain.outArr A) (fun t _ => Adain.flushed_eq V c A hx hg hb t) Adain.cover
  exact congrFun h (ix3 b ch p)

end Cert.ReferenceIdeal.Val

end
-- ==== Proof.AdainMath.lean ====
/-
  The two forms of the normalisation agree on finite rows. With every entry of a row a real number r_p (p < 4096):
  dividing the row sum by 4096 is multiplying it by 2⁻¹², so the two means are one number μ; and
  (1/4096) Σ (r_p − μ)² = (1/4096) Σ r_p² − μ², the second moment minus the squared mean, so the two variances are one
  number; the rest of the two expressions is the same.
-/
import proofs.«107153_g2000701298156354_pallasbulk_673_6_alg».proof.Proof.Spec

noncomputable section

open scoped BigOperators

namespace Cert.Spec.AdainIn

open Idealize.ShloMosaic

/-- The coercion of the reals into the extended reals goes through finite sums (by induction on the index set). -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word 0x45800000 (exponent field 139, fraction 0) is 2¹² = 4096. -/
theorem lit_4096 : lit 0x45800000#32 = ((4096 : ℝ) : EReal) := by
  simp [lit, Ideal.ofBits, Ideal.ieee, -EReal.coe_mul]; norm_num

/-- The word 0x39800000 (exponent field 115, fraction 0) is 2⁻¹² = 1/4096. -/
theorem lit_inv4096 : lit 0x39800000#32 = ((1 / 4096 : ℝ) : EReal) := by
  simp [lit, Ideal.ofBits, Ideal.ieee, -EReal.coe_mul]; norm_num

/-- Dividing by 4096 is multiplying by 1/4096 on every extended real, so the two means are one value, finite or not. -/
theorem muR_eq_mu (A : AdainIn) (b : Fin 8) (c : Fin 256) : A.muR b c = A.mu b c := by
  unfold muR mu
  rw [lit_4096, Ideal.div_coe (by norm_num), lit_inv4096]

/-- The real identity: with μ = (1/4096) Σ r, (1/4096) Σ (r_p − μ)² = (1/4096) Σ r_p² − μ². Each square opens as
    r_p² − 2 μ r_p + μ²; summed over the 4096 entries that is Σ r_p² − 2 μ Σ r + 4096 μ², and Σ r = 4096 μ. -/
theorem real_var (r : Fin 4096 → ℝ) :
    (∑ p, (r p - (∑ q, r q) * (1 / 4096)) * (r p - (∑ q, r q) * (1 / 4096))) * (1 / 4096)
      = (∑ p, r p * r p) * (1 / 4096) - ((∑ q, r q) * (1 / 4096)) * ((∑ q, r q) * (1 / 4096)) := by
  generalize hS : (∑ q, r q) = S
  have h1 : ∀ p, (r p - S * (1 / 4096)) * (r p - S * (1 / 4096))
      = r p * r p - 2 * (S * (1 / 4096)) * r p + (S * (1 / 4096)) * (S * (1 / 4096)) := fun p => by ring
  rw [Finset.sum_congr rfl (fun p _ => h1 p), Finset.sum_add_distrib, Finset.sum_sub_distrib, ← Finset.mul_sum, hS,
    Finset.sum_const, Finset.card_univ, Fintype.card_fin, nsmul_eq_mul]
  push_cast
  ring

/-- On a finite row the two variances are one value: with real entries every sum is the coercion of a real sum, and
    the real identity above applies. -/
theorem varR_eq (A : AdainIn) (b : Fin 8) (c : Fin 256) (hfin : ∀ p : Fin 4096, ∃ r : ℝ, A.x b c p = (r : EReal)) :
    A.varR b c = A.ex2 b c - A.mu b c * A.mu b c := by
  choose r hr using hfin
  have hS : ∑ p, A.x b c p = ((∑ p, r p : ℝ) : EReal) := by
    rw [coe_sum]; exact Finset.sum_congr rfl (fun p _ => hr p)
  have hmu : A.mu b c = (((∑ p, r p) * (1 / 4096) : ℝ) : EReal) := by
    unfold mu; rw [hS, lit_inv4096, ← EReal.coe_mul]
  have hQ : ∑ p, A.x b c p * A.x b c p = ((∑ p, r p * r p : ℝ) : EReal) := by
    rw [coe_sum]; exact Finset.sum_congr rfl (fun p _ => by rw [hr p, ← EReal.coe_mul])
  have hex2 : A.ex2 b c = (((∑ p, r p * r p) * (1 / 4096) : ℝ) : EReal) := by
    unfold ex2; rw [hQ, lit_inv4096, ← EReal.coe_mul]
  have hV : ∑ p, (A.x b c p - A.mu b c) * (A.x b c p - A.mu b c)
      = ((∑ p, (r p - (∑ q, r q) * (1 / 4096)) * (r p - (∑ q, r q) * (1 / 4096)) : ℝ) : EReal) := by
    rw [coe_sum]
    refine Finset.sum_congr rfl (fun p _ => ?_)
    rw [hr p, hmu, ← EReal.coe_sub, ← EReal.coe_mul]
  unfold varR
  rw [muR_eq_mu, lit_4096, Ideal.div_coe (by norm_num), hV, hex2, hmu, ← EReal.coe_mul, ← EReal.coe_mul, ← EReal.coe_sub,
    real_var]

/-- On a finite image the two-pass form is the one-pass form, entry by entry. -/
theorem outR_eq_out (A : AdainIn) (hfin : ∀ (b : Fin 8) (c : Fin 256) (p : Fin 4096), ∃ r : ℝ, A.x b c p = (r : EReal))
    (b : Fin 8) (c : Fin 256) (p : Fin 4096) : A.outR b c p = A.out b c p := by
  unfold outR out
  rw [muR_eq_mu, varR_eq A b c (hfin b c)]

end Cert.Spec.AdainIn

end
-- ==== Proof.RResult.lean ====
/-
  The reference program's result buffer as one function of the argument arrays, on a finite image: the host tail
  reads the normalisation region's result array, that region (in the two-pass form) reads the image and the two gate
  arrays, which the gate region computed from what the host operations made of the arguments; on a finite image the
  two-pass form is the one-pass form.
-/
import proofs.«107153_g2000701298156354_pallasbulk_673_6_alg».proof.Proof.Gen.ReferenceIdeal.Frame
import proofs.«107153_g2000701298156354_pallasbulk_673_6_alg».proof.Proof.RArgs
import proofs.«107153_g2000701298156354_pallasbulk_673_6_alg».proof.Proof.RHost
import proofs.«107153_g2000701298156354_pallasbulk_673_6_alg».proof.Proof.RMid
import proofs.«107153_g2000701298156354_pallasbulk_673_6_alg».proof.Proof.RGate
import proofs.«107153_g2000701298156354_pallasbulk_673_6_alg».proof.Proof.RAdain
import proofs.«107153_g2000701298156354_pallasbulk_673_6_alg».proof.Proof.AdainMath
import proofs.«107153_g2000701298156354_pallasbulk_673_6_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.ReferenceIdeal.Val

open Cert.ReferenceIdeal Cert.ReferenceIdeal.Gen Cert.Spec

variable (m : (ℓ : Loc nD τ sig) → Buf (Elt Ideal) ℓ) (ρ : Dev nD → PrngReg)

/-- The result buffer after the run's last boundary is the specification's result of the image and the gate's inputs,
    when every entry of the image is a real number. -/
theorem result_eq (c : Dev nD) (hfin : ∀ i : S8x256x64x64.Idx, ∃ r : ℝ, aX m c i = (r : EReal)) :
    (W7 m ρ c (Proc.devRef .tc main_v6) : Vec Ideal S8x256x64x64 .f32) = Cert.Spec.result (aX m c) (gateIn m c) := by
  funext i
  rw [w7_res m ρ c i]
  have hG := gate_arrays (V3 m ρ) c (gateIn m c) (v3_v1 m ρ c) (v3_v2 m ρ c) (v3_arg2 m ρ c) (v3_arg3 m ρ c)
    (v3_arg4 m ρ c) (v3_arg5 m ρ c) (v3_arg6 m ρ c) (v3_arg7 m ρ c) (v3_arg8 m ρ c) (v3_arg9 m ρ c)
  refine (adain_array (V5 m ρ) c (Cert.Spec.AdainIn.ofImage (aX m c) (gateIn m c).gamma (gateIn m c).beta)
    (fun b ch p => v5_x m ρ c b ch p)
    (fun b ch => (v5_gam m ρ c b ch).trans (hG.1 b ch))
    (fun b ch => (v5_bet m ρ c b ch).trans (hG.2 b ch)) (i 0) (i 1) _).trans ?_
  exact Cert.Spec.AdainIn.outR_eq_out _ (fun b ch p => hfin _) _ _ _

end Cert.ReferenceIdeal.Val

end
-- ==== Proof.Finite.lean ====
/-
  The precondition "every float input is finite" read at the image: the predicate is the conjunction, over the ten
  arguments, of "all |entry| < +∞"; when it is all ones, every entry of the first argument is a real number.
-/
import proofs.«107153_g2000701298156354_pallasbulk_673_6_alg».proof.Defs
import proofs.«107153_g2000701298156354_pallasbulk_673_6_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The scalar shape has exactly one index. -/
instance : Subsingleton S_.Idx := ⟨fun a b => funext fun d => d.elim0⟩

/-- An extended real whose absolute value, max x (-x), lies strictly below +∞ is neither infinity, hence a real. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞ in single precision. -/
theorem inf_word : Ideal.ofBits .f32 0x7F800000#32 = (⊤ : EReal) := by
  simp [Ideal.ofBits, Ideal.ieee]

/-- One entry: if the comparison |x| < +∞ holds (the bit is 1), then x is a real. -/
theorem real_of_cmp (x : Ideal .f32)
    (h : Ideal.cmp .olt (max (x : EReal) (-(x : EReal))) (Ideal.ofBits .f32 0x7F800000#32) = 1#1) :
    ∃ r : ℝ, x = (r : EReal) := by
  rw [inf_word] at h
  refine real_of_abs_lt_top x ?_
  unfold Ideal.cmp at h
  by_contra hn
  simp [hn] at h

/-- A conjunction of two one-bit arrays that is 1 at an index has its left conjunct 1 there. -/
theorem andi_left {s : Shape} (a b : IVec s 1) (j : s.Idx) (h : andi a b j = 1#1) : a j = 1#1 :=
  (IntOp.andi_eq_one.1 h).1

/-- Where the finiteness predicate of the ten arrays is all ones, every entry of the first array is a real. -/
theorem x_real [hP : Cert.Pre_finite_inputs.Facts]
    (x0 : FVec Ideal S8x256x64x64 .f32) (x1 : FVec Ideal S8x256x16x16 .f32) (x2 : FVec Ideal S256x256 .f32)
    (x3 : FVec Ideal S256x1 .f32) (x4 : FVec Ideal S9x512x256 .f32) (x5 : FVec Ideal S512x1 .f32)
    (x6 : FVec Ideal S256x512 .f32) (x7 : FVec Ideal S256x1 .f32) (x8 : FVec Ideal S9x512x256 .f32)
    (x9 : FVec Ideal S512x1 .f32)
    (h : Cert.Pre_finite_inputs.fn (F := Ideal) x0 x1 x2 x3 x4 x5 x6 x7 x8 x9 = (fun _ => 1#1))
    (i : S8x256x64x64.Idx) : ∃ r : ℝ, x0 i = (r : EReal) := by
  have h0 := congrFun h ValueIdx.ix0
  dsimp only [fn, fn_part1, fn_part2] at h0
  have h3 := andi_left _ _ _ (andi_left _ _ _ (andi_left _ _ _ (andi_left _ _ _ (andi_left _ _ _
    (andi_left _ _ _ (andi_left _ _ _ (andi_left _ _ _ (andi_left _ _ _ h0))))))))
  have he := Host.reduce_andi_all _ _ _ _ _ h3 i
  exact real_of_cmp (x0 i) he

end Cert.Finite

end
-- ==== Proof.lean ====
/-
  The kernel normalises an image [8, 256, 64, 64] per (batch, channel) plane and modulates it by two gates computed from
  a second map [8, 256, 16, 16] by a small convolutional network (reflection padding, 1×1 and 3×3 convolutions, ReLU,
  a scaled ReLU, a masked global mean, 3 / (1 + e^(−m))). Both programs run two regions: the gate network, then the
  normalisation.

  The kernel program lays four batches side by side on the flat axis and folds the nine taps of each 3×3
  convolution into the contracted axis of ONE product; the reference program runs one batch per grid point and
  adds nine products. Over the extended reals a sum may be regrouped freely, a change of float format is the
  identity, and the positions the wide layout adds are read by no kept position: both gates are the specification's
  (`Cert.Spec.GateIn.gamma`, `beta`).
  The kernel takes the variance as the second moment minus the squared mean, with the mean as the sum times 2⁻¹²;
  the reference as the mean of the squared deviations, dividing by 4096. On a finite image (the precondition) these
  are one number, so the two results are the specification's (`Cert.Spec.result`).

  The frames are the generated ones; nothing was rewritten by the ideal pass, so `preserves` is trivial.
-/
import proofs.«107153_g2000701298156354_pallasbulk_673_6_alg».proof.Defs
import proofs.«107153_g2000701298156354_pallasbulk_673_6_alg».proof.Proof.Gen.Kernel
import proofs.«107153_g2000701298156354_pallasbulk_673_6_alg».proof.Proof.Gen.Kernel.Skeleton
import proofs.«107153_g2000701298156354_pallasbulk_673_6_alg».proof.Proof.Gen.Kernel.Launch
import proofs.«107153_g2000701298156354_pallasbulk_673_6_alg».proof.Proof.Gen.Kernel.Points
import proofs.«107153_g2000701298156354_pallasbulk_673_6_alg».proof.Proof.Gen.Kernel.Frame
import proofs.«107153_g2000701298156354_pallasbulk_673_6_alg».proof.Proof.Gen.KernelIdeal
import proofs.«107153_g2000701298156354_pallasbulk_673_6_alg».proof.Proof.Gen.KernelIdeal.Skeleton
import proofs.«107153_g2000701298156354_pallasbulk_673_6_alg».proof.Proof.Gen.KernelIdeal.Launch
import proofs.«107153_g2000701298156354_pallasbulk_673_6_alg».proof.Proof.Gen.KernelIdeal.Points
import proofs.«107153_g2000701298156354_pallasbulk_673_6_alg».proof.Proof.Gen.KernelIdeal.Frame
import proofs.«107153_g2000701298156354_pallasbulk_673_6_alg».proof.Proof.Gen.ReferenceIdeal
import proofs.«107153_g2000701298156354_pallasbulk_673_6_alg».proof.Proof.Gen.ReferenceIdeal.Skeleton
import proofs.«107153_g2000701298156354_pallasbulk_673_6_alg».proof.Proof.Gen.ReferenceIdeal.Launch
import proofs.«107153_g2000701298156354_pallasbulk_673_6_alg».proof.Proof.Gen.ReferenceIdeal.Points
import proofs.«107153_g2000701298156354_pallasbulk_673_6_alg».proof.Proof.Gen.ReferenceIdeal.Frame
import proofs.«107153_g2000701298156354_pallasbulk_673_6_alg».proof.Proof.Gen.Pre_finite_inputs
import proofs.«107153_g2000701298156354_pallasbulk_673_6_alg».proof.Proof.KRun
import proofs.«107153_g2000701298156354_pallasbulk_673_6_alg».proof.Proof.RRun
import proofs.«107153_g2000701298156354_pallasbulk_673_6_alg».proof.Proof.KResult
import proofs.«107153_g2000701298156354_pallasbulk_673_6_alg».proof.Proof.RResult
import proofs.«107153_g2000701298156354_pallasbulk_673_6_alg».proof.Proof.Finite
import Idealize.ShloMosaic.Adequacy
import Idealize.ShloMosaic.Init

set_option maxRecDepth 16384

noncomputable section

namespace Cert.Proof

open Idealize.ShloMosaic Idealize.SL.Sem

/-- At the ideal instance both programs end with the specification's result of the arguments: the kernel program by
    its value chain, the reference program by its own, where the image is finite; the arguments agree. -/
theorem algebraic : Cert.algebraic_KernelIdeal_ReferenceIdeal := by
  intro m ρ m' ρ' hpre hagree
  refine ⟨fun c => Cert.Spec.result (Cert.KernelIdeal.Val.aX m c) (Cert.KernelIdeal.Val.gateIn m c), ?_, ?_⟩
  · exact (θ_run Cert.KernelIdeal.defs _ _).mono
      (fun r h c => ⟨(h c).1.trans (Cert.KernelIdeal.Val.result_eq m ρ c), (h c).2⟩)
      (Cert.KernelIdeal.GenRun.run_w7 (F := Ideal) m ρ)
  · refine (θ_run Cert.ReferenceIdeal.defs _ _).mono (fun r h c => ⟨(h c).1.trans ?_, (h c).2⟩)
      (Cert.ReferenceIdeal.GenRun.run_w7 (F := Ideal) m' ρ')
    have hx : Cert.ReferenceIdeal.Val.aX m' c = Cert.KernelIdeal.Val.aX m c := (hagree c).1
    have hfin : ∀ i, ∃ r : ℝ, Cert.ReferenceIdeal.Val.aX m' c i = (r : EReal) := fun i => by
      rw [hx]
      exact Cert.Finite.x_real _ _ _ _ _ _ _ _ _ _ (hpre c) i
    rw [Cert.ReferenceIdeal.Val.result_eq m' ρ' c hfin]
    have h1 : Cert.ReferenceIdeal.Val.aZ m' c = Cert.KernelIdeal.Val.aZ m c := (hagree c).2.1
    have h2 : Cert.ReferenceIdeal.Val.a2 m' c = Cert.KernelIdeal.Val.a2 m c := (hagree c).2.2.1
    have h3 : Cert.ReferenceIdeal.Val.a3 m' c = Cert.KernelIdeal.Val.a3 m c := (hagree c).2.2.2.1
    have h4 : Cert.ReferenceIdeal.Val.a4 m' c = Cert.KernelIdeal.Val.a4 m c := (hagree c).2.2.2.2.1
    have h5 : Cert.ReferenceIdeal.Val.a5 m' c = Cert.KernelIdeal.Val.a5 m c := (hagree c).2.2.2.2.2.1
    have h6 : Cert.ReferenceIdeal.Val.a6 m' c = Cert.KernelIdeal.Val.a6 m c := (hagree c).2.2.2.2.2.2.1
    have h7 : Cert.ReferenceIdeal.Val.a7 m' c = Cert.KernelIdeal.Val.a7 m c := (hagree c).2.2.2.2.2.2.2.1
    have h8 : Cert.ReferenceIdeal.Val.a8 m' c = Cert.KernelIdeal.Val.a8 m c := (hagree c).2.2.2.2.2.2.2.2.1
    have h9 : Cert.ReferenceIdeal.Val.a9 m' c = Cert.KernelIdeal.Val.a9 m c := (hagree c).2.2.2.2.2.2.2.2.2
    show Cert.Spec.result (Cert.ReferenceIdeal.Val.aX m' c)
        (Cert.Spec.GateIn.ofArgs (Cert.ReferenceIdeal.Val.aZ m' c) (Cert.ReferenceIdeal.Val.a2 m' c)
          (Cert.ReferenceIdeal.Val.a3 m' c) (Cert.ReferenceIdeal.Val.a4 m' c) (Cert.ReferenceIdeal.Val.a5 m' c)
          (Cert.ReferenceIdeal.Val.a6 m' c) (Cert.ReferenceIdeal.Val.a7 m' c) (Cert.ReferenceIdeal.Val.a8 m' c)
          (Cert.ReferenceIdeal.Val.a9 m' c))
      = Cert.Spec.result (Cert.KernelIdeal.Val.aX m c)
        (Cert.Spec.GateIn.ofArgs (Cert.KernelIdeal.Val.aZ m c) (Cert.KernelIdeal.Val.a2 m c)
          (Cert.KernelIdeal.Val.a3 m c) (Cert.KernelIdeal.Val.a4 m c) (Cert.KernelIdeal.Val.a5 m c)
          (Cert.KernelIdeal.Val.a6 m c) (Cert.KernelIdeal.Val.a7 m c) (Cert.KernelIdeal.Val.a8 m c)
          (Cert.KernelIdeal.Val.a9 m c))
    rw [hx, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
